-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S_ : Shape := ⟨0, ![]⟩
abbrev S11264x4096 : Shape := ⟨2, ![11264, 4096]⟩
abbrev S4096x11264 : Shape := ⟨2, ![4096, 11264]⟩
abbrev S512x4096 : Shape := ⟨2, ![512, 4096]⟩
abbrev S512 : Shape := ⟨1, ![512]⟩
abbrev S512x1 : Shape := ⟨2, ![512, 1]⟩
abbrev S128x4096 : Shape := ⟨2, ![128, 4096]⟩
abbrev S1024x4096 : Shape := ⟨2, ![1024, 4096]⟩
abbrev S128x1024 : Shape := ⟨2, ![128, 1024]⟩
abbrev S128x11264 : Shape := ⟨2, ![128, 11264]⟩
abbrev S128 : Shape := ⟨1, ![128]⟩
abbrev S128x1 : Shape := ⟨2, ![128, 1]⟩
abbrev S1024x256 : Shape := ⟨2, ![1024, 256]⟩
abbrev S1024x1024 : Shape := ⟨2, ![1024, 1024]⟩

abbrev nBuf : Space → Nat
  | .hbm => 88
  | .vmem => 23
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x4096, .f32⟩
  | .hbm, ⟨5, _⟩ => ⟨S11008x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S11008x4096, .f32⟩
  | .hbm, ⟨15, _⟩ => ⟨S11008x4096, .f32⟩
  | .hbm, ⟨16, _⟩ => ⟨S11008x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S11008x4096, .f32⟩
  | .hbm, ⟨21, _⟩ => ⟨S11008x4096, .f32⟩
  | .hbm, ⟨22, _⟩ => ⟨S_, .f32⟩
  | .hbm, ⟨23, _⟩ => ⟨S11008x4096, .f32⟩
  | .hbm, ⟨24, _⟩ => ⟨S11008x4096, .f32⟩
  | .hbm, ⟨25, _⟩ => ⟨S11008x4096, .f32⟩
  | .hbm, ⟨26, _⟩ => ⟨S11008x4096, .f32⟩
  | .hbm, ⟨27, _⟩ => ⟨S11008x4096, .bf16⟩
  | .hbm, ⟨28, _⟩ => ⟨S11008x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S11008x4096, .f32⟩
  | .hbm, ⟨38, _⟩ => ⟨S11008x4096, .f32⟩
  | .hbm, ⟨39, _⟩ => ⟨S11008x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S11008x4096, .f32⟩
  | .hbm, ⟨44, _⟩ => ⟨S11008x4096, .f32⟩
  | .hbm, ⟨45, _⟩ => ⟨S_, .f32⟩
  | .hbm, ⟨46, _⟩ => ⟨S11008x4096, .f32⟩
  | .hbm, ⟨47, _⟩ => ⟨S11008x4096, .f32⟩
  | .hbm, ⟨48, _⟩ => ⟨S11008x4096, .f32⟩
  | .hbm, ⟨49, _⟩ => ⟨S11008x4096, .f32⟩
  | .hbm, ⟨50, _⟩ => ⟨S11008x4096, .bf16⟩
  | .hbm, ⟨51, _⟩ => ⟨S4096x11008, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x11008, .f32⟩
  | .hbm, ⟨61, _⟩ => ⟨S4096x11008, .f32⟩
  | .hbm, ⟨62, _⟩ => ⟨S4096x11008, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096x11008, .f32⟩
  | .hbm, ⟨67, _⟩ => ⟨S4096x11008, .f32⟩
  | .hbm, ⟨68, _⟩ => ⟨S_, .f32⟩
  | .hbm, ⟨69, _⟩ => ⟨S4096x11008, .f32⟩
  | .hbm, ⟨70, _⟩ => ⟨S4096x11008, .f32⟩
  | .hbm, ⟨71, _⟩ => ⟨S4096x11008, .f32⟩
  | .hbm, ⟨72, _⟩ => ⟨S4096x11008, .f32⟩
  | .hbm, ⟨73, _⟩ => ⟨S4096x11008, .bf16⟩
  | .hbm, ⟨74, _⟩ => ⟨S_, .i32⟩
  | .hbm, ⟨75, _⟩ => ⟨S_, .bf16⟩
  | .hbm, ⟨76, _⟩ => ⟨S11264x4096, .bf16⟩
  | .hbm, ⟨77, _⟩ => ⟨S_, .i32⟩
  | .hbm, ⟨78, _⟩ => ⟨S_, .bf16⟩
  | .hbm, ⟨79, _⟩ => ⟨S11264x4096, .bf16⟩
  | .hbm, ⟨80, _⟩ => ⟨S_, .i32⟩
  | .hbm, ⟨81, _⟩ => ⟨S_, .bf16⟩
  | .hbm, ⟨82, _⟩ => ⟨S4096x11264, .bf16⟩
  | .hbm, ⟨83, _⟩ => ⟨S4096x4096, .bf16⟩
  | .hbm, ⟨84, _⟩ => ⟨S4096x11264, .bf16⟩
  | .hbm, ⟨85, _⟩ => ⟨S4096x11264, .bf16⟩
  | .hbm, ⟨86, _⟩ => ⟨S4096x4096, .f32⟩
  | .hbm, ⟨87, _⟩ => ⟨S2x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S128x4096, .bf16⟩
  | .local _ .vmem, ⟨5, _⟩ => ⟨S128x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x4096, .bf16⟩
  | .local _ .vmem, ⟨10, _⟩ => ⟨S128x1024, .bf16⟩
  | .local _ .vmem, ⟨11, _⟩ => ⟨S128x1024, .bf16⟩
  | .local _ .vmem, ⟨12, _⟩ => ⟨S128x11264, .bf16⟩
  | .local _ .vmem, ⟨13, _⟩ => ⟨S128x11264, .bf16⟩
  | .local _ .vmem, ⟨14, _⟩ => ⟨S128x11264, .bf16⟩
  | .local _ .vmem, ⟨15, _⟩ => ⟨S128x11264, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_cst_8 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_9 : Ref sig .tc := ⟨.hbm, 40, rfl⟩
abbrev main_cst_10 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_11 : Ref sig .tc := ⟨.hbm, 52, rfl⟩
abbrev main_v26 : Ref sig .tc := ⟨.hbm, 53, rfl⟩
abbrev main_cst_12 : Ref sig .tc := ⟨.hbm, 54, rfl⟩
abbrev main_v27 : Ref sig .tc := ⟨.hbm, 55, rfl⟩
abbrev main_cst_13 : Ref sig .tc := ⟨.hbm, 56, rfl⟩
abbrev main_v28 : Ref sig .tc := ⟨.hbm, 57, rfl⟩
abbrev main_cst_14 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_15 : Ref sig .tc := ⟨.hbm, 63, rfl⟩
abbrev main_cst_16 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c : Ref sig .tc := ⟨.hbm, 74, rfl⟩
abbrev main_call6_v0 : Ref sig .tc := ⟨.hbm, 75, rfl⟩
abbrev main_v37 : Ref sig .tc := ⟨.hbm, 76, rfl⟩
abbrev main_c_17 : Ref sig .tc := ⟨.hbm, 77, rfl⟩
abbrev main_call7_v0 : Ref sig .tc := ⟨.hbm, 78, rfl⟩
abbrev main_v38 : Ref sig .tc := ⟨.hbm, 79, rfl⟩
abbrev main_c_18 : Ref sig .tc := ⟨.hbm, 80, rfl⟩
abbrev main_call8_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![11, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x11264 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x11264 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨3, ![4, 4, 44], ![false, false, false]⟩

def k3_cond2 (i : grid3.Coords) : BitVec 1 :=
  let arg2 : BitVec 32 := BitVec.ofNat 32 (i 2).val
  let c43_i32 : BitVec 32 := 43#32
  let v13 : BitVec 1 := Scalar.cmpi .eq arg2 c43_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

class Facts₀ : Prop where
  shapeCasts_S2x2048x4096_S4096x4096 : S2x2048x4096.ShapeCasts S4096x4096
  reducesTo_S11008x4096_S_d0_1 : S11008x4096.ReducesTo [0, 1] S_
  h_S_ : 0 < S_.numel
  bcast_S_S11008x4096 : S_.BroadcastsInDim S11008x4096 (![] : Fin 0 → Fin S11008x4096.rank)
  bitsLt_bf16_f32 : FTy.bits .bf16 < FTy.bits .f32
  reducesTo_S4096x11008_S_d0_1 : S4096x11008.ReducesTo [0, 1] S_
  bcast_S_S4096x11008 : S_.BroadcastsInDim S4096x11008 (![] : Fin 0 → Fin S4096x11008.rank)
  pads_S11008x4096_S11264x4096_02560_000 : S11008x4096.Pads (![0, 0] : Fin 2 → Nat) ![256, 0] ![0, 0] S11264x4096
  pads_S4096x11008_S4096x11264_000_02560 : S4096x11008.Pads (![0, 0] : Fin 2 → Nat) ![0, 256] ![0, 0] S4096x11264
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  packedbf16_S512x4096_S512x4096_0_0 : (Rect.unit (s := S512x4096) ![0, 0] S512x4096.size inb_S512x4096_S512x4096_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S128x1024_S128x1024_0_0 : ∀ a, (![0, 0] : Fin 2 → Nat) a + S128x1024.size a ≤ S128x1024.size a
  h_S128x1024 : 0 < S128x1024.numel
  packedbf16_S128x1024_S128x1024_0_0 : (Rect.unit (s := S128x1024) ![0, 0] S128x1024.size inb_S128x1024_S128x1024_0_0).PackedRows (EltTy.packing .bf16)
  inb_S128x11264_S128x11264_0_0 : ∀ a, (![0, 0] : Fin 2 → Nat) a + S128x11264.size a ≤ S128x11264.size a
  h_S128x11264 : 0 < S128x11264.numel
  shapeCasts_S128x11264_S128x11264 : S128x11264.ShapeCasts S128x11264
  reduces_S128x11264_S128 : S128x11264.Reduces [1] S128
  shapeCasts_S128_S128x1 : S128.ShapeCasts S128x1
  broadcasts_S128x1_S128x11264 : S128x1.Broadcasts S128x11264
  packedbf16_S128x11264_S128x11264_0_0 : (Rect.unit (s := S128x11264) ![0, 0] S128x11264.size inb_S128x11264_S128x11264_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S4096x4096_S2x2048x4096 : S4096x4096.ShapeCasts S2x2048x4096
  dot_S128x4096_S1024x4096_S128x1024_1_1_0_0_n_n_wf : DotDims.WF S128x4096 S1024x4096 S128x1024 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .bf16 = 32 ∨ (Rect.block (s := S4096x4096) S128x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S11264x4096.size a
  hwx1_1 : ∀ i : grid1.Coords, EltTy.bits .bf16 = 32 ∨ (Rect.block (s := S11264x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S11264x4096.size a
  hwx1_2 : ∀ i : grid1.Coords, EltTy.bits .bf16 = 32 ∨ (Rect.block (s := S11264x4096) S1024x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S4096x11264.size a
  hwx1_3 : ∀ i : grid1.Coords, EltTy.bits .bf16 = 32 ∨ (Rect.block (s := S4096x11264) S128x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x11264.size a ≤ S4096x11264.size a
  hwx2_0 : ∀ i : grid2.Coords, EltTy.bits .bf16 = 32 ∨ (Rect.block (s := S4096x11264) S128x11264.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x11264.size a ≤ S4096x11264.size a
  hwx2_1 : ∀ i : grid2.Coords, EltTy.bits .bf16 = 32 ∨ (Rect.block (s := S4096x11264) S128x11264.size (cc2_transform_1 i) (hinb2_1 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S4096x11264.size a
  hwx3_0 : ∀ i : grid3.Coords, EltTy.bits .bf16 = 32 ∨ (Rect.block (s := S4096x11264) S1024x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S4096x11264.size a
  hwx3_1 : ∀ i : grid3.Coords, EltTy.bits .bf16 = 32 ∨ (Rect.block (s := S4096x11264) S1024x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x4096.size a
  hwx3_2 : ∀ i : grid3.Coords, EltTy.bits .f32 = 32 ∨ (Rect.block (s := S4096x4096) S1024x1024.size (cc3_transform_2 i) (hinb3_2 i)).WholeWords (EltTy.packing .f32)

variable [Facts₀]

def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v40) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1024x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S128x11264.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S128x11264.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v42) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩
abbrev S2x2048 : Shape := ⟨2, ![2, 2048]⟩
abbrev S2x2048x1 : Shape := ⟨3, ![2, 2048, 1]⟩
abbrev S2x2048x11008 : Shape := ⟨3, ![2, 2048, 11008]⟩

abbrev nBuf : Space → Nat
  | .hbm => 153
  | .vmem => 0
  | .smem => 0
  | _ => 0

abbrev hbmTy0_0 (i : Nat) : BufTy := match i % 128 with
  | 0 => ⟨S2x2048x4096, .f32⟩
  | 1 => ⟨S11008x4096, .f32⟩
  | 2 => ⟨S11008x4096, .f32⟩
  | 3 => ⟨S4096x11008, .f32⟩
  | 4 => ⟨S2x2048x4096, .f32⟩
  | 5 => ⟨S_, .f32⟩
  | 6 => ⟨S2x2048, .f32⟩
  | 7 => ⟨S2x2048x1, .f32⟩
  | 8 => ⟨S_, .f32⟩
  | 9 => ⟨S_, .f32⟩
  | 10 => ⟨S2x2048x1, .f32⟩
  | 11 => ⟨S2x2048x1, .f32⟩
  | 12 => ⟨S_, .f32⟩
  | 13 => ⟨S2x2048x1, .f32⟩
  | 14 => ⟨S2x2048x1, .f32⟩
  | 15 => ⟨S2x2048x4096, .f32⟩
  | 16 => ⟨S2x2048x4096, .f32⟩
  | 17 => ⟨S2x2048x4096, .f32⟩
  | 18 => ⟨S_, .f32⟩
  | 19 => ⟨S_, .f32⟩
  | 20 => ⟨S_, .f32⟩
  | 21 => ⟨S2x2048x4096, .f32⟩
  | 22 => ⟨S2x2048x4096, .f32⟩
  | 23 => ⟨S_, .f32⟩
  | 24 => ⟨S2x2048x4096, .f32⟩
  | 25 => ⟨S2x2048x4096, .f32⟩
  | 26 => ⟨S2x2048x4096, .f32⟩
  | 27 => ⟨S2x2048x4096, .f32⟩
  | 28 => ⟨S11008x4096, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S11008x4096, .f32⟩
  | 39 => ⟨S11008x4096, .f32⟩
  | 40 => ⟨S11008x4096, .f32⟩
  | 41 => ⟨S_, .f32⟩
  | 42 => ⟨S_, .f32⟩
  | 43 => ⟨S_, .f32⟩
  | 44 => ⟨S11008x4096, .f32⟩
  | 45 => ⟨S11008x4096, .f32⟩
  | 46 => ⟨S_, .f32⟩
  | 47 => ⟨S11008x4096, .f32⟩
  | 48 => ⟨S11008x4096, .f32⟩
  | 49 => ⟨S11008x4096, .f32⟩
  | 50 => ⟨S11008x4096, .f32⟩
  | 51 => ⟨S2x2048x11008, .f32⟩
  | 52 => ⟨S2x2048x4096, .f32⟩
  | 53 => ⟨S_, .f32⟩
  | 54 => ⟨S2x2048, .f32⟩
  | 55 => ⟨S2x2048x1, .f32⟩
  | 56 => ⟨S_, .f32⟩
  | 57 => ⟨S_, .f32⟩
  | 58 => ⟨S2x2048x1, .f32⟩
  | 59 => ⟨S2x2048x1, .f32⟩
  | 60 => ⟨S_, .f32⟩
  | 61 => ⟨S2x2048x1, .f32⟩
  | 62 => ⟨S2x2048x1, .f32⟩
  | 63 => ⟨S2x2048x4096, .f32⟩
  | 64 => ⟨S2x2048x4096, .f32⟩
  | 65 => ⟨S2x2048x4096, .f32⟩
  | 66 => ⟨S_, .f32⟩
  | 67 => ⟨S_, .f32⟩
  | 68 => ⟨S_, .f32⟩
  | 69 => ⟨S2x2048x4096, .f32⟩
  | 70 => ⟨S2x2048x4096, .f32⟩
  | 71 => ⟨S_, .f32⟩
  | 72 => ⟨S2x2048x4096, .f32⟩
  | 73 => ⟨S2x2048x4096, .f32⟩
  | 74 => ⟨S2x2048x4096, .f32⟩
  | 75 => ⟨S2x2048x4096, .f32⟩
  | 76 => ⟨S11008x4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S11008x4096, .f32⟩
  | 87 => ⟨S11008x4096, .f32⟩
  | 88 => ⟨S11008x4096, .f32⟩
  | 89 => ⟨S_, .f32⟩
  | 90 => ⟨S_, .f32⟩
  | 91 => ⟨S_, .f32⟩
  | 92 => ⟨S11008x4096, .f32⟩
  | 93 => ⟨S11008x4096, .f32⟩
  | 94 => ⟨S_, .f32⟩
  | 95 => ⟨S11008x4096, .f32⟩
  | 96 => ⟨S11008x4096, .f32⟩
  | 97 => ⟨S11008x4096, .f32⟩
  | 98 => ⟨S11008x4096, .f32⟩
  | 99 => ⟨S2x2048x11008, .f32⟩
  | 100 => ⟨S_, .f32⟩
  | 101 => ⟨S2x2048x11008, .f32⟩
  | 102 => ⟨S2x2048x11008, .f32⟩
  | 103 => ⟨S2x2048x11008, .f32⟩
  | 104 => ⟨S2x2048x11008, .f32⟩
  | 105 => ⟨S2x2048x11008, .f32⟩
  | 106 => ⟨S_, .f32⟩
  | 107 => ⟨S2x2048, .f32⟩
  | 108 => ⟨S2x2048x1, .f32⟩
  | 109 => ⟨S_, .f32⟩
  | 110 => ⟨S_, .f32⟩
  | 111 => ⟨S2x2048x1, .f32⟩
  | 112 => ⟨S2x2048x1, .f32⟩
  | 113 => ⟨S_, .f32⟩
  | 114 => ⟨S2x2048x1, .f32⟩
  | 115 => ⟨S2x2048x1, .f32⟩
  | 116 => ⟨S2x2048x11008, .f32⟩
  | 117 => ⟨S2x2048x11008, .f32⟩
  | 118 => ⟨S2x2048x11008, .f32⟩
  | 119 => ⟨S_, .f32⟩
  | 120 => ⟨S_, .f32⟩
  | 121 => ⟨S_, .f32⟩
  | 122 => ⟨S2x2048x11008, .f32⟩
  | 123 => ⟨S2x2048x11008, .f32⟩
  | 124 => ⟨S_, .f32⟩
  | 125 => ⟨S2x2048x11008, .f32⟩
  | 126 => ⟨S2x2048x11008, .f32⟩
  | 127 => ⟨S2x2048x11008, .f32⟩
  | _ => ⟨S2x2048x4096, .f32⟩

abbrev hbmTy0_1 (i : Nat) : BufTy := match i % 128 with
  | 0 => ⟨S2x2048x11008, .f32⟩
  | 1 => ⟨S4096x11008, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4096x11008, .f32⟩
  | 12 => ⟨S4096x11008, .f32⟩
  | 13 => ⟨S4096x11008, .f32⟩
  | 14 => ⟨S_, .f32⟩
  | 15 => ⟨S_, .f32⟩
  | 16 => ⟨S_, .f32⟩
  | 17 => ⟨S4096x11008, .f32⟩
  | 18 => ⟨S4096x11008, .f32⟩
  | 19 => ⟨S_, .f32⟩
  | 20 => ⟨S4096x11008, .f32⟩
  | 21 => ⟨S4096x11008, .f32⟩
  | 22 => ⟨S4096x11008, .f32⟩
  | 23 => ⟨S4096x11008, .f32⟩
  | 24 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_cst_6 : Ref sig .tc := ⟨.hbm, 33, rfl⟩
abbrev main_call3_v0 : Ref sig .tc := ⟨.hbm, 34, rfl⟩
abbrev main_v15 : Ref sig .tc := ⟨.hbm, 35, rfl⟩
abbrev main_cst_7 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_8 : Ref sig .tc := ⟨.hbm, 41, rfl⟩
abbrev main_cst_9 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_10 : Ref sig .tc := ⟨.hbm, 53, rfl⟩
abbrev main_v25 : Ref sig .tc := ⟨.hbm, 54, rfl⟩
abbrev main_v26 : Ref sig .tc := ⟨.hbm, 55, rfl⟩
abbrev main_cst_11 : Ref sig .tc := ⟨.hbm, 56, rfl⟩
abbrev main_call6_v0 : Ref sig .tc := ⟨.hbm, 57, rfl⟩
abbrev main_call6_v1 : Ref sig .tc := ⟨.hbm, 58, rfl⟩
abbrev main_v27 : Ref sig .tc := ⟨.hbm, 59, rfl⟩
abbrev main_cst_12 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_13 : Ref sig .tc := ⟨.hbm, 66, rfl⟩
abbrev main_cst_14 : Ref sig .tc := ⟨.hbm, 67, rfl⟩
abbrev main_call8_v0 : Ref sig .tc := ⟨.hbm, 68, rfl⟩
abbrev main_call8_v1 : Ref sig .tc := ⟨.hbm, 69, rfl⟩
abbrev main_call8_v2 : Ref sig .tc := ⟨.hbm, 70, rfl⟩
abbrev main_call8_v3 : Ref sig .tc := ⟨.hbm, 71, rfl⟩
abbrev main_call8_v4 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_15 : Ref sig .tc := ⟨.hbm, 77, rfl⟩
abbrev main_v37 : Ref sig .tc := ⟨.hbm, 78, rfl⟩
abbrev main_cst_16 : Ref sig .tc := ⟨.hbm, 79, rfl⟩
abbrev main_v38 : Ref sig .tc := ⟨.hbm, 80, rfl⟩
abbrev main_cst_17 : Ref sig .tc := ⟨.hbm, 81, rfl⟩
abbrev main_call9_v0 : Ref sig .tc := ⟨.hbm, 82, rfl⟩
abbrev main_v39 : Ref sig .tc := ⟨.hbm, 83, rfl⟩
abbrev main_cst_18 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_19 : Ref sig .tc := ⟨.hbm, 89, rfl⟩
abbrev main_cst_20 : Ref sig .tc := ⟨.hbm, 90, rfl⟩
abbrev main_call11_v0 : Ref sig .tc := ⟨.hbm, 91, rfl⟩
abbrev main_call11_v1 : Ref sig .tc := ⟨.hbm, 92, rfl⟩
abbrev main_call11_v2 : Ref sig .tc := ⟨.hbm, 93, rfl⟩
abbrev main_call11_v3 : Ref sig .tc := ⟨.hbm, 94, rfl⟩
abbrev main_call11_v4 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_call12_cst : Ref sig .tc := ⟨.hbm, 100, rfl⟩
abbrev main_call12_v0 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_21 : Ref sig .tc := ⟨.hbm, 106, rfl⟩
abbrev main_v52 : Ref sig .tc := ⟨.hbm, 107, rfl⟩
abbrev main_v53 : Ref sig .tc := ⟨.hbm, 108, rfl⟩
abbrev main_cst_22 : Ref sig .tc := ⟨.hbm, 109, rfl⟩
abbrev main_call13_v0 : Ref sig .tc := ⟨.hbm, 110, rfl⟩
abbrev main_call13_v1 : Ref sig .tc := ⟨.hbm, 111, rfl⟩
abbrev main_v54 : Ref sig .tc := ⟨.hbm, 112, rfl⟩
abbrev main_cst_23 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_cst_24 : Ref sig .tc := ⟨.hbm, 119, rfl⟩
abbrev main_cst_25 : Ref sig .tc := ⟨.hbm, 120, rfl⟩
abbrev main_call15_v0 : Ref sig .tc := ⟨.hbm, 121, rfl⟩
abbrev main_call15_v1 : Ref sig .tc := ⟨.hbm, 122, rfl⟩
abbrev main_call15_v2 : Ref sig .tc := ⟨.hbm, 123, rfl⟩
abbrev main_call15_v3 : Ref sig .tc := ⟨.hbm, 124, rfl⟩
abbrev main_call15_v4 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_26 : Ref sig .tc := ⟨.hbm, 130, rfl⟩
abbrev main_v64 : Ref sig .tc := ⟨.hbm, 131, rfl⟩
abbrev main_cst_27 : Ref sig .tc := ⟨.hbm, 132, rfl⟩
abbrev main_v65 : Ref sig .tc := ⟨.hbm, 133, rfl⟩
abbrev main_cst_28 : Ref sig .tc := ⟨.hbm, 134, rfl⟩
abbrev main_call16_v0 : Ref sig .tc := ⟨.hbm, 135, rfl⟩
abbrev main_v66 : Ref sig .tc := ⟨.hbm, 136, rfl⟩
abbrev main_cst_29 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_cst_30 : Ref sig .tc := ⟨.hbm, 142, rfl⟩
abbrev main_cst_31 : Ref sig .tc := ⟨.hbm, 143, rfl⟩
abbrev main_call18_v0 : Ref sig .tc := ⟨.hbm, 144, rfl⟩
abbrev main_call18_v1 : Ref sig .tc := ⟨.hbm, 145, rfl⟩
abbrev main_call18_v2 : Ref sig .tc := ⟨.hbm, 146, rfl⟩
abbrev main_call18_v3 : Ref sig .tc := ⟨.hbm, 147, rfl⟩
abbrev main_call18_v4 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S_S2x2048x4096 : S_.BroadcastsInDim S2x2048x4096 (![] : Fin 0 → Fin S2x2048x4096.rank)
  reducesTo_S11008x4096_S_d0_1 : S11008x4096.ReducesTo [0, 1] S_
  bcast_S_S11008x4096 : S_.BroadcastsInDim S11008x4096 (![] : Fin 0 → Fin S11008x4096.rank)
  bcast_S_S2x2048x11008 : S_.BroadcastsInDim S2x2048x11008 (![] : Fin 0 → Fin S2x2048x11008.rank)
  reducesTo_S2x2048x11008_S2x2048_d2 : S2x2048x11008.ReducesTo [2] S2x2048
  bcast_S2x2048x1_S2x2048x11008_0_1_2 : S2x2048x1.BroadcastsInDim S2x2048x11008 (![0, 1, 2] : Fin 3 → Fin S2x2048x11008.rank)
  reducesTo_S4096x11008_S_d0_1 : S4096x11008.ReducesTo [0, 1] S_
  bcast_S_S4096x11008 : S_.BroadcastsInDim S4096x11008 (![] : Fin 0 → Fin S4096x11008.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.KbReg0.lean ====
/-
  The first pallas_call (the row quantiser of the activations, 8 grid points of 512 rows), at any float
  instance and at a PARAMETER `V`, the buffer contents its region is entered with: what its one store leaves
  in the output block as a function of the input block, the body's triple, and the pipeline's proof data with
  its body obligation.  Each point reads one 512 × 4096 block of rows and writes the same rows quantised; the
  body reads nothing it wrote and keeps nothing between points.
-/
import proofs.«156148_j65773129171180_1_alg».proof.Proof.Gen.Kernel.Launch
import proofs.«156148_j65773129171180_1_alg».proof.Proof.Gen.Kernel.Skeleton
import proofs.«156148_j65773129171180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole block, the one rectangle the body loads and stores through. -/
abbrev r0_0 : Rect S512x4096 := Rect.unit (s := S512x4096) ![0, 0] S512x4096.size inb_S512x4096_S512x4096_0_0

/-- The output block after the body: its one store, of the quantised rows of the input block. -/
def out0_1 (x0 : Vec F S512x4096 .f32) : Vec F S512x4096 .bf16 :=
  View.canon [⟨r0_0, k0_pay1 (View.ld x0 r0_0)⟩]

/-- That store covers the block. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-! ## The body's triple -/

set_option maxHeartbeats 1000000 in
/-- On whole staging buffers, the input's at `x0` and the output's at anything, the body runs to the input's
    unchanged and the output's at `out0_1 x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quantize_kernel i arg1 harg1 arg2 harg2) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The arrays as the region finds them; after the body at point `t` the input's buffer at its block and the
    output's at `out0_1` of it; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbReg1.lean ====
/-
  The second pallas_call (the gate and up projections of the quantised activations, 11 × 32 grid points), at
  any float instance and at a PARAMETER `V`, the buffer contents its region is entered with: what its one store
  leaves in the output block as a function of the three input blocks, the body's triple, and the pipeline's
  proof data with its body obligation.  Each point reads one 128 × 4096 block of activation rows and one
  1024 × 4096 block of each weight matrix, and writes the 128 × 1024 block of their gated product; the body
  reads nothing it wrote and keeps nothing between points.  The weight blocks change only every 32 points:
  in between, their staging buffers still hold the block, which the body leaves in place.
-/
import proofs.«156148_j65773129171180_1_alg».proof.Proof.Gen.Kernel.Launch
import proofs.«156148_j65773129171180_1_alg».proof.Proof.Gen.Kernel.Skeleton
import proofs.«156148_j65773129171180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds its block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate weights' staging buffer holds its block at every point, fetched there or not, for any proof data
    over `V` whose body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The up weights' staging buffer holds its block at every point, fetched there or not, for any proof data
    over `V` whose body leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The whole activation block, the one rectangle the body loads it through. -/
abbrev r1_x : Rect S128x4096 := Rect.unit (s := S128x4096) ![0, 0] S128x4096.size inb_S128x4096_S128x4096_0_0

/-- The whole weight block, the one rectangle the body loads each weight matrix's block through. -/
abbrev r1_w : Rect S1024x4096 := Rect.unit (s := S1024x4096) ![0, 0] S1024x4096.size inb_S1024x4096_S1024x4096_0_0

/-- The whole output block, the one rectangle the body stores through. -/
abbrev r1_o : Rect S128x1024 := Rect.unit (s := S128x1024) ![0, 0] S128x1024.size inb_S128x1024_S128x1024_0_0

/-- The output block after the body: its one store, of the gated product of the activation block with the
    two weight blocks. -/
def out1_3 (x0 : Vec F S128x4096 .bf16) (x1 x2 : Vec F S1024x4096 .bf16) : Vec F S128x1024 .bf16 :=
  View.canon [⟨r1_o, k1_pay1 (View.ld x0 r1_x) (View.ld x1 r1_w) (View.ld x2 r1_w)⟩]

/-- That store covers the block. -/
theorem cover1_3 (p0 : Vec F S128x1024 .bf16) (y : S128x1024.Idx) :
    ∃ pc ∈ ([⟨r1_o, p0⟩] : List (View.Piece (Elt F) S128x1024 .bf16)), y ∈ pc.1.set :=
  View.cover_of_tiled [⟨r1_o, p0⟩] S128x1024.size (by rfl) y

/-! ## The body's triple -/

set_option maxHeartbeats 1000000 in
/-- On whole staging buffers, the inputs' at `x0`, `x1`, `x2` and the output's at anything, the body runs to the
    inputs' unchanged and the output's at `out1_3 x0 x1 x2`. -/
theorem sound_kernel1 (c : Dev nD) (E : Set ℕ) (i : grid1.Coords) (arg2 : Memref sig .tc .vmem S128x4096 .bf16) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S128x1024 .bf16) (harg5 : arg5.IsWhole)
    (x0 : Vec F S128x4096 .bf16) (x1 x2 : Vec F S1024x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__gate_up_kernel i arg2 harg2 arg3 harg3 arg4 harg4 arg5 harg5) K := by
  simp only [cc1__gate_up_kernel_eq_skeleton]; unfold cc1__gate_up_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The arrays as the region finds them; after the body at point `t` each input's buffer at its block and the
    output's at `out1_3` of the three; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbReg2.lean ====
/-
  The third pallas_call (the row quantiser of the gated hidden rows, 32 grid points of 128 rows), at any float
  instance and at a PARAMETER `V`, the buffer contents its region is entered with: what its one store leaves
  in the output block as a function of the input block, the body's triple, and the pipeline's proof data with
  its body obligation.  Each point reads one 128 × 11264 block of rows and writes the same rows quantised; the
  body reads nothing it wrote and keeps nothing between points.
-/
import proofs.«156148_j65773129171180_1_alg».proof.Proof.Gen.Kernel.Launch
import proofs.«156148_j65773129171180_1_alg».proof.Proof.Gen.Kernel.Skeleton
import proofs.«156148_j65773129171180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input's staging buffer holds its block at every point, for any proof data over `V` whose body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The whole block, the one rectangle the body loads and stores through. -/
abbrev r2_0 : Rect S128x11264 := Rect.unit (s := S128x11264) ![0, 0] S128x11264.size inb_S128x11264_S128x11264_0_0

/-- The output block after the body: its one store, of the quantised rows of the input block. -/
def out2_1 (x0 : Vec F S128x11264 .bf16) : Vec F S128x11264 .bf16 :=
  View.canon [⟨r2_0, k2_pay1 (View.ld x0 r2_0)⟩]

/-- That store covers the block. -/
theorem cover2_1 (p0 : Vec F S128x11264 .bf16) (y : S128x11264.Idx) :
    ∃ pc ∈ ([⟨r2_0, p0⟩] : List (View.Piece (Elt F) S128x11264 .bf16)), y ∈ pc.1.set :=
  View.cover_of_tiled [⟨r2_0, p0⟩] S128x11264.size (by rfl) y

/-! ## The body's triple -/

set_option maxHeartbeats 1000000 in
/-- On whole staging buffers, the input's at `x0` and the output's at anything, the body runs to the input's
    unchanged and the output's at `out2_1 x0`. -/
theorem sound_kernel2 (c : Dev nD) (E : Set ℕ) (i : grid2.Coords) (arg1 : Memref sig .tc .vmem S128x11264 .bf16) (harg1 : arg1.IsWhole) (arg2 : Memref sig .tc .vmem S128x11264 .bf16) (harg2 : arg2.IsWhole)
    (x0 : Vec F S128x11264 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__quantize_kernel i arg1 harg1 arg2 harg2) K := by
  simp only [cc2__quantize_kernel_eq_skeleton]; unfold cc2__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The arrays as the region finds them; after the body at point `t` the input's buffer at its block and the
    output's at `out2_1` of it; nothing carried between points, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KbReg3.lean ====
/-
  The fourth pallas_call (the down projection: a matrix product accumulated over the last grid axis), at any
  float instance and at a PARAMETER `V`, the buffer contents its region is entered with.  The grid is
  4 × 4 × 44; at the point (i, j, k) the body reads the block (i, k) of the left operand and the block (j, k)
  of the right operand, both 1024 × 256, and adds their product (contracted over the 256 columns) to a
  1024 × 1024 accumulator that it keeps between points.  At k = 0 it first sets the accumulator to zero; at
  k = 43 it copies the accumulator into the output block (i, j).  So after the k-step j of a run of 44 points
  the accumulator holds the partial sum of the products of the first j + 1 pairs of blocks, and the output
  block receives the sum of all 44.  Three control cases: A, the first k-step (reset, then add); B, a middle
  one (add); C, the last (add, then copy out).  Here: the two conditions in closed form, the body's triple per
  case with the pieces each buffer ends with, what the accumulator and the output block hold point by point,
  the invariant that carries the accumulator, and the pipeline's proof data with its body obligation.
-/
import proofs.«156148_j65773129171180_1_alg».proof.Proof.Gen.Kernel.Launch
import proofs.«156148_j65773129171180_1_alg».proof.Proof.Gen.Kernel.Skeleton
import proofs.«156148_j65773129171180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point, for any proof data over `V` whose body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand's staging buffer likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, in closed form -/

/-- The first conditional's condition: the last grid coordinate is 0 (the first k-step). -/
abbrev cond3_0 (i : grid3.Coords) : Prop := (Scalar.cmpi .ne (Scalar.extui (Scalar.cmpi .eq (BitVec.ofNat 32 (i 2).val) 0#32)) 0#32) = 1#1
/-- It holds at the points ≡ 0 (mod 44): the last axis is the fastest and has 44 steps. -/
theorem hcond3_0 : ∀ t : Fin cfg3.N, cond3_0 (grid3.coords t) ↔ t.val % 44 = 0 :=
  (by decide +kernel : ∀ t : Fin grid3.N, cond3_0 (grid3.coords t) ↔ t.val % 44 = 0)

/-- The second conditional's condition: the last grid coordinate is 43 (the last k-step). -/
abbrev cond3_1 (i : grid3.Coords) : Prop := k3_cond2 i = 1#1
/-- It holds at the points ≡ 43 (mod 44). -/
theorem hcond3_1 : ∀ t : Fin cfg3.N, cond3_1 (grid3.coords t) ↔ t.val % 44 = 43 :=
  (by decide +kernel : ∀ t : Fin grid3.N, cond3_1 (grid3.coords t) ↔ t.val % 44 = 43)

/-! ## Where the windows are idle -/

/-- The operands' windows are never idle. -/
theorem liveAt3_0 (t : Fin cfg3.N) : cfg3.idle 0 (grid3.coords t) = false := rfl
theorem liveAt3_1 (t : Fin cfg3.N) : cfg3.idle 1 (grid3.coords t) = false := rfl
/-- Away from the last k-step the output window is idle: the body stores nothing into it there, -/
theorem idleAt3_2 (t : Fin cfg3.N) (h1 : ¬t.val % 44 = 43) : cfg3.idle 2 (grid3.coords t) = true := by
  have h : ¬k3_cond2 (grid3.coords t) = 1#1 := fun h => h1 ((hcond3_1 t).mp h)
  show (!(k3_cond2 (grid3.coords t) == 1#1)) = true
  rw [Bool.not_eq_true', beq_eq_false_iff_ne]; exact h
/-- and the pipeline does not write its block back there. -/
theorem noFlush3_2 (t : Fin cfg3.N) (h1 : ¬t.val % 44 = 43) : (cfg3.win 2).flush t = false :=
  Bool.eq_false_iff.mpr fun h => h1 ((flush3_2 t).mp h)
/-- At the last k-step it is live. -/
theorem liveAt3_2 (t : Fin cfg3.N) (h1 : t.val % 44 = 43) : cfg3.idle 2 (grid3.coords t) = false := by
  have h : k3_cond2 (grid3.coords t) = 1#1 := (hcond3_1 t).mpr h1
  show (!(k3_cond2 (grid3.coords t) == 1#1)) = false
  rw [h]; rfl

/-! ## The memrefs the body is called with -/

/-- One staging buffer of the output window, through which its contents are stated (the choice does not matter). -/
abbrev VO3_2 : View sig .tc .vmem S1024x1024 .f32 := (Memref.whole cc3_stg2_0 : Memref sig .tc .vmem S1024x1024 .f32).view
/-- Each window's current staging memref at point `t`, as the pipeline passes it, and its wholeness. -/
abbrev ms3_0 (t : Fin cfg3.N) : Memref sig .tc .vmem S1024x256 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3 : Memref sig .tc .vmem S1024x1024 .f32 := Memref.whole cc3_scratch0
/-- The accumulator as a view: what it holds is stated through it. -/
abbrev VS3 : View sig .tc .vmem S1024x1024 .f32 := scM3.view

/-- The core's scoped buffers that are neither a staging buffer of this call nor its accumulator, each at some contents:
    what the invariant carries untouched beside the accumulator. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f))

/-- Two assertions that entail each other are equal. -/
theorem eq_of_entails3 {P Q : sProp 𝕄} (h1 : P ⊢ Q) (h2 : Q ⊢ P) : P = Q := Idealize.SL.BI.Entails.antisymm h1 h2

/-- What the launch hands the region, with the accumulator as a memref owned at some contents, the other scoped
    buffers as `rest3`, and the generator register. -/
theorem PhiA3_eq (c : Dev nD) :
    (Pipeline.ΦA spec3 c : sProp 𝕄)
      = iprop((∃ d, owns (c : Thread nD τ) scM3 fullShare d) ∗ rest3 (F := F) c ∗ (∃ r, prngReg c r)) := by
  unfold Pipeline.ΦA; rw [scopedRest3_eq]; unfold rest3; simp only [scM3, owns_whole]
  refine eq_of_entails3 ?_ ?_
  · iintro ⟨⟨A1, A2, A3, A4, A5, A6, A7, A8, A9, A10, A11, A12, A13, A14, A15, A16, HS⟩, Hg⟩
    iframe
  · iintro ⟨HS, ⟨A1, A2, A3, A4, A5, A6, A7, A8, A9, A10, A11, A12, A13, A14, A15, A16⟩, Hg⟩
    iframe

/-! ## The body's triple, case by case

Each case's run is found by executing the body symbolically on whole memrefs: the operands' at their blocks,
the accumulator and the output block as the case needs them.  The run's witness is, per buffer the case stores
into, the list of pieces (rectangle and stored value, last store first) it ends with. -/

set_option maxHeartbeats 1000000 in
/-- CASE A, the first k-step (first conditional taken, second not).  The accumulator is taken at anything: the
    body overwrites it whole with zeros before reading it, then adds the product of the two blocks.  The output
    block is not touched and is handed back as it was found (`xi2`).  The accumulator ends with two pieces: the
    zeros, then the sum. -/
noncomputable def kernelRun3_A (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x256 .bf16) (x1 : Vec F S1024x256 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul3_kernel i arg3 harg3 arg4 harg4 arg5 harg5 arg6 harg6) K } := by
  refine ⟨[], ?_, fun xi2 E K => ?run⟩
  case run =>
    simp only [cc3__matmul3_kernel_eq_skeleton]; unfold cc3__matmul3_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE B, a middle k-step (neither conditional taken).  The accumulator is taken at what the point before left
    (`xs0`); the body adds the product of the two blocks to it.  The output block is handed back as it was found.
    The accumulator ends with one piece: the sum. -/
noncomputable def kernelRun3_B (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x256 .bf16) (x1 : Vec F S1024x256 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul3_kernel i arg3 harg3 arg4 harg4 arg5 harg5 arg6 harg6) K } := by
  refine ⟨[], ?_, fun xi2 E K => ?run⟩
  case run =>
    simp only [cc3__matmul3_kernel_eq_skeleton]; unfold cc3__matmul3_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C, the last k-step (first conditional not taken, second taken).  The accumulator is taken at what the
    point before left (`xs0`), the output block at anything; the body adds the product of the two blocks to the
    accumulator, reads it back and stores it whole into the output block.  Each ends with one piece. -/
noncomputable def kernelRun3_C (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__matmul3_kernel i arg3 harg3 arg4 harg4 arg5 harg5 arg6 harg6) K } := by
  refine ⟨?_, ?_, fun E K => ?run⟩
  case run =>
    simp only [cc3__matmul3_kernel_eq_skeleton]; unfold cc3__matmul3_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves, read back from its pieces -/

/-- Case A's pieces for the accumulator cover it: the zeros and the sum, each the whole buffer. -/
theorem scover3_A (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x256 .bf16) (x1 : Vec F S1024x256 .bf16) (y : S1024x1024.Idx) :
    ∃ pc ∈ (kernelRun3_A c i arg3 harg3 arg4 harg4 arg5 harg5 arg6 harg6 hc0 hc1 x0 x1).2.1, y ∈ pc.1.set :=
  View.cover_of_tiledL (kernelRun3_A c i arg3 harg3 arg4 harg4 arg5 harg5 arg6 harg6 hc0 hc1 x0 x1).2.1 S1024x1024.size (by sl_kernel_rfl) y

/-- What case A leaves in the accumulator: its pieces read back. -/
def sout3_A (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x256 .bf16) (x1 : Vec F S1024x256 .bf16) : Vec F S1024x1024 .f32 :=
  VS3.read (Elt F) (VS3.writes (Elt F) VS3.junk (kernelRun3_A c i arg3 harg3 arg4 harg4 arg5 harg5 arg6 harg6 hc0 hc1 x0 x1).2.1)

/-- Case A stores nothing into the output block: no pieces, a placeholder nothing consults (the window is idle
    there and its buffer handed back untouched). -/
def out3_A (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x256 .bf16) (x1 : Vec F S1024x256 .bf16) : Vec F S1024x1024 .f32 :=
  VO3_2.read (Elt F) (VO3_2.writes (Elt F) VO3_2.junk (kernelRun3_A c i arg3 harg3 arg4 harg4 arg5 harg5 arg6 harg6 hc0 hc1 x0 x1).1)

/-- Case B's piece for the accumulator covers it. -/
theorem scover3_B (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x256 .bf16) (x1 : Vec F S1024x256 .bf16) (xs0 : Vec F S1024x1024 .f32) (y : S1024x1024.Idx) :
    ∃ pc ∈ (kernelRun3_B c i arg3 harg3 arg4 harg4 arg5 harg5 arg6 harg6 hc0 hc1 x0 x1 xs0).2.1, y ∈ pc.1.set :=
  View.cover_of_tiledL (kernelRun3_B c i arg3 harg3 arg4 harg4 arg5 harg5 arg6 harg6 hc0 hc1 x0 x1 xs0).2.1 S1024x1024.size (by sl_kernel_rfl) y

/-- What case B leaves in the accumulator. -/
def sout3_B (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x256 .bf16) (x1 : Vec F S1024x256 .bf16) (xs0 : Vec F S1024x1024 .f32) : Vec F S1024x1024 .f32 :=
  VS3.read (Elt F) (VS3.writes (Elt F) VS3.junk (kernelRun3_B c i arg3 harg3 arg4 harg4 arg5 harg5 arg6 harg6 hc0 hc1 x0 x1 xs0).2.1)

/-- Case B stores nothing into the output block either: a placeholder. -/
def out3_B (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x256 .bf16) (x1 : Vec F S1024x256 .bf16) (xs0 : Vec F S1024x1024 .f32) : Vec F S1024x1024 .f32 :=
  VO3_2.read (Elt F) (VO3_2.writes (Elt F) VO3_2.junk (kernelRun3_B c i arg3 harg3 arg4 harg4 arg5 harg5 arg6 harg6 hc0 hc1 x0 x1 xs0).1)

/-- Case C's piece for the output block covers it: the one store of the whole accumulator. -/
theorem cover3_C (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) (y : S1024x1024.Idx) :
    ∃ pc ∈ (kernelRun3_C c i arg3 harg3 arg4 harg4 arg5 harg5 arg6 harg6 hc0 hc1 x0 x1 xs0).1, y ∈ pc.1.set :=
  View.cover_of_tiledL (kernelRun3_C c i arg3 harg3 arg4 harg4 arg5 harg5 arg6 harg6 hc0 hc1 x0 x1 xs0).1 S1024x1024.size (by sl_kernel_rfl) y

/-- What case C leaves in the output block. -/
def out3_C (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) : Vec F S1024x1024 .f32 :=
  VO3_2.read (Elt F) (VO3_2.writes (Elt F) VO3_2.junk (kernelRun3_C c i arg3 harg3 arg4 harg4 arg5 harg5 arg6 harg6 hc0 hc1 x0 x1 xs0).1)

/-- Case C's piece for the accumulator covers it. -/
theorem scover3_C (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) (y : S1024x1024.Idx) :
    ∃ pc ∈ (kernelRun3_C c i arg3 harg3 arg4 harg4 arg5 harg5 arg6 harg6 hc0 hc1 x0 x1 xs0).2.1, y ∈ pc.1.set :=
  View.cover_of_tiledL (kernelRun3_C c i arg3 harg3 arg4 harg4 arg5 harg5 arg6 harg6 hc0 hc1 x0 x1 xs0).2.1 S1024x1024.size (by sl_kernel_rfl) y

/-- What case C leaves in the accumulator. -/
def sout3_C (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) : Vec F S1024x1024 .f32 :=
  VS3.read (Elt F) (VS3.writes (Elt F) VS3.junk (kernelRun3_C c i arg3 harg3 arg4 harg4 arg5 harg5 arg6 harg6 hc0 hc1 x0 x1 xs0).2.1)

/-! ## What the output block and the accumulator hold after each point -/

/-- THE ACCUMULATION.  After the body at position `n`: (the output block's staging buffer, the accumulator).
    The closed forms select the case; a first k-step starts from nothing, a later one from the accumulator the
    point before left.  So within a run of 44 points the accumulator after the k-step j holds the partial sum of the
    products of the first j + 1 pairs of blocks, and at the last the output block holds the whole sum. -/
def outsAt3 (c : Dev nD) : (n : ℕ) → n < cfg3.N → Vec F S1024x1024 .f32 × Vec F S1024x1024 .f32
  | 0, hn =>
    (out3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => absurd ((hcond3_1 ⟨0, hn⟩).mp h) (show ¬(0 : ℕ) % 44 = 43 by decide)) (iblk3 V c 0 ⟨0, hn⟩) (iblk3 V c 1 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => absurd ((hcond3_1 ⟨0, hn⟩).mp h) (show ¬(0 : ℕ) % 44 = 43 by decide)) (iblk3 V c 0 ⟨0, hn⟩) (iblk3 V c 1 ⟨0, hn⟩))
  | n + 1, hn =>
    if h0 : (n + 1) % 44 = 0 then
      if h1 : (n + 1) % 44 = 43 then
        False.elim (by omega)
      else
        (out3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 44 = 43 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at a first k-step: case A's contents. -/
theorem outsAt3_A (c : Dev nD) (t : Fin cfg3.N) (h0 : t.val % 44 = 0) (h1 : ¬t.val % 44 = 43) :
    outsAt3 V c t.val t.isLt = (out3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t), sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a middle k-step: case B's contents, over the accumulator the point before left. -/
theorem outsAt3_B (c : Dev nD) (t : Fin cfg3.N) (h0 : ¬t.val % 44 = 0) (h1 : ¬t.val % 44 = 43) :
    outsAt3 V c t.val t.isLt = (out3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a last k-step: case C's contents, over the accumulator the point before left. -/
theorem outsAt3_C (c : Dev nD) (t : Fin cfg3.N) (h0 : ¬t.val % 44 = 0) (h1 : t.val % 44 = 43) :
    outsAt3 V c t.val t.isLt = (out3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: before the first point what the launch hands over; afterwards the accumulator at what the
    point before left in it, the other scoped buffers at some contents, the generator register at some state. -/
def PhiS3 (c : Dev nD) : (n : ℕ) → n ≤ cfg3.N → sProp 𝕄
  | 0, _ => Pipeline.ΦA spec3 c
  | n + 1, hn => iprop(owns (c : Thread nD τ) scM3 fullShare ((outsAt3 V c n hn).2) ∗ rest3 (F := F) c ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare ((outsAt3 V c n hn).2) ∗ rest3 (F := F) c ∗ (∃ r, prngReg c r)) := rfl

theorem PhiS3_pos (c : Dev nD) (n : ℕ) (h : n ≤ cfg3.N) (hz : n ≠ 0) :
    PhiS3 V c n h = iprop(owns (c : Thread nD τ) scM3 fullShare ((outsAt3 V c (n - 1) (by omega)).2) ∗ rest3 (F := F) c ∗ (∃ r, prngReg c r)) := by
  cases n with
  | zero => exact absurd rfl hz
  | succ n => rfl

/-! ## The pipeline's proof data -/

/-- The arrays as the region finds them; after the body at point `t` each operand's buffer at its block and the
    output's at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point.  The operands' memrefs hold their blocks; the closed forms say which case the point is
    in.  The invariant hands the body the accumulator — at what the point before left, or at anything before the
    first point, which is a first k-step and does not read it — and takes it back at this point's contents; the
    other scoped buffers and the generator register pass through.  Away from a last k-step the output block is
    handed back as found; at a last k-step it holds the accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  have hN : t.val < 704 := lt_of_lt_of_eq t.isLt (show cfg3.N = 704 from N_3)
  by_cases h0 : t.val % 44 = 0
  · have h1 : ¬t.val % 44 = 43 := by omega
    rw [Dat.leavesExact_idle (dat3 V c) 2 t (idleAt3_2 t h1) (noFlush3_2 t h1)]
    rw [outsAt3_A V c t h0 h1]
    unfold sout3_A; (try dsimp only)
    by_cases hz : t.val = 0
    · rw [PhiS3_castSucc V c t, PhiS3_zero V c _ _ hz, PhiA3_eq]
      iintro ⟨⟨HS0, Hr, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover3_A c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS3_castSucc V c t, PhiS3_pos V c _ _ hz]
      iintro ⟨⟨HS0, Hr, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover3_A c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun hz => h0 (by rw [hz])
    by_cases h1 : t.val % 44 = 43
    · rw [show (dat3 V c).leavesExact 2 t = owns (c : Thread nD τ) (ms3_2 t) fullShare ((dat3 V c).after 2 t) from by
        unfold Dat.leavesExact; rw [liveAt3_2 t h1], after3_2]
      rw [outsAt3_C V c t h0 h1]
      unfold out3_C sout3_C; (try dsimp only)
      rw [PhiS3_castSucc V c t, PhiS3_pos V c _ _ hz]
      iintro ⟨⟨HS0, Hr, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · unfold owns; iexists _; isplitr
          swap; · iexact HS0
          ipureintro; exact View.read_writes_of_cover _ _ _ _ _ (scover3_C c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C c _ _ _ _ _ _ _ _ _ _ _ _ _ _)
    · rw [Dat.leavesExact_idle (dat3 V c) 2 t (idleAt3_2 t h1) (noFlush3_2 t h1)]
      rw [outsAt3_B V c t h0 h1]
      unfold sout3_B; (try dsimp only)
      rw [PhiS3_castSucc V c t, PhiS3_pos V c _ _ hz]
      iintro ⟨⟨HS0, Hr, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover3_B c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives back what the launch handed over: the accumulator's named
    contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS0, Hr, Hg⟩
  isplitl [HS0]
  · iexists _; iexact HS0
  isplitl [Hr]; · iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 704 := N_3; omega)

/-! ## The cases' values

What each case's pieces read back to, over the payloads: the loads read whole buffers, a covering store leaves its
payload. -/

theorem hz3 : (![0, 0] : Fin 2 → Nat) = fun _ => 0 := funext fun a => by fin_cases a <;> rfl

/-- CASE A's value: the accumulator is set to zero, read back, and the product of the two blocks added to it. -/
theorem sout3_A_eq (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x256 .bf16) (x1 : Vec F S1024x256 .bf16) :
    sout3_A c i arg3 harg3 arg4 harg4 arg5 harg5 arg6 harg6 hc0 hc1 x0 x1 = k3_pay2 x0 x1 (k3_pay1 (F := F)) := by
  unfold sout3_A
  rw [View.read_writes_eq_canon _ _ _ (scover3_A c i arg3 harg3 arg4 harg4 arg5 harg5 arg6 harg6 hc0 hc1 x0 x1)]
  unfold kernelRun3_A
  dsimp only
  sl_unfold_words
  rw [View.canon_cons_unit_zero (S := S1024x1024) hz3, View.readCov_unit_zero (S := S1024x1024) _ hz3]
  simp only [View.readAt_eq_ld, harg3.read_unread, harg4.read_unread, View.ld_unit_zero (S := S1024x256) hz3]

/-- CASE B's value: the product of the two blocks added to the accumulator the point before left. -/
theorem sout3_B_eq (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x256 .bf16) (x1 : Vec F S1024x256 .bf16) (xs0 : Vec F S1024x1024 .f32) :
    sout3_B c i arg3 harg3 arg4 harg4 arg5 harg5 arg6 harg6 hc0 hc1 x0 x1 xs0 = k3_pay2 x0 x1 xs0 := by
  unfold sout3_B
  rw [View.read_writes_eq_canon _ _ _ (scover3_B c i arg3 harg3 arg4 harg4 arg5 harg5 arg6 harg6 hc0 hc1 x0 x1 xs0)]
  unfold kernelRun3_B
  dsimp only
  sl_unfold_words
  rw [View.canon_unit_zero (S := S1024x1024) hz3]
  simp only [View.readAt_eq_ld, harg3.read_unread, harg4.read_unread, harg6.read_unread, View.ld_unit_zero (S := S1024x256) hz3, View.ld_unit_zero (S := S1024x1024) hz3]

/-- CASE C's value in the accumulator: as case B's. -/
theorem sout3_C_eq (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) :
    sout3_C c i arg3 harg3 arg4 harg4 arg5 harg5 arg6 harg6 hc0 hc1 x0 x1 xs0 = k3_pay2 x0 x1 xs0 := by
  unfold sout3_C
  rw [View.read_writes_eq_canon _ _ _ (scover3_C c i arg3 harg3 arg4 harg4 arg5 harg5 arg6 harg6 hc0 hc1 x0 x1 xs0)]
  unfold kernelRun3_C
  dsimp only
  sl_unfold_words
  rw [View.canon_unit_zero (S := S1024x1024) hz3]
  simp only [View.readAt_eq_ld, harg3.read_unread, harg4.read_unread, harg6.read_unread, View.ld_unit_zero (S := S1024x256) hz3, View.ld_unit_zero (S := S1024x1024) hz3]

/-- CASE C's value in the output block: the accumulator, read back after the sum is stored into it. -/
theorem out3_C_eq (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) :
    out3_C c i arg3 harg3 arg4 harg4 arg5 harg5 arg6 harg6 hc0 hc1 x0 x1 xs0 = k3_pay2 x0 x1 xs0 := by
  unfold out3_C
  rw [View.read_writes_eq_canon _ _ _ (cover3_C c i arg3 harg3 arg4 harg4 arg5 harg5 arg6 harg6 hc0 hc1 x0 x1 xs0)]
  unfold kernelRun3_C
  dsimp only
  sl_unfold_words
  rw [View.canon_unit_zero (S := S1024x1024) hz3, View.readCov_unit_zero (S := S1024x1024) _ hz3]
  simp only [View.readAt_eq_ld, harg3.read_unread, harg4.read_unread, harg6.read_unread, View.ld_unit_zero (S := S1024x256) hz3, View.ld_unit_zero (S := S1024x1024) hz3]

end Cert.Kernel.Hand

end
-- ==== Proof.KbRun.lean ====
/-
  The run of the whole program at any float instance: @main as nineteen stretches of host operations and four
  pallas_calls in order, the contents of every unscoped buffer named at each boundary — the launch memory,
  then each host stretch's operations applied, then, after each pallas_call, its arrays at what its
  write-backs leave and every other buffer as entered.  The launch is the library's theorem for a list of
  segments; its conclusion here is that every weakly fair execution terminates with EVERY unscoped buffer at
  the last boundary's contents, from which both the frame (the arguments end as launched) and the result's
  value are read.
-/
import proofs.«156148_j65773129171180_1_alg».proof.Proof.KbReg0
import proofs.«156148_j65773129171180_1_alg».proof.Proof.KbReg1
import proofs.«156148_j65773129171180_1_alg».proof.Proof.KbReg2
import proofs.«156148_j65773129171180_1_alg».proof.Proof.KbReg3
import proofs.«156148_j65773129171180_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary

Before the first pallas_call the contents are the generated module's `V0 m c` … `V18 m c`: the launch memory, then
each host stretch applied. -/

/-- The contents the first pallas_call is entered with, read at the TensorCore's references. -/
abbrev VR18 : (c : Dev nD) → (b : Ref sig .tc) → Buf (Elt F) ((c : Thread nD τ).loc b) := fun c b => V18 m c b

/-- After pallas_call 0: its arrays at what its write-backs leave, every other buffer as it was entered. -/
def W19 (c : Dev nD) : Valuation τ sig (Elt F) :=
  Pipeline.withArrays spec0 c (V18 m c) fun w => (dat0 (VR18 m) c).arrAt w cfg0.N
theorem W19_arr (c : Dev nD) (w : Fin cfg0.W) :
    W19 m c (Proc.devRef .tc (Pipeline.arrRef spec0 w)) = (dat0 (VR18 m) c).arrAt w cfg0.N := by
  unfold W19; exact Pipeline.withArrays_arr spec0 launch0.win.arr_inj c _ _ w
theorem W19_of_ne (c : Dev nD) (b : Ref sig .tc) (hb : ∀ w, Pipeline.arrRef spec0 w ≠ b) :
    W19 m c (Proc.devRef .tc b) = V18 m c (Proc.devRef .tc b) := by
  unfold W19; exact Pipeline.withArrays_of_ne spec0 c _ _ b hb
/-- The same read at the TensorCore's references. -/
abbrev VR19 : (c : Dev nD) → (b : Ref sig .tc) → Buf (Elt F) ((c : Thread nD τ).loc b) := fun c b => W19 m c b
theorem hF0 (c : Dev nD) (w : Fin cfg0.W) : (dat0 (VR18 m) c).arrAt w cfg0.N = VR19 m c (Pipeline.arrRef spec0 w) :=
  (W19_arr m c w).symm
theorem hrest0 (c : Dev nD) : ∀ b, b ∉ Finset.univ.image (Pipeline.arrRef spec0) → VR19 m c b = VR18 m c b :=
  fun b hb => W19_of_ne m c b fun w e => hb (Finset.mem_image.mpr ⟨w, Finset.mem_univ _, e⟩)

/-- After pallas_call 1: its arrays at what its write-backs leave, every other buffer as it was entered. -/
def W20 (c : Dev nD) : Valuation τ sig (Elt F) :=
  Pipeline.withArrays spec1 c (W19 m c) fun w => (dat1 (VR19 m) c).arrAt w cfg1.N
theorem W20_arr (c : Dev nD) (w : Fin cfg1.W) :
    W20 m c (Proc.devRef .tc (Pipeline.arrRef spec1 w)) = (dat1 (VR19 m) c).arrAt w cfg1.N := by
  unfold W20; exact Pipeline.withArrays_arr spec1 launch1.win.arr_inj c _ _ w
theorem W20_of_ne (c : Dev nD) (b : Ref sig .tc) (hb : ∀ w, Pipeline.arrRef spec1 w ≠ b) :
    W20 m c (Proc.devRef .tc b) = W19 m c (Proc.devRef .tc b) := by
  unfold W20; exact Pipeline.withArrays_of_ne spec1 c _ _ b hb
/-- The same read at the TensorCore's references. -/
abbrev VR20 : (c : Dev nD) → (b : Ref sig .tc) → Buf (Elt F) ((c : Thread nD τ).loc b) := fun c b => W20 m c b
theorem hF1 (c : Dev nD) (w : Fin cfg1.W) : (dat1 (VR19 m) c).arrAt w cfg1.N = VR20 m c (Pipeline.arrRef spec1 w) :=
  (W20_arr m c w).symm
theorem hrest1 (c : Dev nD) : ∀ b, b ∉ Finset.univ.image (Pipeline.arrRef spec1) → VR20 m c b = VR19 m c b :=
  fun b hb => W20_of_ne m c b fun w e => hb (Finset.mem_image.mpr ⟨w, Finset.mem_univ _, e⟩)

/-- After pallas_call 2: its arrays at what its write-backs leave, every other buffer as it was entered. -/
def W21 (c : Dev nD) : Valuation τ sig (Elt F) :=
  Pipeline.withArrays spec2 c (W20 m c) fun w => (dat2 (VR20 m) c).arrAt w cfg2.N
theorem W21_arr (c : Dev nD) (w : Fin cfg2.W) :
    W21 m c (Proc.devRef .tc (Pipeline.arrRef spec2 w)) = (dat2 (VR20 m) c).arrAt w cfg2.N := by
  unfold W21; exact Pipeline.withArrays_arr spec2 launch2.win.arr_inj c _ _ w
theorem W21_of_ne (c : Dev nD) (b : Ref sig .tc) (hb : ∀ w, Pipeline.arrRef spec2 w ≠ b) :
    W21 m c (Proc.devRef .tc b) = W20 m c (Proc.devRef .tc b) := by
  unfold W21; exact Pipeline.withArrays_of_ne spec2 c _ _ b hb
/-- The same read at the TensorCore's references. -/
abbrev VR21 : (c : Dev nD) → (b : Ref sig .tc) → Buf (Elt F) ((c : Thread nD τ).loc b) := fun c b => W21 m c b
theorem hF2 (c : Dev nD) (w : Fin cfg2.W) : (dat2 (VR20 m) c).arrAt w cfg2.N = VR21 m c (Pipeline.arrRef spec2 w) :=
  (W21_arr m c w).symm
theorem hrest2 (c : Dev nD) : ∀ b, b ∉ Finset.univ.image (Pipeline.arrRef spec2) → VR21 m c b = VR20 m c b :=
  fun b hb => W21_of_ne m c b fun w e => hb (Finset.mem_image.mpr ⟨w, Finset.mem_univ _, e⟩)

/-- After pallas_call 3: its arrays at what its write-backs leave, every other buffer as it was entered. -/
def W22 (c : Dev nD) : Valuation τ sig (Elt F) :=
  Pipeline.withArrays spec3 c (W21 m c) fun w => (dat3 (VR21 m) c).arrAt w cfg3.N
theorem W22_arr (c : Dev nD) (w : Fin cfg3.W) :
    W22 m c (Proc.devRef .tc (Pipeline.arrRef spec3 w)) = (dat3 (VR21 m) c).arrAt w cfg3.N := by
  unfold W22; exact Pipeline.withArrays_arr spec3 launch3.win.arr_inj c _ _ w
theorem W22_of_ne (c : Dev nD) (b : Ref sig .tc) (hb : ∀ w, Pipeline.arrRef spec3 w ≠ b) :
    W22 m c (Proc.devRef .tc b) = W21 m c (Proc.devRef .tc b) := by
  unfold W22; exact Pipeline.withArrays_of_ne spec3 c _ _ b hb
/-- The same read at the TensorCore's references. -/
abbrev VR22 : (c : Dev nD) → (b : Ref sig .tc) → Buf (Elt F) ((c : Thread nD τ).loc b) := fun c b => W22 m c b
theorem hF3 (c : Dev nD) (w : Fin cfg3.W) : (dat3 (VR21 m) c).arrAt w cfg3.N = VR22 m c (Pipeline.arrRef spec3 w) :=
  (W22_arr m c w).symm
theorem hrest3 (c : Dev nD) : ∀ b, b ∉ Finset.univ.image (Pipeline.arrRef spec3) → VR22 m c b = VR21 m c b :=
  fun b hb => W22_of_ne m c b fun w e => hb (Finset.mem_image.mpr ⟨w, Finset.mem_univ _, e⟩)

/-- After the last host stretch (the result's reshape). -/
abbrev W23 : Dev nD → Valuation τ sig (Elt F) := fun c => StableHlo.after hostOps4 (W22 m c)

/-! ## The proof data family and what rides beside the buffers -/

/-- Every pipeline's proof data, each at its region's entry contents. -/
def pdatsH : (p : Fin 4) → (c : Dev nD) → Dat τ (Elt F) Unit ℕ (UR sig nD τ) ℕ (Pipeline.pin (pcfgs (F := F)) adm p) c
  | ⟨0, _⟩ => fun c => dat0 (VR18 m) c
  | ⟨1, _⟩ => fun c => dat1 (VR19 m) c
  | ⟨2, _⟩ => fun c => dat2 (VR20 m) c
  | ⟨3, _⟩ => fun c => dat3 (VR21 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W23 m c) ∗ ∃ r, prngReg c r)

/-! ## The pallas_calls as segments -/

-- the library's entry and exit lemmas are stated over the pinned configuration: unifying them with the printed one
-- unfolds plain definitions in a metavariable's type
set_option backward.isDefEq.respectTransparency.types false in
/-- Pallas_call 0 as a segment: entered with every unscoped buffer at `V18`, left with them at `W19`.  Its arrays
    are split out of the unscoped buffers at entry and put back at what the write-backs left at exit; the generator
    register goes into the kernel's invariant and comes back; nothing is owed and the kernel has no semaphore of its own. -/
def reg0 : Pipeline.RegionSeg (pcfgs (F := F)) adm (pdatsH m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR18 m) c).loose
  hwaits := Pipeline.hwaits_of_owed_zero _ _ _ _ L lv 0 fun _ _ => rfl
  pre c := iprop(StableHlo.held (c : Thread nD τ) (Pipeline.ucRefs τ sig) (V18 m c) ∗ R c)
  post c := iprop(StableHlo.held (c : Thread nD τ) (Pipeline.ucRefs τ sig) (W19 m c) ∗ R c)
  X c := iprop(∃ r, prngReg c r)
  Y c := iprop(∃ r, prngReg c r)
  Z c := Pipeline.unscopedRest (Ix := Unit) (Name := ℕ) (U := UR sig nD τ) (Lvl := ℕ) spec0 c (VR18 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (VR18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (VR18 m c) (VR19 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration: unifying them with the printed one
-- unfolds plain definitions in a metavariable's type
set_option backward.isDefEq.respectTransparency.types false in
/-- Pallas_call 1 as a segment: entered with every unscoped buffer at `W19`, left with them at `W20`.  Its arrays
    are split out of the unscoped buffers at entry and put back at what the write-backs left at exit; the generator
    register goes into the kernel's invariant and comes back; nothing is owed and the kernel has no semaphore of its own. -/
def reg1 : Pipeline.RegionSeg (pcfgs (F := F)) adm (pdatsH m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR19 m) c).loose
  hwaits := Pipeline.hwaits_of_owed_zero _ _ _ _ L lv 1 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec1 c (VR19 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (VR19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (VR19 m c) (VR20 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration: unifying them with the printed one
-- unfolds plain definitions in a metavariable's type
set_option backward.isDefEq.respectTransparency.types false in
/-- Pallas_call 2 as a segment: entered with every unscoped buffer at `W20`, left with them at `W21`.  Its arrays
    are split out of the unscoped buffers at entry and put back at what the write-backs left at exit; the generator
    register goes into the kernel's invariant and comes back; nothing is owed and the kernel has no semaphore of its own. -/
def reg2 : Pipeline.RegionSeg (pcfgs (F := F)) adm (pdatsH m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VR20 m) c).loose
  hwaits := Pipeline.hwaits_of_owed_zero _ _ _ _ L lv 2 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec2 c (VR20 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (VR20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (VR20 m c) (VR21 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration: unifying them with the printed one
-- unfolds plain definitions in a metavariable's type
set_option backward.isDefEq.respectTransparency.types false in
/-- Pallas_call 3 as a segment: entered with every unscoped buffer at `W21`, left with them at `W22`.  Its arrays
    are split out of the unscoped buffers at entry and put back at what the write-backs left at exit; the generator
    register goes into the kernel's invariant and comes back; nothing is owed and the kernel has no semaphore of its own. -/
def reg3 : Pipeline.RegionSeg (pcfgs (F := F)) adm (pdatsH m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VR21 m) c).loose
  hwaits := Pipeline.hwaits_of_owed_zero _ _ _ _ L lv 3 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec3 c (VR21 m c)
  hentry c := by
    rw [Pipeline.ownSems0_none]
    have hsplit := Pipeline.arrays_of_unscopedBufs (p := 3) (pcfgs (F := F)) adm (pdatsH m) launch3.win launch3.arr_whole c
      ((pdatsH m 3 c).share_full fun _ => rfl) (VR21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec3 c).trans (hin3 (VR21 m) c)
    unfold Pipeline.ΦA
    iintro ⟨Hp, -, Hr⟩
    isplitl [Hr]; · iexact Hr
    iexact Hp
  hout c := by
    refine (hout3 (VR21 m) c).trans (?_ : Pipeline.ΦA spec3 c ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsH m) ((pdatsH m 3 c).share_full fun _ => rfl)
      (VR21 m c) (VR22 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 23 segments in order. -/
abbrev segsH : List (Pipeline.Seg (pcfgs (F := F)) adm (pdatsH m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .host (hseg hostOps0_13 hostOps0_13_sub hostOps0_13_fresh (V13 m)),
    .host (hseg hostOps0_14 hostOps0_14_sub hostOps0_14_fresh (V14 m)),
    .host (hseg hostOps0_15 hostOps0_15_sub hostOps0_15_fresh (V15 m)),
    .host (hseg hostOps0_16 hostOps0_16_sub hostOps0_16_fresh (V16 m)),
    .host (hseg hostOps0_17 hostOps0_17_sub hostOps0_17_fresh (V17 m)),
    .region (reg0 m), .region (reg1 m), .region (reg2 m), .region (reg3 m),
    .host (hseg hostOps4 hostOps4_sub hostOps4_fresh (W22 m)) ]

/-- @main is the run of the segments. -/
theorem main_runH (c : Dev nD) : main (F := F) c = Pipeline.Seg.run (segsH m) := (main_chain c).trans (by chain_rfl)

set_option backward.isDefEq.respectTransparency.types false in
/-- THE RUN: from any memory with zero counters every weakly fair execution of @main terminates, nothing faulting,
    and the final memory holds every unscoped buffer at the last boundary's contents `W23`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W23 m c b) :=
  Pipeline.θ_run_regions_kit (pcfgs (F := F)) adm (pdatsH m) () cellOf_inj emb₁ defs₀ 𝒱₀ L lv m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W23 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m c b)
    (hfin := fun c s' => by
      iintro ⟨⟨Hh, -⟩, HSI⟩
      unfold StableHlo.held
      imodintro
      iapply (pointsTo_read_all (Pipeline.ucRefs τ sig) (fun b => (((c : Thread nD τ)).1, b)) (W23 m c) s')
      isplitl [Hh] <;> iassumption)
    (hQ := fun s h c => h c)

/-! ## The frame -/

/-- `main_arg0` reaches the end as launched: no host stretch writes it and it is no pallas_call's array. -/
theorem W23_main_arg0 (c : Dev nD) : W23 m c main_arg0 = m ((c : Thread nD τ).loc main_arg0) :=
  (StableHlo.after_of_writes_sub hostOps4 _ hostOps4_writes (by decide : main_arg0 ∉ hostOps4_W)).trans <|
  (W22_of_ne m c main_arg0 (by decide)).trans <| (W21_of_ne m c main_arg0 (by decide)).trans <|
  (W20_of_ne m c main_arg0 (by decide)).trans <| (W19_of_ne m c main_arg0 (by decide)).trans <|
  (V18_of m c main_arg0 (by decide)).trans <| (V17_of m c main_arg0 (by decide)).trans <| (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

/-- `main_arg1` reaches the end as launched: no host stretch writes it and it is no pallas_call's array. -/
theorem W23_main_arg1 (c : Dev nD) : W23 m c main_arg1 = m ((c : Thread nD τ).loc main_arg1) :=
  (StableHlo.after_of_writes_sub hostOps4 _ hostOps4_writes (by decide : main_arg1 ∉ hostOps4_W)).trans <|
  (W22_of_ne m c main_arg1 (by decide)).trans <| (W21_of_ne m c main_arg1 (by decide)).trans <|
  (W20_of_ne m c main_arg1 (by decide)).trans <| (W19_of_ne m c main_arg1 (by decide)).trans <|
  (V18_of m c main_arg1 (by decide)).trans <| (V17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

/-- `main_arg2` reaches the end as launched: no host stretch writes it and it is no pallas_call's array. -/
theorem W23_main_arg2 (c : Dev nD) : W23 m c main_arg2 = m ((c : Thread nD τ).loc main_arg2) :=
  (StableHlo.after_of_writes_sub hostOps4 _ hostOps4_writes (by decide : main_arg2 ∉ hostOps4_W)).trans <|
  (W22_of_ne m c main_arg2 (by decide)).trans <| (W21_of_ne m c main_arg2 (by decide)).trans <|
  (W20_of_ne m c main_arg2 (by decide)).trans <| (W19_of_ne m c main_arg2 (by decide)).trans <|
  (V18_of m c main_arg2 (by decide)).trans <| (V17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl

/-- `main_arg3` reaches the end as launched: no host stretch writes it and it is no pallas_call's array. -/
theorem W23_main_arg3 (c : Dev nD) : W23 m c main_arg3 = m ((c : Thread nD τ).loc main_arg3) :=
  (StableHlo.after_of_writes_sub hostOps4 _ hostOps4_writes (by decide : main_arg3 ∉ hostOps4_W)).trans <|
  (W22_of_ne m c main_arg3 (by decide)).trans <| (W21_of_ne m c main_arg3 (by decide)).trans <|
  (W20_of_ne m c main_arg3 (by decide)).trans <| (W19_of_ne m c main_arg3 (by decide)).trans <|
  (V18_of m c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl

/-- THE FRAME at any float instance: every weakly fair execution terminates and the argument arrays end as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W23_main_arg0 m c),
     (h c _ (mem_uc main_arg1 (by decide))).trans (W23_main_arg1 m c),
     (h c _ (mem_uc main_arg2 (by decide))).trans (W23_main_arg2 m c),
     (h c _ (mem_uc main_arg3 (by decide))).trans (W23_main_arg3 m c)⟩) (run_all m ρ)

end Cert.Kernel.Hand

end
-- ==== Proof.KiReg0.lean ====
/-
  The first pallas_call (the row quantiser of the activations, 8 grid points of 512 rows), at any float
  instance and at a PARAMETER `V`, the buffer contents its region is entered with: what its one store leaves
  in the output block as a function of the input block, the body's triple, and the pipeline's proof data with
  its body obligation.  Each point reads one 512 × 4096 block of rows and writes the same rows quantised; the
  body reads nothing it wrote and keeps nothing between points.
-/
import proofs.«156148_j65773129171180_1_alg».proof.Proof.Gen.KernelIdeal.Launch
import proofs.«156148_j65773129171180_1_alg».proof.Proof.Gen.KernelIdeal.Skeleton
import proofs.«156148_j65773129171180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole block, the one rectangle the body loads and stores through. -/
abbrev r0_0 : Rect S512x4096 := Rect.unit (s := S512x4096) ![0, 0] S512x4096.size inb_S512x4096_S512x4096_0_0

/-- The output block after the body: its one store, of the quantised rows of the input block. -/
def out0_1 (x0 : Vec F S512x4096 .f32) : Vec F S512x4096 .bf16 :=
  View.canon [⟨r0_0, k0_pay1 (View.ld x0 r0_0)⟩]

/-- That store covers the block. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-! ## The body's triple -/

set_option maxHeartbeats 1000000 in
/-- On whole staging buffers, the input's at `x0` and the output's at anything, the body runs to the input's
    unchanged and the output's at `out0_1 x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quantize_kernel i arg1 harg1 arg2 harg2) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The arrays as the region finds them; after the body at point `t` the input's buffer at its block and the
    output's at `out0_1` of it; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiReg1.lean ====
/-
  The second pallas_call (the gate and up projections of the quantised activations, 11 × 32 grid points), at
  any float instance and at a PARAMETER `V`, the buffer contents its region is entered with: what its one store
  leaves in the output block as a function of the three input blocks, the body's triple, and the pipeline's
  proof data with its body obligation.  Each point reads one 128 × 4096 block of activation rows and one
  1024 × 4096 block of each weight matrix, and writes the 128 × 1024 block of their gated product; the body
  reads nothing it wrote and keeps nothing between points.  The weight blocks change only every 32 points:
  in between, their staging buffers still hold the block, which the body leaves in place.
-/
import proofs.«156148_j65773129171180_1_alg».proof.Proof.Gen.KernelIdeal.Launch
import proofs.«156148_j65773129171180_1_alg».proof.Proof.Gen.KernelIdeal.Skeleton
import proofs.«156148_j65773129171180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds its block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate weights' staging buffer holds its block at every point, fetched there or not, for any proof data
    over `V` whose body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The up weights' staging buffer holds its block at every point, fetched there or not, for any proof data
    over `V` whose body leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The whole activation block, the one rectangle the body loads it through. -/
abbrev r1_x : Rect S128x4096 := Rect.unit (s := S128x4096) ![0, 0] S128x4096.size inb_S128x4096_S128x4096_0_0

/-- The whole weight block, the one rectangle the body loads each weight matrix's block through. -/
abbrev r1_w : Rect S1024x4096 := Rect.unit (s := S1024x4096) ![0, 0] S1024x4096.size inb_S1024x4096_S1024x4096_0_0

/-- The whole output block, the one rectangle the body stores through. -/
abbrev r1_o : Rect S128x1024 := Rect.unit (s := S128x1024) ![0, 0] S128x1024.size inb_S128x1024_S128x1024_0_0

/-- The output block after the body: its one store, of the gated product of the activation block with the
    two weight blocks. -/
def out1_3 (x0 : Vec F S128x4096 .bf16) (x1 x2 : Vec F S1024x4096 .bf16) : Vec F S128x1024 .bf16 :=
  View.canon [⟨r1_o, k1_pay1 (View.ld x0 r1_x) (View.ld x1 r1_w) (View.ld x2 r1_w)⟩]

/-- That store covers the block. -/
theorem cover1_3 (p0 : Vec F S128x1024 .bf16) (y : S128x1024.Idx) :
    ∃ pc ∈ ([⟨r1_o, p0⟩] : List (View.Piece (Elt F) S128x1024 .bf16)), y ∈ pc.1.set :=
  View.cover_of_tiled [⟨r1_o, p0⟩] S128x1024.size (by rfl) y

/-! ## The body's triple -/

set_option maxHeartbeats 1000000 in
/-- On whole staging buffers, the inputs' at `x0`, `x1`, `x2` and the output's at anything, the body runs to the
    inputs' unchanged and the output's at `out1_3 x0 x1 x2`. -/
theorem sound_kernel1 (c : Dev nD) (E : Set ℕ) (i : grid1.Coords) (arg2 : Memref sig .tc .vmem S128x4096 .bf16) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S128x1024 .bf16) (harg5 : arg5.IsWhole)
    (x0 : Vec F S128x4096 .bf16) (x1 x2 : Vec F S1024x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__gate_up_kernel i arg2 harg2 arg3 harg3 arg4 harg4 arg5 harg5) K := by
  simp only [cc1__gate_up_kernel_eq_skeleton]; unfold cc1__gate_up_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The arrays as the region finds them; after the body at point `t` each input's buffer at its block and the
    output's at `out1_3` of the three; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiReg2.lean ====
/-
  The third pallas_call (the row quantiser of the gated hidden rows, 32 grid points of 128 rows), at any float
  instance and at a PARAMETER `V`, the buffer contents its region is entered with: what its one store leaves
  in the output block as a function of the input block, the body's triple, and the pipeline's proof data with
  its body obligation.  Each point reads one 128 × 11264 block of rows and writes the same rows quantised; the
  body reads nothing it wrote and keeps nothing between points.
-/
import proofs.«156148_j65773129171180_1_alg».proof.Proof.Gen.KernelIdeal.Launch
import proofs.«156148_j65773129171180_1_alg».proof.Proof.Gen.KernelIdeal.Skeleton
import proofs.«156148_j65773129171180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input's staging buffer holds its block at every point, for any proof data over `V` whose body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The whole block, the one rectangle the body loads and stores through. -/
abbrev r2_0 : Rect S128x11264 := Rect.unit (s := S128x11264) ![0, 0] S128x11264.size inb_S128x11264_S128x11264_0_0

/-- The output block after the body: its one store, of the quantised rows of the input block. -/
def out2_1 (x0 : Vec F S128x11264 .bf16) : Vec F S128x11264 .bf16 :=
  View.canon [⟨r2_0, k2_pay1 (View.ld x0 r2_0)⟩]

/-- That store covers the block. -/
theorem cover2_1 (p0 : Vec F S128x11264 .bf16) (y : S128x11264.Idx) :
    ∃ pc ∈ ([⟨r2_0, p0⟩] : List (View.Piece (Elt F) S128x11264 .bf16)), y ∈ pc.1.set :=
  View.cover_of_tiled [⟨r2_0, p0⟩] S128x11264.size (by rfl) y

/-! ## The body's triple -/

set_option maxHeartbeats 1000000 in
/-- On whole staging buffers, the input's at `x0` and the output's at anything, the body runs to the input's
    unchanged and the output's at `out2_1 x0`. -/
theorem sound_kernel2 (c : Dev nD) (E : Set ℕ) (i : grid2.Coords) (arg1 : Memref sig .tc .vmem S128x11264 .bf16) (harg1 : arg1.IsWhole) (arg2 : Memref sig .tc .vmem S128x11264 .bf16) (harg2 : arg2.IsWhole)
    (x0 : Vec F S128x11264 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__quantize_kernel i arg1 harg1 arg2 harg2) K := by
  simp only [cc2__quantize_kernel_eq_skeleton]; unfold cc2__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The arrays as the region finds them; after the body at point `t` the input's buffer at its block and the
    output's at `out2_1` of it; nothing carried between points, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiReg3.lean ====
/-
  The fourth pallas_call (the down projection: a matrix product accumulated over the last grid axis), at any
  float instance and at a PARAMETER `V`, the buffer contents its region is entered with.  The grid is
  4 × 4 × 44; at the point (i, j, k) the body reads the block (i, k) of the left operand and the block (j, k)
  of the right operand, both 1024 × 256, and adds their product (contracted over the 256 columns) to a
  1024 × 1024 accumulator that it keeps between points.  At k = 0 it first sets the accumulator to zero; at
  k = 43 it copies the accumulator into the output block (i, j).  So after the k-step j of a run of 44 points
  the accumulator holds the partial sum of the products of the first j + 1 pairs of blocks, and the output
  block receives the sum of all 44.  Three control cases: A, the first k-step (reset, then add); B, a middle
  one (add); C, the last (add, then copy out).  Here: the two conditions in closed form, the body's triple per
  case with the pieces each buffer ends with, what the accumulator and the output block hold point by point,
  the invariant that carries the accumulator, and the pipeline's proof data with its body obligation.
-/
import proofs.«156148_j65773129171180_1_alg».proof.Proof.Gen.KernelIdeal.Launch
import proofs.«156148_j65773129171180_1_alg».proof.Proof.Gen.KernelIdeal.Skeleton
import proofs.«156148_j65773129171180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point, for any proof data over `V` whose body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand's staging buffer likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, in closed form -/

/-- The first conditional's condition: the last grid coordinate is 0 (the first k-step). -/
abbrev cond3_0 (i : grid3.Coords) : Prop := (Scalar.cmpi .ne (Scalar.extui (Scalar.cmpi .eq (BitVec.ofNat 32 (i 2).val) 0#32)) 0#32) = 1#1
/-- It holds at the points ≡ 0 (mod 44): the last axis is the fastest and has 44 steps. -/
theorem hcond3_0 : ∀ t : Fin cfg3.N, cond3_0 (grid3.coords t) ↔ t.val % 44 = 0 :=
  (by decide +kernel : ∀ t : Fin grid3.N, cond3_0 (grid3.coords t) ↔ t.val % 44 = 0)

/-- The second conditional's condition: the last grid coordinate is 43 (the last k-step). -/
abbrev cond3_1 (i : grid3.Coords) : Prop := k3_cond2 i = 1#1
/-- It holds at the points ≡ 43 (mod 44). -/
theorem hcond3_1 : ∀ t : Fin cfg3.N, cond3_1 (grid3.coords t) ↔ t.val % 44 = 43 :=
  (by decide +kernel : ∀ t : Fin grid3.N, cond3_1 (grid3.coords t) ↔ t.val % 44 = 43)

/-! ## Where the windows are idle -/

/-- The operands' windows are never idle. -/
theorem liveAt3_0 (t : Fin cfg3.N) : cfg3.idle 0 (grid3.coords t) = false := rfl
theorem liveAt3_1 (t : Fin cfg3.N) : cfg3.idle 1 (grid3.coords t) = false := rfl
/-- Away from the last k-step the output window is idle: the body stores nothing into it there, -/
theorem idleAt3_2 (t : Fin cfg3.N) (h1 : ¬t.val % 44 = 43) : cfg3.idle 2 (grid3.coords t) = true := by
  have h : ¬k3_cond2 (grid3.coords t) = 1#1 := fun h => h1 ((hcond3_1 t).mp h)
  show (!(k3_cond2 (grid3.coords t) == 1#1)) = true
  rw [Bool.not_eq_true', beq_eq_false_iff_ne]; exact h
/-- and the pipeline does not write its block back there. -/
theorem noFlush3_2 (t : Fin cfg3.N) (h1 : ¬t.val % 44 = 43) : (cfg3.win 2).flush t = false :=
  Bool.eq_false_iff.mpr fun h => h1 ((flush3_2 t).mp h)
/-- At the last k-step it is live. -/
theorem liveAt3_2 (t : Fin cfg3.N) (h1 : t.val % 44 = 43) : cfg3.idle 2 (grid3.coords t) = false := by
  have h : k3_cond2 (grid3.coords t) = 1#1 := (hcond3_1 t).mpr h1
  show (!(k3_cond2 (grid3.coords t) == 1#1)) = false
  rw [h]; rfl

/-! ## The memrefs the body is called with -/

/-- One staging buffer of the output window, through which its contents are stated (the choice does not matter). -/
abbrev VO3_2 : View sig .tc .vmem S1024x1024 .f32 := (Memref.whole cc3_stg2_0 : Memref sig .tc .vmem S1024x1024 .f32).view
/-- Each window's current staging memref at point `t`, as the pipeline passes it, and its wholeness. -/
abbrev ms3_0 (t : Fin cfg3.N) : Memref sig .tc .vmem S1024x256 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3 : Memref sig .tc .vmem S1024x1024 .f32 := Memref.whole cc3_scratch0
/-- The accumulator as a view: what it holds is stated through it. -/
abbrev VS3 : View sig .tc .vmem S1024x1024 .f32 := scM3.view

/-- The core's scoped buffers that are neither a staging buffer of this call nor its accumulator, each at some contents:
    what the invariant carries untouched beside the accumulator. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f))

/-- Two assertions that entail each other are equal. -/
theorem eq_of_entails3 {P Q : sProp 𝕄} (h1 : P ⊢ Q) (h2 : Q ⊢ P) : P = Q := Idealize.SL.BI.Entails.antisymm h1 h2

/-- What the launch hands the region, with the accumulator as a memref owned at some contents, the other scoped
    buffers as `rest3`, and the generator register. -/
theorem PhiA3_eq (c : Dev nD) :
    (Pipeline.ΦA spec3 c : sProp 𝕄)
      = iprop((∃ d, owns (c : Thread nD τ) scM3 fullShare d) ∗ rest3 (F := F) c ∗ (∃ r, prngReg c r)) := by
  unfold Pipeline.ΦA; rw [scopedRest3_eq]; unfold rest3; simp only [scM3, owns_whole]
  refine eq_of_entails3 ?_ ?_
  · iintro ⟨⟨A1, A2, A3, A4, A5, A6, A7, A8, A9, A10, A11, A12, A13, A14, A15, A16, HS⟩, Hg⟩
    iframe
  · iintro ⟨HS, ⟨A1, A2, A3, A4, A5, A6, A7, A8, A9, A10, A11, A12, A13, A14, A15, A16⟩, Hg⟩
    iframe

/-! ## The body's triple, case by case

Each case's run is found by executing the body symbolically on whole memrefs: the operands' at their blocks,
the accumulator and the output block as the case needs them.  The run's witness is, per buffer the case stores
into, the list of pieces (rectangle and stored value, last store first) it ends with. -/

set_option maxHeartbeats 1000000 in
/-- CASE A, the first k-step (first conditional taken, second not).  The accumulator is taken at anything: the
    body overwrites it whole with zeros before reading it, then adds the product of the two blocks.  The output
    block is not touched and is handed back as it was found (`xi2`).  The accumulator ends with two pieces: the
    zeros, then the sum. -/
noncomputable def kernelRun3_A (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x256 .bf16) (x1 : Vec F S1024x256 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul3_kernel i arg3 harg3 arg4 harg4 arg5 harg5 arg6 harg6) K } := by
  refine ⟨[], ?_, fun xi2 E K => ?run⟩
  case run =>
    simp only [cc3__matmul3_kernel_eq_skeleton]; unfold cc3__matmul3_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE B, a middle k-step (neither conditional taken).  The accumulator is taken at what the point before left
    (`xs0`); the body adds the product of the two blocks to it.  The output block is handed back as it was found.
    The accumulator ends with one piece: the sum. -/
noncomputable def kernelRun3_B (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x256 .bf16) (x1 : Vec F S1024x256 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul3_kernel i arg3 harg3 arg4 harg4 arg5 harg5 arg6 harg6) K } := by
  refine ⟨[], ?_, fun xi2 E K => ?run⟩
  case run =>
    simp only [cc3__matmul3_kernel_eq_skeleton]; unfold cc3__matmul3_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C, the last k-step (first conditional not taken, second taken).  The accumulator is taken at what the
    point before left (`xs0`), the output block at anything; the body adds the product of the two blocks to the
    accumulator, reads it back and stores it whole into the output block.  Each ends with one piece. -/
noncomputable def kernelRun3_C (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__matmul3_kernel i arg3 harg3 arg4 harg4 arg5 harg5 arg6 harg6) K } := by
  refine ⟨?_, ?_, fun E K => ?run⟩
  case run =>
    simp only [cc3__matmul3_kernel_eq_skeleton]; unfold cc3__matmul3_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves, read back from its pieces -/

/-- Case A's pieces for the accumulator cover it: the zeros and the sum, each the whole buffer. -/
theorem scover3_A (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x256 .bf16) (x1 : Vec F S1024x256 .bf16) (y : S1024x1024.Idx) :
    ∃ pc ∈ (kernelRun3_A c i arg3 harg3 arg4 harg4 arg5 harg5 arg6 harg6 hc0 hc1 x0 x1).2.1, y ∈ pc.1.set :=
  View.cover_of_tiledL (kernelRun3_A c i arg3 harg3 arg4 harg4 arg5 harg5 arg6 harg6 hc0 hc1 x0 x1).2.1 S1024x1024.size (by sl_kernel_rfl) y

/-- What case A leaves in the accumulator: its pieces read back. -/
def sout3_A (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x256 .bf16) (x1 : Vec F S1024x256 .bf16) : Vec F S1024x1024 .f32 :=
  VS3.read (Elt F) (VS3.writes (Elt F) VS3.junk (kernelRun3_A c i arg3 harg3 arg4 harg4 arg5 harg5 arg6 harg6 hc0 hc1 x0 x1).2.1)

/-- Case A stores nothing into the output block: no pieces, a placeholder nothing consults (the window is idle
    there and its buffer handed back untouched). -/
def out3_A (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x256 .bf16) (x1 : Vec F S1024x256 .bf16) : Vec F S1024x1024 .f32 :=
  VO3_2.read (Elt F) (VO3_2.writes (Elt F) VO3_2.junk (kernelRun3_A c i arg3 harg3 arg4 harg4 arg5 harg5 arg6 harg6 hc0 hc1 x0 x1).1)

/-- Case B's piece for the accumulator covers it. -/
theorem scover3_B (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x256 .bf16) (x1 : Vec F S1024x256 .bf16) (xs0 : Vec F S1024x1024 .f32) (y : S1024x1024.Idx) :
    ∃ pc ∈ (kernelRun3_B c i arg3 harg3 arg4 harg4 arg5 harg5 arg6 harg6 hc0 hc1 x0 x1 xs0).2.1, y ∈ pc.1.set :=
  View.cover_of_tiledL (kernelRun3_B c i arg3 harg3 arg4 harg4 arg5 harg5 arg6 harg6 hc0 hc1 x0 x1 xs0).2.1 S1024x1024.size (by sl_kernel_rfl) y

/-- What case B leaves in the accumulator. -/
def sout3_B (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x256 .bf16) (x1 : Vec F S1024x256 .bf16) (xs0 : Vec F S1024x1024 .f32) : Vec F S1024x1024 .f32 :=
  VS3.read (Elt F) (VS3.writes (Elt F) VS3.junk (kernelRun3_B c i arg3 harg3 arg4 harg4 arg5 harg5 arg6 harg6 hc0 hc1 x0 x1 xs0).2.1)

/-- Case B stores nothing into the output block either: a placeholder. -/
def out3_B (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x256 .bf16) (x1 : Vec F S1024x256 .bf16) (xs0 : Vec F S1024x1024 .f32) : Vec F S1024x1024 .f32 :=
  VO3_2.read (Elt F) (VO3_2.writes (Elt F) VO3_2.junk (kernelRun3_B c i arg3 harg3 arg4 harg4 arg5 harg5 arg6 harg6 hc0 hc1 x0 x1 xs0).1)

/-- Case C's piece for the output block covers it: the one store of the whole accumulator. -/
theorem cover3_C (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) (y : S1024x1024.Idx) :
    ∃ pc ∈ (kernelRun3_C c i arg3 harg3 arg4 harg4 arg5 harg5 arg6 harg6 hc0 hc1 x0 x1 xs0).1, y ∈ pc.1.set :=
  View.cover_of_tiledL (kernelRun3_C c i arg3 harg3 arg4 harg4 arg5 harg5 arg6 harg6 hc0 hc1 x0 x1 xs0).1 S1024x1024.size (by sl_kernel_rfl) y

/-- What case C leaves in the output block. -/
def out3_C (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) : Vec F S1024x1024 .f32 :=
  VO3_2.read (Elt F) (VO3_2.writes (Elt F) VO3_2.junk (kernelRun3_C c i arg3 harg3 arg4 harg4 arg5 harg5 arg6 harg6 hc0 hc1 x0 x1 xs0).1)

/-- Case C's piece for the accumulator covers it. -/
theorem scover3_C (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) (y : S1024x1024.Idx) :
    ∃ pc ∈ (kernelRun3_C c i arg3 harg3 arg4 harg4 arg5 harg5 arg6 harg6 hc0 hc1 x0 x1 xs0).2.1, y ∈ pc.1.set :=
  View.cover_of_tiledL (kernelRun3_C c i arg3 harg3 arg4 harg4 arg5 harg5 arg6 harg6 hc0 hc1 x0 x1 xs0).2.1 S1024x1024.size (by sl_kernel_rfl) y

/-- What case C leaves in the accumulator. -/
def sout3_C (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) : Vec F S1024x1024 .f32 :=
  VS3.read (Elt F) (VS3.writes (Elt F) VS3.junk (kernelRun3_C c i arg3 harg3 arg4 harg4 arg5 harg5 arg6 harg6 hc0 hc1 x0 x1 xs0).2.1)

/-! ## What the output block and the accumulator hold after each point -/

/-- THE ACCUMULATION.  After the body at position `n`: (the output block's staging buffer, the accumulator).
    The closed forms select the case; a first k-step starts from nothing, a later one from the accumulator the
    point before left.  So within a run of 44 points the accumulator after the k-step j holds the partial sum of the
    products of the first j + 1 pairs of blocks, and at the last the output block holds the whole sum. -/
def outsAt3 (c : Dev nD) : (n : ℕ) → n < cfg3.N → Vec F S1024x1024 .f32 × Vec F S1024x1024 .f32
  | 0, hn =>
    (out3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => absurd ((hcond3_1 ⟨0, hn⟩).mp h) (show ¬(0 : ℕ) % 44 = 43 by decide)) (iblk3 V c 0 ⟨0, hn⟩) (iblk3 V c 1 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => absurd ((hcond3_1 ⟨0, hn⟩).mp h) (show ¬(0 : ℕ) % 44 = 43 by decide)) (iblk3 V c 0 ⟨0, hn⟩) (iblk3 V c 1 ⟨0, hn⟩))
  | n + 1, hn =>
    if h0 : (n + 1) % 44 = 0 then
      if h1 : (n + 1) % 44 = 43 then
        False.elim (by omega)
      else
        (out3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 44 = 43 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at a first k-step: case A's contents. -/
theorem outsAt3_A (c : Dev nD) (t : Fin cfg3.N) (h0 : t.val % 44 = 0) (h1 : ¬t.val % 44 = 43) :
    outsAt3 V c t.val t.isLt = (out3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t), sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a middle k-step: case B's contents, over the accumulator the point before left. -/
theorem outsAt3_B (c : Dev nD) (t : Fin cfg3.N) (h0 : ¬t.val % 44 = 0) (h1 : ¬t.val % 44 = 43) :
    outsAt3 V c t.val t.isLt = (out3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a last k-step: case C's contents, over the accumulator the point before left. -/
theorem outsAt3_C (c : Dev nD) (t : Fin cfg3.N) (h0 : ¬t.val % 44 = 0) (h1 : t.val % 44 = 43) :
    outsAt3 V c t.val t.isLt = (out3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: before the first point what the launch hands over; afterwards the accumulator at what the
    point before left in it, the other scoped buffers at some contents, the generator register at some state. -/
def PhiS3 (c : Dev nD) : (n : ℕ) → n ≤ cfg3.N → sProp 𝕄
  | 0, _ => Pipeline.ΦA spec3 c
  | n + 1, hn => iprop(owns (c : Thread nD τ) scM3 fullShare ((outsAt3 V c n hn).2) ∗ rest3 (F := F) c ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare ((outsAt3 V c n hn).2) ∗ rest3 (F := F) c ∗ (∃ r, prngReg c r)) := rfl

theorem PhiS3_pos (c : Dev nD) (n : ℕ) (h : n ≤ cfg3.N) (hz : n ≠ 0) :
    PhiS3 V c n h = iprop(owns (c : Thread nD τ) scM3 fullShare ((outsAt3 V c (n - 1) (by omega)).2) ∗ rest3 (F := F) c ∗ (∃ r, prngReg c r)) := by
  cases n with
  | zero => exact absurd rfl hz
  | succ n => rfl

/-! ## The pipeline's proof data -/

/-- The arrays as the region finds them; after the body at point `t` each operand's buffer at its block and the
    output's at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point.  The operands' memrefs hold their blocks; the closed forms say which case the point is
    in.  The invariant hands the body the accumulator — at what the point before left, or at anything before the
    first point, which is a first k-step and does not read it — and takes it back at this point's contents; the
    other scoped buffers and the generator register pass through.  Away from a last k-step the output block is
    handed back as found; at a last k-step it holds the accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  have hN : t.val < 704 := lt_of_lt_of_eq t.isLt (show cfg3.N = 704 from N_3)
  by_cases h0 : t.val % 44 = 0
  · have h1 : ¬t.val % 44 = 43 := by omega
    rw [Dat.leavesExact_idle (dat3 V c) 2 t (idleAt3_2 t h1) (noFlush3_2 t h1)]
    rw [outsAt3_A V c t h0 h1]
    unfold sout3_A; (try dsimp only)
    by_cases hz : t.val = 0
    · rw [PhiS3_castSucc V c t, PhiS3_zero V c _ _ hz, PhiA3_eq]
      iintro ⟨⟨HS0, Hr, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover3_A c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS3_castSucc V c t, PhiS3_pos V c _ _ hz]
      iintro ⟨⟨HS0, Hr, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover3_A c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun hz => h0 (by rw [hz])
    by_cases h1 : t.val % 44 = 43
    · rw [show (dat3 V c).leavesExact 2 t = owns (c : Thread nD τ) (ms3_2 t) fullShare ((dat3 V c).after 2 t) from by
        unfold Dat.leavesExact; rw [liveAt3_2 t h1], after3_2]
      rw [outsAt3_C V c t h0 h1]
      unfold out3_C sout3_C; (try dsimp only)
      rw [PhiS3_castSucc V c t, PhiS3_pos V c _ _ hz]
      iintro ⟨⟨HS0, Hr, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · unfold owns; iexists _; isplitr
          swap; · iexact HS0
          ipureintro; exact View.read_writes_of_cover _ _ _ _ _ (scover3_C c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C c _ _ _ _ _ _ _ _ _ _ _ _ _ _)
    · rw [Dat.leavesExact_idle (dat3 V c) 2 t (idleAt3_2 t h1) (noFlush3_2 t h1)]
      rw [outsAt3_B V c t h0 h1]
      unfold sout3_B; (try dsimp only)
      rw [PhiS3_castSucc V c t, PhiS3_pos V c _ _ hz]
      iintro ⟨⟨HS0, Hr, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover3_B c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives back what the launch handed over: the accumulator's named
    contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS0, Hr, Hg⟩
  isplitl [HS0]
  · iexists _; iexact HS0
  isplitl [Hr]; · iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 704 := N_3; omega)

/-! ## The cases' values

What each case's pieces read back to, over the payloads: the loads read whole buffers, a covering store leaves its
payload. -/

theorem hz3 : (![0, 0] : Fin 2 → Nat) = fun _ => 0 := funext fun a => by fin_cases a <;> rfl

/-- CASE A's value: the accumulator is set to zero, read back, and the product of the two blocks added to it. -/
theorem sout3_A_eq (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x256 .bf16) (x1 : Vec F S1024x256 .bf16) :
    sout3_A c i arg3 harg3 arg4 harg4 arg5 harg5 arg6 harg6 hc0 hc1 x0 x1 = k3_pay2 x0 x1 (k3_pay1 (F := F)) := by
  unfold sout3_A
  rw [View.read_writes_eq_canon _ _ _ (scover3_A c i arg3 harg3 arg4 harg4 arg5 harg5 arg6 harg6 hc0 hc1 x0 x1)]
  unfold kernelRun3_A
  dsimp only
  sl_unfold_words
  rw [View.canon_cons_unit_zero (S := S1024x1024) hz3, View.readCov_unit_zero (S := S1024x1024) _ hz3]
  simp only [View.readAt_eq_ld, harg3.read_unread, harg4.read_unread, View.ld_unit_zero (S := S1024x256) hz3]

/-- CASE B's value: the product of the two blocks added to the accumulator the point before left. -/
theorem sout3_B_eq (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x256 .bf16) (x1 : Vec F S1024x256 .bf16) (xs0 : Vec F S1024x1024 .f32) :
    sout3_B c i arg3 harg3 arg4 harg4 arg5 harg5 arg6 harg6 hc0 hc1 x0 x1 xs0 = k3_pay2 x0 x1 xs0 := by
  unfold sout3_B
  rw [View.read_writes_eq_canon _ _ _ (scover3_B c i arg3 harg3 arg4 harg4 arg5 harg5 arg6 harg6 hc0 hc1 x0 x1 xs0)]
  unfold kernelRun3_B
  dsimp only
  sl_unfold_words
  rw [View.canon_unit_zero (S := S1024x1024) hz3]
  simp only [View.readAt_eq_ld, harg3.read_unread, harg4.read_unread, harg6.read_unread, View.ld_unit_zero (S := S1024x256) hz3, View.ld_unit_zero (S := S1024x1024) hz3]

/-- CASE C's value in the accumulator: as case B's. -/
theorem sout3_C_eq (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) :
    sout3_C c i arg3 harg3 arg4 harg4 arg5 harg5 arg6 harg6 hc0 hc1 x0 x1 xs0 = k3_pay2 x0 x1 xs0 := by
  unfold sout3_C
  rw [View.read_writes_eq_canon _ _ _ (scover3_C c i arg3 harg3 arg4 harg4 arg5 harg5 arg6 harg6 hc0 hc1 x0 x1 xs0)]
  unfold kernelRun3_C
  dsimp only
  sl_unfold_words
  rw [View.canon_unit_zero (S := S1024x1024) hz3]
  simp only [View.readAt_eq_ld, harg3.read_unread, harg4.read_unread, harg6.read_unread, View.ld_unit_zero (S := S1024x256) hz3, View.ld_unit_zero (S := S1024x1024) hz3]

/-- CASE C's value in the output block: the accumulator, read back after the sum is stored into it. -/
theorem out3_C_eq (c : Dev nD) (i : grid3.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x256 .bf16) (x1 : Vec F S1024x256 .bf16) (xs0 : Vec F S1024x1024 .f32) :
    out3_C c i arg3 harg3 arg4 harg4 arg5 harg5 arg6 harg6 hc0 hc1 x0 x1 xs0 = k3_pay2 x0 x1 xs0 := by
  unfold out3_C
  rw [View.read_writes_eq_canon _ _ _ (cover3_C c i arg3 harg3 arg4 harg4 arg5 harg5 arg6 harg6 hc0 hc1 x0 x1 xs0)]
  unfold kernelRun3_C
  dsimp only
  sl_unfold_words
  rw [View.canon_unit_zero (S := S1024x1024) hz3, View.readCov_unit_zero (S := S1024x1024) _ hz3]
  simp only [View.readAt_eq_ld, harg3.read_unread, harg4.read_unread, harg6.read_unread, View.ld_unit_zero (S := S1024x256) hz3, View.ld_unit_zero (S := S1024x1024) hz3]

end Cert.KernelIdeal.Hand

end
-- ==== Proof.KiRun.lean ====
/-
  The run of the whole program at any float instance: @main as nineteen stretches of host operations and four
  pallas_calls in order, the contents of every unscoped buffer named at each boundary — the launch memory,
  then each host stretch's operations applied, then, after each pallas_call, its arrays at what its
  write-backs leave and every other buffer as entered.  The launch is the library's theorem for a list of
  segments; its conclusion here is that every weakly fair execution terminates with EVERY unscoped buffer at
  the last boundary's contents, from which both the frame (the arguments end as launched) and the result's
  value are read.
-/
import proofs.«156148_j65773129171180_1_alg».proof.Proof.KiReg0
import proofs.«156148_j65773129171180_1_alg».proof.Proof.KiReg1
import proofs.«156148_j65773129171180_1_alg».proof.Proof.KiReg2
import proofs.«156148_j65773129171180_1_alg».proof.Proof.KiReg3
import proofs.«156148_j65773129171180_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary

Before the first pallas_call the contents are the generated module's `V0 m c` … `V18 m c`: the launch memory, then
each host stretch applied. -/

/-- The contents the first pallas_call is entered with, read at the TensorCore's references. -/
abbrev VR18 : (c : Dev nD) → (b : Ref sig .tc) → Buf (Elt F) ((c : Thread nD τ).loc b) := fun c b => V18 m c b

/-- After pallas_call 0: its arrays at what its write-backs leave, every other buffer as it was entered. -/
def W19 (c : Dev nD) : Valuation τ sig (Elt F) :=
  Pipeline.withArrays spec0 c (V18 m c) fun w => (dat0 (VR18 m) c).arrAt w cfg0.N
theorem W19_arr (c : Dev nD) (w : Fin cfg0.W) :
    W19 m c (Proc.devRef .tc (Pipeline.arrRef spec0 w)) = (dat0 (VR18 m) c).arrAt w cfg0.N := by
  unfold W19; exact Pipeline.withArrays_arr spec0 launch0.win.arr_inj c _ _ w
theorem W19_of_ne (c : Dev nD) (b : Ref sig .tc) (hb : ∀ w, Pipeline.arrRef spec0 w ≠ b) :
    W19 m c (Proc.devRef .tc b) = V18 m c (Proc.devRef .tc b) := by
  unfold W19; exact Pipeline.withArrays_of_ne spec0 c _ _ b hb
/-- The same read at the TensorCore's references. -/
abbrev VR19 : (c : Dev nD) → (b : Ref sig .tc) → Buf (Elt F) ((c : Thread nD τ).loc b) := fun c b => W19 m c b
theorem hF0 (c : Dev nD) (w : Fin cfg0.W) : (dat0 (VR18 m) c).arrAt w cfg0.N = VR19 m c (Pipeline.arrRef spec0 w) :=
  (W19_arr m c w).symm
theorem hrest0 (c : Dev nD) : ∀ b, b ∉ Finset.univ.image (Pipeline.arrRef spec0) → VR19 m c b = VR18 m c b :=
  fun b hb => W19_of_ne m c b fun w e => hb (Finset.mem_image.mpr ⟨w, Finset.mem_univ _, e⟩)

/-- After pallas_call 1: its arrays at what its write-backs leave, every other buffer as it was entered. -/
def W20 (c : Dev nD) : Valuation τ sig (Elt F) :=
  Pipeline.withArrays spec1 c (W19 m c) fun w => (dat1 (VR19 m) c).arrAt w cfg1.N
theorem W20_arr (c : Dev nD) (w : Fin cfg1.W) :
    W20 m c (Proc.devRef .tc (Pipeline.arrRef spec1 w)) = (dat1 (VR19 m) c).arrAt w cfg1.N := by
  unfold W20; exact Pipeline.withArrays_arr spec1 launch1.win.arr_inj c _ _ w
theorem W20_of_ne (c : Dev nD) (b : Ref sig .tc) (hb : ∀ w, Pipeline.arrRef spec1 w ≠ b) :
    W20 m c (Proc.devRef .tc b) = W19 m c (Proc.devRef .tc b) := by
  unfold W20; exact Pipeline.withArrays_of_ne spec1 c _ _ b hb
/-- The same read at the TensorCore's references. -/
abbrev VR20 : (c : Dev nD) → (b : Ref sig .tc) → Buf (Elt F) ((c : Thread nD τ).loc b) := fun c b => W20 m c b
theorem hF1 (c : Dev nD) (w : Fin cfg1.W) : (dat1 (VR19 m) c).arrAt w cfg1.N = VR20 m c (Pipeline.arrRef spec1 w) :=
  (W20_arr m c w).symm
theorem hrest1 (c : Dev nD) : ∀ b, b ∉ Finset.univ.image (Pipeline.arrRef spec1) → VR20 m c b = VR19 m c b :=
  fun b hb => W20_of_ne m c b fun w e => hb (Finset.mem_image.mpr ⟨w, Finset.mem_univ _, e⟩)

/-- After pallas_call 2: its arrays at what its write-backs leave, every other buffer as it was entered. -/
def W21 (c : Dev nD) : Valuation τ sig (Elt F) :=
  Pipeline.withArrays spec2 c (W20 m c) fun w => (dat2 (VR20 m) c).arrAt w cfg2.N
theorem W21_arr (c : Dev nD) (w : Fin cfg2.W) :
    W21 m c (Proc.devRef .tc (Pipeline.arrRef spec2 w)) = (dat2 (VR20 m) c).arrAt w cfg2.N := by
  unfold W21; exact Pipeline.withArrays_arr spec2 launch2.win.arr_inj c _ _ w
theorem W21_of_ne (c : Dev nD) (b : Ref sig .tc) (hb : ∀ w, Pipeline.arrRef spec2 w ≠ b) :
    W21 m c (Proc.devRef .tc b) = W20 m c (Proc.devRef .tc b) := by
  unfold W21; exact Pipeline.withArrays_of_ne spec2 c _ _ b hb
/-- The same read at the TensorCore's references. -/
abbrev VR21 : (c : Dev nD) → (b : Ref sig .tc) → Buf (Elt F) ((c : Thread nD τ).loc b) := fun c b => W21 m c b
theorem hF2 (c : Dev nD) (w : Fin cfg2.W) : (dat2 (VR20 m) c).arrAt w cfg2.N = VR21 m c (Pipeline.arrRef spec2 w) :=
  (W21_arr m c w).symm
theorem hrest2 (c : Dev nD) : ∀ b, b ∉ Finset.univ.image (Pipeline.arrRef spec2) → VR21 m c b = VR20 m c b :=
  fun b hb => W21_of_ne m c b fun w e => hb (Finset.mem_image.mpr ⟨w, Finset.mem_univ _, e⟩)

/-- After pallas_call 3: its arrays at what its write-backs leave, every other buffer as it was entered. -/
def W22 (c : Dev nD) : Valuation τ sig (Elt F) :=
  Pipeline.withArrays spec3 c (W21 m c) fun w => (dat3 (VR21 m) c).arrAt w cfg3.N
theorem W22_arr (c : Dev nD) (w : Fin cfg3.W) :
    W22 m c (Proc.devRef .tc (Pipeline.arrRef spec3 w)) = (dat3 (VR21 m) c).arrAt w cfg3.N := by
  unfold W22; exact Pipeline.withArrays_arr spec3 launch3.win.arr_inj c _ _ w
theorem W22_of_ne (c : Dev nD) (b : Ref sig .tc) (hb : ∀ w, Pipeline.arrRef spec3 w ≠ b) :
    W22 m c (Proc.devRef .tc b) = W21 m c (Proc.devRef .tc b) := by
  unfold W22; exact Pipeline.withArrays_of_ne spec3 c _ _ b hb
/-- The same read at the TensorCore's references. -/
abbrev VR22 : (c : Dev nD) → (b : Ref sig .tc) → Buf (Elt F) ((c : Thread nD τ).loc b) := fun c b => W22 m c b
theorem hF3 (c : Dev nD) (w : Fin cfg3.W) : (dat3 (VR21 m) c).arrAt w cfg3.N = VR22 m c (Pipeline.arrRef spec3 w) :=
  (W22_arr m c w).symm
theorem hrest3 (c : Dev nD) : ∀ b, b ∉ Finset.univ.image (Pipeline.arrRef spec3) → VR22 m c b = VR21 m c b :=
  fun b hb => W22_of_ne m c b fun w e => hb (Finset.mem_image.mpr ⟨w, Finset.mem_univ _, e⟩)

/-- After the last host stretch (the result's reshape). -/
abbrev W23 : Dev nD → Valuation τ sig (Elt F) := fun c => StableHlo.after hostOps4 (W22 m c)

/-! ## The proof data family and what rides beside the buffers -/

/-- Every pipeline's proof data, each at its region's entry contents. -/
def pdatsH : (p : Fin 4) → (c : Dev nD) → Dat τ (Elt F) Unit ℕ (UR sig nD τ) ℕ (Pipeline.pin (pcfgs (F := F)) adm p) c
  | ⟨0, _⟩ => fun c => dat0 (VR18 m) c
  | ⟨1, _⟩ => fun c => dat1 (VR19 m) c
  | ⟨2, _⟩ => fun c => dat2 (VR20 m) c
  | ⟨3, _⟩ => fun c => dat3 (VR21 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W23 m c) ∗ ∃ r, prngReg c r)

/-! ## The pallas_calls as segments -/

-- the library's entry and exit lemmas are stated over the pinned configuration: unifying them with the printed one
-- unfolds plain definitions in a metavariable's type
set_option backward.isDefEq.respectTransparency.types false in
/-- Pallas_call 0 as a segment: entered with every unscoped buffer at `V18`, left with them at `W19`.  Its arrays
    are split out of the unscoped buffers at entry and put back at what the write-backs left at exit; the generator
    register goes into the kernel's invariant and comes back; nothing is owed and the kernel has no semaphore of its own. -/
def reg0 : Pipeline.RegionSeg (pcfgs (F := F)) adm (pdatsH m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR18 m) c).loose
  hwaits := Pipeline.hwaits_of_owed_zero _ _ _ _ L lv 0 fun _ _ => rfl
  pre c := iprop(StableHlo.held (c : Thread nD τ) (Pipeline.ucRefs τ sig) (V18 m c) ∗ R c)
  post c := iprop(StableHlo.held (c : Thread nD τ) (Pipeline.ucRefs τ sig) (W19 m c) ∗ R c)
  X c := iprop(∃ r, prngReg c r)
  Y c := iprop(∃ r, prngReg c r)
  Z c := Pipeline.unscopedRest (Ix := Unit) (Name := ℕ) (U := UR sig nD τ) (Lvl := ℕ) spec0 c (VR18 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (VR18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (VR18 m c) (VR19 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration: unifying them with the printed one
-- unfolds plain definitions in a metavariable's type
set_option backward.isDefEq.respectTransparency.types false in
/-- Pallas_call 1 as a segment: entered with every unscoped buffer at `W19`, left with them at `W20`.  Its arrays
    are split out of the unscoped buffers at entry and put back at what the write-backs left at exit; the generator
    register goes into the kernel's invariant and comes back; nothing is owed and the kernel has no semaphore of its own. -/
def reg1 : Pipeline.RegionSeg (pcfgs (F := F)) adm (pdatsH m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR19 m) c).loose
  hwaits := Pipeline.hwaits_of_owed_zero _ _ _ _ L lv 1 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec1 c (VR19 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (VR19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (VR19 m c) (VR20 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration: unifying them with the printed one
-- unfolds plain definitions in a metavariable's type
set_option backward.isDefEq.respectTransparency.types false in
/-- Pallas_call 2 as a segment: entered with every unscoped buffer at `W20`, left with them at `W21`.  Its arrays
    are split out of the unscoped buffers at entry and put back at what the write-backs left at exit; the generator
    register goes into the kernel's invariant and comes back; nothing is owed and the kernel has no semaphore of its own. -/
def reg2 : Pipeline.RegionSeg (pcfgs (F := F)) adm (pdatsH m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VR20 m) c).loose
  hwaits := Pipeline.hwaits_of_owed_zero _ _ _ _ L lv 2 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec2 c (VR20 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (VR20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (VR20 m c) (VR21 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration: unifying them with the printed one
-- unfolds plain definitions in a metavariable's type
set_option backward.isDefEq.respectTransparency.types false in
/-- Pallas_call 3 as a segment: entered with every unscoped buffer at `W21`, left with them at `W22`.  Its arrays
    are split out of the unscoped buffers at entry and put back at what the write-backs left at exit; the generator
    register goes into the kernel's invariant and comes back; nothing is owed and the kernel has no semaphore of its own. -/
def reg3 : Pipeline.RegionSeg (pcfgs (F := F)) adm (pdatsH m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VR21 m) c).loose
  hwaits := Pipeline.hwaits_of_owed_zero _ _ _ _ L lv 3 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec3 c (VR21 m c)
  hentry c := by
    rw [Pipeline.ownSems0_none]
    have hsplit := Pipeline.arrays_of_unscopedBufs (p := 3) (pcfgs (F := F)) adm (pdatsH m) launch3.win launch3.arr_whole c
      ((pdatsH m 3 c).share_full fun _ => rfl) (VR21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec3 c).trans (hin3 (VR21 m) c)
    unfold Pipeline.ΦA
    iintro ⟨Hp, -, Hr⟩
    isplitl [Hr]; · iexact Hr
    iexact Hp
  hout c := by
    refine (hout3 (VR21 m) c).trans (?_ : Pipeline.ΦA spec3 c ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsH m) ((pdatsH m 3 c).share_full fun _ => rfl)
      (VR21 m c) (VR22 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 23 segments in order. -/
abbrev segsH : List (Pipeline.Seg (pcfgs (F := F)) adm (pdatsH m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .host (hseg hostOps0_13 hostOps0_13_sub hostOps0_13_fresh (V13 m)),
    .host (hseg hostOps0_14 hostOps0_14_sub hostOps0_14_fresh (V14 m)),
    .host (hseg hostOps0_15 hostOps0_15_sub hostOps0_15_fresh (V15 m)),
    .host (hseg hostOps0_16 hostOps0_16_sub hostOps0_16_fresh (V16 m)),
    .host (hseg hostOps0_17 hostOps0_17_sub hostOps0_17_fresh (V17 m)),
    .region (reg0 m), .region (reg1 m), .region (reg2 m), .region (reg3 m),
    .host (hseg hostOps4 hostOps4_sub hostOps4_fresh (W22 m)) ]

/-- @main is the run of the segments. -/
theorem main_runH (c : Dev nD) : main (F := F) c = Pipeline.Seg.run (segsH m) := (main_chain c).trans (by chain_rfl)

set_option backward.isDefEq.respectTransparency.types false in
/-- THE RUN: from any memory with zero counters every weakly fair execution of @main terminates, nothing faulting,
    and the final memory holds every unscoped buffer at the last boundary's contents `W23`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W23 m c b) :=
  Pipeline.θ_run_regions_kit (pcfgs (F := F)) adm (pdatsH m) () cellOf_inj emb₁ defs₀ 𝒱₀ L lv m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W23 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m c b)
    (hfin := fun c s' => by
      iintro ⟨⟨Hh, -⟩, HSI⟩
      unfold StableHlo.held
      imodintro
      iapply (pointsTo_read_all (Pipeline.ucRefs τ sig) (fun b => (((c : Thread nD τ)).1, b)) (W23 m c) s')
      isplitl [Hh] <;> iassumption)
    (hQ := fun s h c => h c)

/-! ## The frame -/

/-- `main_arg0` reaches the end as launched: no host stretch writes it and it is no pallas_call's array. -/
theorem W23_main_arg0 (c : Dev nD) : W23 m c main_arg0 = m ((c : Thread nD τ).loc main_arg0) :=
  (StableHlo.after_of_writes_sub hostOps4 _ hostOps4_writes (by decide : main_arg0 ∉ hostOps4_W)).trans <|
  (W22_of_ne m c main_arg0 (by decide)).trans <| (W21_of_ne m c main_arg0 (by decide)).trans <|
  (W20_of_ne m c main_arg0 (by decide)).trans <| (W19_of_ne m c main_arg0 (by decide)).trans <|
  (V18_of m c main_arg0 (by decide)).trans <| (V17_of m c main_arg0 (by decide)).trans <| (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

/-- `main_arg1` reaches the end as launched: no host stretch writes it and it is no pallas_call's array. -/
theorem W23_main_arg1 (c : Dev nD) : W23 m c main_arg1 = m ((c : Thread nD τ).loc main_arg1) :=
  (StableHlo.after_of_writes_sub hostOps4 _ hostOps4_writes (by decide : main_arg1 ∉ hostOps4_W)).trans <|
  (W22_of_ne m c main_arg1 (by decide)).trans <| (W21_of_ne m c main_arg1 (by decide)).trans <|
  (W20_of_ne m c main_arg1 (by decide)).trans <| (W19_of_ne m c main_arg1 (by decide)).trans <|
  (V18_of m c main_arg1 (by decide)).trans <| (V17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

/-- `main_arg2` reaches the end as launched: no host stretch writes it and it is no pallas_call's array. -/
theorem W23_main_arg2 (c : Dev nD) : W23 m c main_arg2 = m ((c : Thread nD τ).loc main_arg2) :=
  (StableHlo.after_of_writes_sub hostOps4 _ hostOps4_writes (by decide : main_arg2 ∉ hostOps4_W)).trans <|
  (W22_of_ne m c main_arg2 (by decide)).trans <| (W21_of_ne m c main_arg2 (by decide)).trans <|
  (W20_of_ne m c main_arg2 (by decide)).trans <| (W19_of_ne m c main_arg2 (by decide)).trans <|
  (V18_of m c main_arg2 (by decide)).trans <| (V17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl

/-- `main_arg3` reaches the end as launched: no host stretch writes it and it is no pallas_call's array. -/
theorem W23_main_arg3 (c : Dev nD) : W23 m c main_arg3 = m ((c : Thread nD τ).loc main_arg3) :=
  (StableHlo.after_of_writes_sub hostOps4 _ hostOps4_writes (by decide : main_arg3 ∉ hostOps4_W)).trans <|
  (W22_of_ne m c main_arg3 (by decide)).trans <| (W21_of_ne m c main_arg3 (by decide)).trans <|
  (W20_of_ne m c main_arg3 (by decide)).trans <| (W19_of_ne m c main_arg3 (by decide)).trans <|
  (V18_of m c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl

/-- THE FRAME at any float instance: every weakly fair execution terminates and the argument arrays end as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W23_main_arg0 m c),
     (h c _ (mem_uc main_arg1 (by decide))).trans (W23_main_arg1 m c),
     (h c _ (mem_uc main_arg2 (by decide))).trans (W23_main_arg2 m c),
     (h c _ (mem_uc main_arg3 (by decide))).trans (W23_main_arg3 m c)⟩) (run_all m ρ)

end Cert.KernelIdeal.Hand

end
-- ==== Proof.Spec.lean ====
/-
  The mathematics of the gated MLP with quantised activations and weights, over the extended reals, as
  functions of one token's row.  Nothing here mentions a program: the two programs are each shown to
  compute these functions, and the laws that relate the padded, blocked arrangement to the plain one are
  proved in a module of their own.

  * a ROW QUANTISER `aq`: the row's absolute maximum `amax` (a fold of `max` from -∞), the scale
    `127 / max(amax, ε)`, each entry scaled, rounded to the nearest even integer, clamped to [-128, 127]
    and divided by the scale again;
  * a TENSOR QUANTISER `wq s`: the same with scale `1 / max(s / n, ε)` from the tensor's absolute sum `s`,
    clamped to [-1, 1];
  * the GATE `gate`: `max(g, 0)² · u` of the two projections `g = Σ_k xq k · wg j k`, `u = Σ_k xq k · wu j k`;
  * the OUTPUT `outRow`: `Σ_j aq(gate) j · wd n j`.
-/
import Idealize.ShloMosaic.PureOps.Ideal.Laws
import Idealize.ShloMosaic.Lib.ValueIdx

noncomputable section

namespace Cert.Spec

open Idealize.ShloMosaic

/-- The literals of both programs, as the extended reals their f32 words denote. -/
abbrev eps : EReal := Ideal.ofBits .f32 0x3727C5AC#32
abbrev c127 : EReal := Ideal.ofBits .f32 0x42FE0000#32
abbrev cm128 : EReal := Ideal.ofBits .f32 0xC3000000#32
abbrev c1 : EReal := Ideal.ofBits .f32 0x3F800000#32
abbrev cm1 : EReal := Ideal.ofBits .f32 0xBF800000#32
abbrev cN : EReal := Ideal.ofBits .f32 0x4C2C0000#32
abbrev ninf : EReal := Ideal.ofBits .f32 0xFF800000#32
abbrev zero : EReal := Ideal.ofBits .f32 0x00000000#32

/-- Rounding to the nearest integer, ties to even, on the extended reals. -/
abbrev rne (x : EReal) : EReal := Ideal.liftRound Ideal.roundHalfEven x

/-- A row's absolute maximum: the fold of `max` from -∞ over `|row k| = max (row k) (-(row k))`. -/
def amax {C : Nat} (row : Fin C → EReal) : EReal :=
  (Finset.univ : Finset (Fin C)).fold max ninf (fun k => max (row k) (-(row k)))

/-- The row's scale `127 / max(amax, ε)`. -/
def ascale {C : Nat} (row : Fin C → EReal) : EReal := Ideal.div c127 (max (amax row) eps)

/-- One entry `v` quantised at scale `s`: scaled, rounded, clamped to [-128, 127], unscaled. -/
def aq1 (s v : EReal) : EReal := Ideal.div (min c127 (max cm128 (rne (v * s)))) s

/-- The row quantiser. -/
def aq {C : Nat} (row : Fin C → EReal) (k : Fin C) : EReal := aq1 (ascale row) (row k)

/-- A tensor's scale `1 / max(s / n, ε)` from its absolute sum `s`. -/
def wscale (s : EReal) : EReal := Ideal.div c1 (max (Ideal.div s cN) eps)

/-- One entry of a tensor quantised from the tensor's absolute sum `s`: clamped to [-1, 1]. -/
def wq (s v : EReal) : EReal := Ideal.div (min c1 (max cm1 (rne (v * wscale s)))) (wscale s)

/-- The gate at hidden unit `j`: `max(g, 0)² · u`. -/
def gate {H I : Nat} (xq : Fin H → EReal) (wg wu : Fin I → Fin H → EReal) (j : Fin I) : EReal :=
  (max (∑ k, xq k * wg j k) zero * max (∑ k, xq k * wg j k) zero) * (∑ k, xq k * wu j k)

/-- One token's output at feature `n`. -/
def outRow {H I O : Nat} (x : Fin H → EReal) (wg wu : Fin I → Fin H → EReal) (wd : Fin O → Fin I → EReal) (n : Fin O) : EReal :=
  ∑ j, aq (gate (aq x) wg wu) j * wd n j

end Cert.Spec

end
-- ==== Proof.KiVal0.lean ====
/-
  What the first pallas_call, the row quantiser of the activations, leaves in its output array, over the extended
  reals and for every contents the region is entered with: entry (r, k) of the 4096 × 4096 output is the row quantiser
  of row r of the input array at column k.  Each of the 8 grid points reads a block of 512 whole rows and writes the
  same rows quantised; since a row's scale depends on that row alone, a block of whole rows quantised is those rows of
  the whole array quantised, and the 8 blocks of rows tile the array.

  The steps: the body's arithmetic read at one entry of a block (the row's absolute maximum as a fold of max from -∞,
  the scale 127 / max(amax, ε) as a column broadcast along the rows, then scale, round to the nearest even integer,
  clamp and unscale); a block of rows quantised as rows of the quantised array; what each point writes back; the
  cover of the array by the blocks; the array after the run.
-/
import proofs.«156148_j65773129171180_1_alg».proof.Proof.KiReg0
import proofs.«156148_j65773129171180_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## Layout and reduction steps of the body, read at an index -/

/-- The zero offsets of the whole-block rectangle. -/
theorem hz0 : (![0, 0] : Fin 2 → Nat) = fun _ => 0 := funext fun a => by fin_cases a <;> rfl

/-- A vector of length `a` cast to the column `[a, 1]` reads, at `(i, u)`, its entry `i`. -/
theorem shapeCast_a_a1_apply0 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry `p`. -/
theorem broadcastTo_a1_ab_apply0 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Rounding to the nearest even integer, entry by entry. -/
theorem roundeven_apply0 {s : Shape} {φ : FTy} (a : FVec Ideal s φ) (i : s.Idx) :
    roundeven a i = Ideal.liftRound Ideal.roundHalfEven (a i) := rfl

/-- The absolute value, entry by entry: `max x (-x)`. -/
theorem absf_apply0 {s : Shape} {φ : FTy} (a : FVec Ideal s φ) (i : s.Idx) : absf a i = max (a i) (-(a i)) := rfl

/-- Row `p` of a 512 × 4096 block with the column `k` put back is the entry `(p, k)`. -/
theorem lift_row0 (h : S512x4096.Reduces [1] S512) (p : Fin 512) (k : Fin 4096) : h.lift (ix1 p) k = ix2 p k := by
  funext c; apply Fin.ext
  match c with
  | ⟨0, _⟩ => rfl
  | ⟨1, _⟩ => rfl

/-- The maximum over the columns, taken from -∞, at row `p`: the fold of `max` over that row's entries. -/
theorem rowmax0_apply (src : FVec Ideal S512x4096 .f32) (h : S512x4096.Reduces [1] S512) (hφ : FKind.Formats .f32)
    (hacc : (0xFF800000#32 : BitVec 32) = 0xFF800000#32) (p : Fin 512) :
    multiReduction .maximumf [1] S512 src 0xFF800000#32 h hφ hacc (ix1 p)
      = (Finset.univ : Finset (Fin 4096)).fold max (Ideal.ofBits .f32 0xFF800000#32) (fun k => src (ix2 p k)) := by
  refine (Ideal.multiReduction_maximumf_single src 0xFF800000#32 h hφ hacc (ix1 p)).trans ?_
  refine congrArg (Finset.fold max _ · Finset.univ) ?_
  funext k
  show src (h.lift (ix1 p) k) = src (ix2 p k)
  exact congrArg src (lift_row0 h p k)

/-! ## The body's arithmetic at one entry of a block -/

/-- From the column of row scales on: each entry scaled, rounded to the nearest even integer, clamped to [-128, 127] and
    divided by its row's scale again. -/
theorem quantised0_apply (x0 : Vec Ideal S512x4096 .f32) (sc : FVec Ideal S512x1 .f32) (p : Fin 512) (q : Fin 4096) :
    truncf .bf16 (divf (minimumf (broadcast S512x4096 (Scalar.ofBits .f32 0x42FE0000#32))
        (maximumf (broadcast S512x4096 (Scalar.ofBits .f32 0xC3000000#32))
          (roundeven (mulf (shapeCast S512x4096 x0 shapeCasts_S512x4096_S512x4096) (broadcastTo S512x4096 sc broadcasts_S512x1_S512x4096)))))
        (broadcastTo S512x4096 sc broadcasts_S512x1_S512x4096)) bitsLt_bf16_f32 (ix2 p q)
      = Cert.Spec.aq1 (sc (ix2 p (0 : Fin 1))) (x0 (ix2 p q)) := by
  rw [truncf_apply, divf_apply, minimumf_apply, maximumf_apply, roundeven_apply0, mulf_apply, broadcast_apply, broadcast_apply,
    shapeCast_self, broadcastTo_a1_ab_apply0]
  rfl

/-- The column of row scales: at row `p`, `127 / max(the row's absolute maximum, ε)`. -/
theorem scale0_apply (x0 : Vec Ideal S512x4096 .f32) (h : S512x4096.Reduces [1] S512) (hφ : FKind.Formats .f32)
    (hacc : (0xFF800000#32 : BitVec 32) = 0xFF800000#32) (p : Fin 512) (u : Fin 1) :
    (divf (broadcast S512x1 (Scalar.ofBits .f32 0x42FE0000#32))
        (maximumf (shapeCast S512x1 (multiReduction .maximumf [1] S512 (absf (shapeCast S512x4096 x0 shapeCasts_S512x4096_S512x4096))
            0xFF800000#32 h hφ hacc) shapeCasts_S512_S512x1)
          (broadcast S512x1 (Scalar.ofBits .f32 0x3727C5AC#32))) : FVec Ideal S512x1 .f32) (ix2 p u)
      = Cert.Spec.ascale (fun k' : Fin 4096 => x0 (ix2 p k')) := by
  rw [divf_apply, maximumf_apply, broadcast_apply, broadcast_apply, shapeCast_a_a1_apply0, rowmax0_apply, shapeCast_self]
  unfold Cert.Spec.ascale Cert.Spec.amax
  rfl

/-- THE PAYLOAD AT AN ENTRY: row `p` of the block, quantised, at column `q`. -/
theorem pay0_apply (x0 : Vec Ideal S512x4096 .f32) (p : Fin 512) (q : Fin 4096) :
    k0_pay1 x0 (ix2 p q) = Cert.Spec.aq (fun k' : Fin 4096 => x0 (ix2 p k')) q := by
  unfold k0_pay1
  dsimp only
  refine (quantised0_apply x0 _ p q).trans ?_
  unfold Cert.Spec.aq
  exact congrArg (Cert.Spec.aq1 · (x0 (ix2 p q))) (scale0_apply x0 _ _ _ p 0)

/-! ## From the blocks to the array -/

/-- Every row of a 4096 × 4096 array quantised: entry `(r, k)` is the row quantiser of row `r` at `k`. -/
def rowsQuantised0 (A : S4096x4096.Idx → EReal) : S4096x4096.Idx → EReal :=
  fun i => Cert.Spec.aq (fun k' : Fin 4096 => A (ix2 (i 0 : Fin 4096) k')) (i 1 : Fin 4096)

theorem rowsQuantised0_apply (A : S4096x4096.Idx → EReal) (r k : Fin 4096) :
    rowsQuantised0 A (ix2 r k) = Cert.Spec.aq (fun k' : Fin 4096 => A (ix2 r k')) k := rfl

/-- A block of 512 whole rows of the array, quantised, is those rows of the quantised array: entry `y` of the block
    is entry `i` of the array's when the block's row `y 0` is the array's row `i 0` and the columns agree. -/
theorem block0_quantised (A : S4096x4096.Idx → EReal) (x0 : Vec Ideal S512x4096 .f32) (y : S512x4096.Idx) (i : S4096x4096.Idx)
    (hrow : ∀ k' : Fin 4096, x0 (ix2 (y 0 : Fin 512) k') = A (ix2 (i 0 : Fin 4096) k')) (hcol : (y 1).val = (i 1).val) :
    k0_pay1 x0 y = rowsQuantised0 A i := by
  obtain ⟨p, q, rfl⟩ : ∃ (p : Fin 512) (q : Fin 4096), y = ix2 p q := ⟨y 0, y 1, eq_ix2 y⟩
  obtain ⟨r, k, rfl⟩ : ∃ (r : Fin 4096) (k : Fin 4096), i = ix2 r k := ⟨i 0, i 1, eq_ix2 i⟩
  obtain rfl : q = k := Fin.ext hcol
  rw [pay0_apply, rowsQuantised0_apply]
  exact congrArg (Cert.Spec.aq · q) (funext fun k' => hrow k')

/-- The two windows' index maps, decided over the 8 grid points: at point `t` both are `(t, 0)`. -/
theorem idx_facts0 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) = t.val :=
  (by decide +kernel : ∀ t : Fin grid0.N, _)

variable (V : (c : Dev nD) → (b : Ref sig .tc) → Buf (Elt Ideal) ((c : Thread nD τ).loc b))

/-- WHAT POINT `t` WRITES BACK is block `t` of the quantised rows of the input array as the region finds it: entry
    `(p, q)` of the block is row `512 t + p` of the array, and the input's and the output's blocks are the same rows. -/
theorem flushed0_eq (c : Dev nD) (t : Fin cfg0.N) :
    (dat0 (F := Ideal) V c).flushed 1 t = ((cfg0.win 1).blk t).view.read (Elt Ideal) (rowsQuantised0 (V c main_v0)) := by
  show (cfg0.win 1).cut (grid0.coords t) ((dat0 (F := Ideal) V c).after 1 t) = _
  rw [after0_1]
  unfold out0_1
  rw [View.canon_unit_zero hz0]
  simp only [View.ld_unit_zero (S := S512x4096) hz0]
  obtain ⟨e0, e1, e2, e3⟩ := idx_facts0 t
  funext j
  show k0_pay1 (iblk0 V c 0 t) ((cfg0.win 1).xinj (grid0.coords t) j) = rowsQuantised0 (V c main_v0) (((cfg0.win 1).blk t).view.emb j)
  refine block0_quantised (V c main_v0) (iblk0 V c 0 t) ((cfg0.win 1).xinj (grid0.coords t) j) (((cfg0.win 1).blk t).view.emb j) (fun k' => ?_) ?_
  · show V c main_v0 (((cfg0.win 0).blk t).view.emb (ix2 (⟨(j 0).val, (j 0).isLt⟩ : Fin 512) k')) = V c main_v0 _
    refine congrArg (V c main_v0) ?_
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * k'.val = k'.val; omega
  · show (j 1).val = win0_1.index t (1 : Fin 2) * 4096 + 1 * (j 1).val; omega

/-- An index of the output array is in point `t`'s block iff each coordinate is in the block's range on its axis. -/
theorem mem_oblk0 (t : Fin cfg0.N) (i : S4096x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v40).slice (win0_1.rect t)).set ↔ _
  rw [View.set_slice_whole, Rect.mem_set_unit]
  exact Iff.rfl

/-- THE COVER: row `r` of the output array is in the block of point `r / 512`, and every point writes its block back. -/
theorem cover_o0 (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨e0, e1, e2, e3⟩ := idx_facts0 t
  refine ⟨t, flush0_1 t, ?_⟩
  rw [mem_oblk0]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- THE ARRAY after the run: the quantised rows of the input array as the region found it. -/
theorem final0 (c : Dev nD) : (dat0 (F := Ideal) V c).arrAt 1 cfg0.N = rowsQuantised0 (V c main_v0) :=
  (dat0 (F := Ideal) V c).arrAt_eq_of_cover 1 (rowsQuantised0 (V c main_v0)) (fun t _ => flushed0_eq V c t) cover_o0

/-- Entry `(r, k)` of the output array after the run is the row quantiser of row `r` of the input array at `k`. -/
theorem val0 (c : Dev nD) (r k : Fin 4096) :
    (dat0 (F := Ideal) V c).arrAt 1 cfg0.N (ValueIdx.ix2 r k) = Cert.Spec.aq (fun k' : Fin 4096 => V c main_v0 (ValueIdx.ix2 r k')) k :=
  (congrFun (final0 V c) (ix2 r k)).trans (rowsQuantised0_apply (V c main_v0) r k)

end Cert.KernelIdeal.Hand

end
-- ==== Proof.KiVal1.lean ====
/-
  What the second pallas_call leaves in its output array, over the extended reals and for every contents `V` the
  region is entered with: row `r`, column `j` of the 4096 × 11264 output is the gate `max(g, 0)² · u` of the two
  projections `g = Σ_k x r k · wg j k` and `u = Σ_k x r k · wu j k` of row `r` of the quantised activations with row
  `j` of each weight matrix.

  * the body's arithmetic at an index of its block: each of the two matrix products into a zero accumulator
    contracts the last axis of both operands, so its entry `(p, q)` is the sum over `k` of the activation block's
    entry `(p, k)` times the weight block's entry `(q, k)`; the rest is pointwise and the change of float format is
    the identity on the extended reals;
  * the blocks as parts of the arrays: point `t` of the 11 × 32 grid has row tile `t % 32` and hidden tile `t / 32`;
    it reads rows `(t % 32)·128 …` of the activations and rows `(t / 32)·1024 …` of each weight matrix and writes
    the block at `((t % 32)·128, (t / 32)·1024)` of the output;
  * those output blocks tile the array: entry `(r, j)` lies in the block of the point `(j / 1024)·32 + r / 128`.
-/
import proofs.«156148_j65773129171180_1_alg».proof.Proof.KiReg1
import proofs.«156148_j65773129171180_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's arithmetic at an index -/

/-- The left operand of either product is read at the output's row … -/
theorem gu_lhs_0 (i : S128x1024.Idx) (q : dot_S128x4096_S1024x4096_S128x1024_1_1_0_0_n_n.contr.Idx) :
    (dot_S128x4096_S1024x4096_S128x1024_1_1_0_0_n_n.lhsIdx i q 0).val = (i 0).val := by
  unfold DotDims.lhsIdx
  rw [dif_neg (show ¬(0 : Fin S128x4096.rank) ∈ dot_S128x4096_S1024x4096_S128x1024_1_1_0_0_n_n.lhsBatch by decide), dif_pos (show (0 : Fin S128x4096.rank) ∈ dot_S128x4096_S1024x4096_S128x1024_1_1_0_0_n_n.lhsNonContracting by decide)]
  rfl
/-- … and at the contraction's position along its last axis. -/
theorem gu_lhs_1 (i : S128x1024.Idx) (q : dot_S128x4096_S1024x4096_S128x1024_1_1_0_0_n_n.contr.Idx) :
    (dot_S128x4096_S1024x4096_S128x1024_1_1_0_0_n_n.lhsIdx i q 1).val = (q ⟨0, by decide⟩).val :=
  dot_S128x4096_S1024x4096_S128x1024_1_1_0_0_n_n.lhsIdx_val_of_single rfl i q
/-- The right operand is read at the output's column, as its row … -/
theorem gu_rhs_0 (i : S128x1024.Idx) (q : dot_S128x4096_S1024x4096_S128x1024_1_1_0_0_n_n.contr.Idx) :
    (dot_S128x4096_S1024x4096_S128x1024_1_1_0_0_n_n.rhsIdx i q 0).val = (i 1).val := by
  unfold DotDims.rhsIdx
  rw [dif_neg (show ¬(0 : Fin S1024x4096.rank) ∈ dot_S128x4096_S1024x4096_S128x1024_1_1_0_0_n_n.rhsBatch by decide), dif_pos (show (0 : Fin S1024x4096.rank) ∈ dot_S128x4096_S1024x4096_S128x1024_1_1_0_0_n_n.rhsNonContracting by decide)]
  rfl
/-- … and at the contraction's position along its last axis. -/
theorem gu_rhs_1 (i : S128x1024.Idx) (q : dot_S128x4096_S1024x4096_S128x1024_1_1_0_0_n_n.contr.Idx) :
    (dot_S128x4096_S1024x4096_S128x1024_1_1_0_0_n_n.rhsIdx i q 1).val = (q ⟨0, by decide⟩).val :=
  dot_S128x4096_S1024x4096_S128x1024_1_1_0_0_n_n.rhsIdx_val_of_single rfl i q

/-- A projection of the block: entry `(p, q)` of the product into a zero accumulator is `Σ_k a (p, k) · b (q, k)`. -/
theorem proj1_apply (a : FVec Ideal S128x4096 .bf16) (b : FVec Ideal S1024x4096 .bf16) (p : Fin 128) (q : Fin 1024) :
    FloatOps.matmul dot_S128x4096_S1024x4096_S128x1024_1_1_0_0_n_n none a b (constant (F := Ideal) S128x1024 .f32 0x00000000#32) (ix2 p q)
      = ∑ k : Fin 4096, a (ix2 p k) * b (ix2 q k) := by
  rw [Ideal.matmul_constant_zero_apply, ← Equiv.sum_comp (ValueIdx.contrEquiv1 dot_S128x4096_S1024x4096_S128x1024_1_1_0_0_n_n 4096 rfl rfl).symm]
  refine Finset.sum_congr rfl fun k _ => ?_
  have hk := ValueIdx.contrEquiv1_symm_val dot_S128x4096_S1024x4096_S128x1024_1_1_0_0_n_n 4096 rfl rfl k
  have el : dot_S128x4096_S1024x4096_S128x1024_1_1_0_0_n_n.lhsIdx (ix2 p q) ((ValueIdx.contrEquiv1 dot_S128x4096_S1024x4096_S128x1024_1_1_0_0_n_n 4096 rfl rfl).symm k) = ix2 p k := funext fun a => Fin.ext (by
    match a with
    | ⟨0, _⟩ => exact gu_lhs_0 _ _
    | ⟨1, _⟩ => exact (gu_lhs_1 _ _).trans hk)
  have er : dot_S128x4096_S1024x4096_S128x1024_1_1_0_0_n_n.rhsIdx (ix2 p q) ((ValueIdx.contrEquiv1 dot_S128x4096_S1024x4096_S128x1024_1_1_0_0_n_n 4096 rfl rfl).symm k) = ix2 q k := funext fun a => Fin.ext (by
    match a with
    | ⟨0, _⟩ => exact gu_rhs_0 _ _
    | ⟨1, _⟩ => exact (gu_rhs_1 _ _).trans hk)
  rw [el, er]

/-- The body's stored value at entry `(p, q)` of its block is the gate of row `p` of the activation block with row `q`
    of each weight block. -/
theorem pay1_apply (x0 : Vec Ideal S128x4096 .bf16) (x1 x2 : Vec Ideal S1024x4096 .bf16) (p : Fin 128) (q : Fin 1024) :
    k1_pay1 x0 x1 x2 (ix2 p q)
      = Cert.Spec.gate (fun k : Fin 4096 => x0 (ix2 p k)) (fun (j' : Fin 1024) (k : Fin 4096) => x1 (ix2 j' k)) (fun (j' : Fin 1024) (k : Fin 4096) => x2 (ix2 j' k)) q := by
  unfold k1_pay1 Cert.Spec.gate
  simp only [shapeCast_self]
  show (max (FloatOps.matmul dot_S128x4096_S1024x4096_S128x1024_1_1_0_0_n_n none x0 x1 (constant (F := Ideal) S128x1024 .f32 0x00000000#32) (ix2 p q)) Cert.Spec.zero
        * max (FloatOps.matmul dot_S128x4096_S1024x4096_S128x1024_1_1_0_0_n_n none x0 x1 (constant (F := Ideal) S128x1024 .f32 0x00000000#32) (ix2 p q)) Cert.Spec.zero)
      * FloatOps.matmul dot_S128x4096_S1024x4096_S128x1024_1_1_0_0_n_n none x0 x2 (constant (F := Ideal) S128x1024 .f32 0x00000000#32) (ix2 p q) = _
  rw [proj1_apply, proj1_apply]

/-- The same where the three blocks are parts of three arrays: if row `y 0` of the activation block is row `i 0` of
    `A0` and row `y 1` of each weight block is row `i 1` of `A1`, `A2`, the stored value at `y` is the gate of those rows
    of the arrays. -/
theorem pay1_eq_gate (x0 : Vec Ideal S128x4096 .bf16) (x1 x2 : Vec Ideal S1024x4096 .bf16)
    (A0 : S4096x4096.Idx → EReal) (A1 A2 : S11264x4096.Idx → EReal) (y : S128x1024.Idx) (i : S4096x11264.Idx)
    (h0 : ∀ k : Fin 4096, x0 (ix2 (y 0) k) = A0 (ix2 (i 0) k))
    (h1 : ∀ k : Fin 4096, x1 (ix2 (y 1) k) = A1 (ix2 (i 1) k))
    (h2 : ∀ k : Fin 4096, x2 (ix2 (y 1) k) = A2 (ix2 (i 1) k)) :
    k1_pay1 x0 x1 x2 y
      = Cert.Spec.gate (fun k : Fin 4096 => A0 (ix2 (i 0) k)) (fun (j' : Fin 11264) (k : Fin 4096) => A1 (ix2 j' k)) (fun (j' : Fin 11264) (k : Fin 4096) => A2 (ix2 j' k)) (i 1) := by
  refine ((congrArg (k1_pay1 x0 x1 x2) (eq_ix2 y)).trans (pay1_apply x0 x1 x2 (y 0) (y 1))).trans ?_
  unfold Cert.Spec.gate
  simp only [h0, h1, h2]

/-! ## The blocks as parts of the arrays -/

theorem hz1 : (![0, 0] : Fin 2 → Nat) = fun _ => 0 := funext fun a => by fin_cases a <;> rfl

variable (V : (c : Dev nD) → (b : Ref sig .tc) → Buf (Elt Ideal) ((c : Thread nD τ).loc b))

/-- The printed index maps, decided over the grid: point `t` has row tile `t % 32` and hidden tile `t / 32`; the
    activations' block is at row tile, column 0; each weight block at hidden tile, column 0; the output's at
    (row tile, hidden tile). -/
theorem idx_facts1 : ∀ t : Fin cfg1.N,
    win1_0.index t (0 : Fin 2) = t.val % 32 ∧ win1_0.index t (1 : Fin 2) = 0
    ∧ win1_1.index t (0 : Fin 2) = t.val / 32 ∧ win1_1.index t (1 : Fin 2) = 0
    ∧ win1_2.index t (0 : Fin 2) = t.val / 32 ∧ win1_2.index t (1 : Fin 2) = 0
    ∧ win1_3.index t (0 : Fin 2) = t.val % 32 ∧ win1_3.index t (1 : Fin 2) = t.val / 32 :=
  (by decide +kernel : ∀ t : Fin grid1.N, _)

/-- The activations' block at point `t` is rows `(t % 32)·128 …` of the activations. -/
theorem xblk1_apply (c : Dev nD) (t : Fin cfg1.N) (p : Fin 128) (k : Fin 4096) (r : Fin 4096)
    (hr : r.val = t.val % 32 * 128 + p.val) :
    (iblk1 V c 0 t : Vec Ideal S128x4096 .bf16) (ix2 p k) = (V c main_v40 : S4096x4096.Idx → EReal) (ix2 r k) := by
  obtain ⟨e0, e1, -⟩ := idx_facts1 t
  unfold iblk1
  rw [View.read_apply]
  show V c main_v40 _ = V c main_v40 _
  congr 1
  funext a
  apply Fin.ext
  match a with
  | ⟨0, _⟩ => show win1_0.index t (0 : Fin 2) * 128 + 1 * p.val = r.val; omega
  | ⟨1, _⟩ => show win1_0.index t (1 : Fin 2) * 4096 + 1 * k.val = k.val; omega

/-- The gate weights' block at point `t` is rows `(t / 32)·1024 …` of the gate weights. -/
theorem wgblk1_apply (c : Dev nD) (t : Fin cfg1.N) (q : Fin 1024) (k : Fin 4096) (j : Fin 11264)
    (hj : j.val = t.val / 32 * 1024 + q.val) :
    (iblk1 V c 1 t : Vec Ideal S1024x4096 .bf16) (ix2 q k) = (V c main_v37 : S11264x4096.Idx → EReal) (ix2 j k) := by
  obtain ⟨-, -, e2, e3, -⟩ := idx_facts1 t
  unfold iblk1
  rw [View.read_apply]
  show V c main_v37 _ = V c main_v37 _
  congr 1
  funext a
  apply Fin.ext
  match a with
  | ⟨0, _⟩ => show win1_1.index t (0 : Fin 2) * 1024 + 1 * q.val = j.val; omega
  | ⟨1, _⟩ => show win1_1.index t (1 : Fin 2) * 4096 + 1 * k.val = k.val; omega

/-- The up weights' block at point `t` is rows `(t / 32)·1024 …` of the up weights. -/
theorem wublk1_apply (c : Dev nD) (t : Fin cfg1.N) (q : Fin 1024) (k : Fin 4096) (j : Fin 11264)
    (hj : j.val = t.val / 32 * 1024 + q.val) :
    (iblk1 V c 2 t : Vec Ideal S1024x4096 .bf16) (ix2 q k) = (V c main_v38 : S11264x4096.Idx → EReal) (ix2 j k) := by
  obtain ⟨-, -, -, -, e4, e5, -⟩ := idx_facts1 t
  unfold iblk1
  rw [View.read_apply]
  show V c main_v38 _ = V c main_v38 _
  congr 1
  funext a
  apply Fin.ext
  match a with
  | ⟨0, _⟩ => show win1_2.index t (0 : Fin 2) * 1024 + 1 * q.val = j.val; omega
  | ⟨1, _⟩ => show win1_2.index t (1 : Fin 2) * 4096 + 1 * k.val = k.val; omega

/-! ## The output array -/

/-- The gate of every row of the activations with every row of the two weight matrices, as the region finds them. -/
abbrev gateArr1 (c : Dev nD) : S4096x11264.Idx → EReal := fun i =>
  Cert.Spec.gate (fun k : Fin 4096 => (V c main_v40 : S4096x4096.Idx → EReal) (ix2 (i 0) k))
    (fun (j' : Fin 11264) (k : Fin 4096) => (V c main_v37 : S11264x4096.Idx → EReal) (ix2 j' k))
    (fun (j' : Fin 11264) (k : Fin 4096) => (V c main_v38 : S11264x4096.Idx → EReal) (ix2 j' k)) (i 1)

/-- What point `t` writes back is its block of that array. -/
theorem flushed1_eq (c : Dev nD) (t : Fin cfg1.N) :
    (dat1 (F := Ideal) V c).flushed 3 t = ((cfg1.win 3).blk t).view.read (Elt Ideal) (gateArr1 V c) := by
  show (cfg1.win 3).cut (grid1.coords t) ((dat1 (F := Ideal) V c).after 3 t) = _
  rw [after1_3]
  unfold out1_3
  rw [View.canon_unit_zero hz1]
  simp only [View.ld_unit_zero (S := S128x4096) hz1, View.ld_unit_zero (S := S1024x4096) hz1]
  obtain ⟨-, -, -, -, -, -, e6, e7⟩ := idx_facts1 t
  funext y
  show k1_pay1 (iblk1 V c 0 t) (iblk1 V c 1 t) (iblk1 V c 2 t) y = gateArr1 V c (((cfg1.win 3).blk t).view.emb y)
  refine pay1_eq_gate (iblk1 V c 0 t) (iblk1 V c 1 t) (iblk1 V c 2 t) (V c main_v40) (V c main_v37) (V c main_v38) y (((cfg1.win 3).blk t).view.emb y) (fun k => ?_) (fun k => ?_) (fun k => ?_)
  · refine xblk1_apply V c t (y 0) k _ ?_
    show win1_3.index t (0 : Fin 2) * 128 + 1 * (y 0).val = t.val % 32 * 128 + (y 0).val
    omega
  · refine wgblk1_apply V c t (y 1) k _ ?_
    show win1_3.index t (1 : Fin 2) * 1024 + 1 * (y 1).val = t.val / 32 * 1024 + (y 1).val
    omega
  · refine wublk1_apply V c t (y 1) k _ ?_
    show win1_3.index t (1 : Fin 2) * 1024 + 1 * (y 1).val = t.val / 32 * 1024 + (y 1).val
    omega

/-- An index of the output array is in point `t`'s block iff each coordinate is in the block's range on its axis. -/
theorem mem_oblk1 (t : Fin cfg1.N) (i : S4096x11264.Idx) :
    i ∈ ((cfg1.win 3).blk t).view.set ↔ ∀ a : Fin 2, win1_3.index t a * S128x1024.size a ≤ (i a).val ∧ (i a).val < win1_3.index t a * S128x1024.size a + S128x1024.size a := by
  show i ∈ ((View.whole main_v41).slice (win1_3.rect t)).set ↔ _
  rw [View.set_slice_whole, Rect.mem_set_unit]
  exact Iff.rfl

/-- The output's blocks tile the array: entry `(r, j)` is in the block of the point `(j / 1024)·32 + r / 128`. -/
theorem cover_o1 (i : S4096x11264.Idx) :
    ∃ t : Fin cfg1.N, (cfg1.win 3).flush t = true ∧ i ∈ ((cfg1.win 3).blk t).view.set := by
  have hi0 : (i 0).val < 4096 := (i 0).isLt
  have hi1 : (i 1).val < 11264 := (i 1).isLt
  have hN : cfg1.N = 352 := N_1
  have hlt : (i 1).val / 1024 * 32 + (i 0).val / 128 < cfg1.N := by rw [hN]; omega
  obtain ⟨-, -, -, -, -, -, e6, e7⟩ := idx_facts1 ⟨(i 1).val / 1024 * 32 + (i 0).val / 128, hlt⟩
  refine ⟨⟨(i 1).val / 1024 * 32 + (i 0).val / 128, hlt⟩, flush1_3 _, ?_⟩
  rw [mem_oblk1]
  intro a
  match a with
  | ⟨0, _⟩ =>
    show win1_3.index ⟨(i 1).val / 1024 * 32 + (i 0).val / 128, hlt⟩ (0 : Fin 2) * 128 ≤ (i 0).val ∧ (i 0).val < win1_3.index ⟨(i 1).val / 1024 * 32 + (i 0).val / 128, hlt⟩ (0 : Fin 2) * 128 + 128
    rw [e6]; show ((i 1).val / 1024 * 32 + (i 0).val / 128) % 32 * 128 ≤ (i 0).val ∧ (i 0).val < ((i 1).val / 1024 * 32 + (i 0).val / 128) % 32 * 128 + 128
    omega
  | ⟨1, _⟩ =>
    show win1_3.index ⟨(i 1).val / 1024 * 32 + (i 0).val / 128, hlt⟩ (1 : Fin 2) * 1024 ≤ (i 1).val ∧ (i 1).val < win1_3.index ⟨(i 1).val / 1024 * 32 + (i 0).val / 128, hlt⟩ (1 : Fin 2) * 1024 + 1024
    rw [e7]; show ((i 1).val / 1024 * 32 + (i 0).val / 128) / 32 * 1024 ≤ (i 1).val ∧ (i 1).val < ((i 1).val / 1024 * 32 + (i 0).val / 128) / 32 * 1024 + 1024
    omega

/-- So the output array ends holding the gate everywhere. -/
theorem final1 (c : Dev nD) : (dat1 (F := Ideal) V c).arrAt 3 cfg1.N = gateArr1 V c :=
  (dat1 (F := Ideal) V c).arrAt_eq_of_cover 3 (gateArr1 V c) (fun t _ => flushed1_eq V c t) cover_o1

/-- Row `r`, column `j` of the output array after the region. -/
theorem val1 (V : (c : Dev nD) → (b : Ref sig .tc) → Buf (Elt Ideal) ((c : Thread nD τ).loc b)) (c : Dev nD) (r : Fin 4096) (j : Fin 11264) :
    (dat1 (F := Ideal) V c).arrAt 3 cfg1.N (ValueIdx.ix2 r j)
      = Cert.Spec.gate (fun k : Fin 4096 => V c main_v40 (ValueIdx.ix2 r k)) (fun (j' : Fin 11264) (k : Fin 4096) => V c main_v37 (ValueIdx.ix2 j' k)) (fun (j' : Fin 11264) (k : Fin 4096) => V c main_v38 (ValueIdx.ix2 j' k)) j :=
  congrFun (final1 V c) (ValueIdx.ix2 r j)

end Cert.KernelIdeal.Hand

end
-- ==== Proof.KiVal2.lean ====
/-
  What the third pallas_call leaves in its output array, over the extended reals and for every contents V the region
  is entered with: row r of the 4096 x 11264 output is row r of the input, quantised as a row: its absolute maximum,
  the scale 127 / max(amax, ε), each entry scaled, rounded to the nearest even integer, clamped to [-128, 127] and
  divided by the scale again.

  * the body's arithmetic at an index of its block: the change of float format is the identity on the extended
    reals; the row maximum is the fold of max from -∞ over the row's absolute values; the column of scales, one
    per row, is read at its row whatever the column; the rest is pointwise;
  * the blocks as parts of the arrays: point t of the 32 points reads rows t·128 … of the input and writes the same
    rows of the output, all 11264 columns;
  * those output blocks tile the array: entry (r, k) lies in the block of the point r / 128.
-/
import proofs.«156148_j65773129171180_1_alg».proof.Proof.KiReg2
import proofs.«156148_j65773129171180_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## A column of per-row values -/

/-- An [a] array cast to [a, 1] reads, at (i, u), the operand at i, whatever the unit coordinate u. -/
theorem shapeCast_a_a1_apply2 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p at its one column. -/
theorem broadcastTo_a1_ab_apply2 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an index -/

/-- The reduced index p with k put back on the column axis is (p, k). -/
theorem lift2_ix2 (h : S128x11264.Reduces [1] S128) (p : Fin 128) (k : Fin (S128x11264.size 1)) :
    h.lift (ix1 p) k = ix2 p (⟨k.val, k.isLt⟩ : Fin 11264) := by
  funext c; apply Fin.ext
  fin_cases c <;> rfl

/-- The row maximum of the absolute values, from -∞, is the row's absolute maximum. -/
theorem amax2_apply (x : FVec Ideal S128x11264 .f32) (h : S128x11264.Reduces [1] S128) (hφ : FKind.Formats .f32)
    (hacc : (0xFF800000#32 : BitVec (FTy.bits .f32)) = FKind.maximumf.neutral .f32 hφ) (p : Fin 128) :
    multiReduction .maximumf [1] S128 (absf x) 0xFF800000#32 h hφ hacc (ix1 p)
      = Cert.Spec.amax (fun k : Fin 11264 => x (ix2 p k)) := by
  refine (Ideal.multiReduction_maximumf_single (absf x) 0xFF800000#32 h hφ hacc (ix1 p)).trans ?_
  have hf : (absf x ∘ h.lift (ix1 p)) = fun k : Fin 11264 => max (x (ix2 p k)) (-(x (ix2 p k))) :=
    funext fun k => congrArg (fun i => max (x i) (-(x i))) (lift2_ix2 h p k)
  exact congrArg (fun f => Finset.fold max Cert.Spec.ninf f (Finset.univ : Finset (Fin 11264))) hf

/-- Rounding to the nearest even integer, entry by entry. -/
theorem roundeven_apply2 {s : Shape} {φ : FTy} (a : FVec Ideal s φ) (i : s.Idx) :
    roundeven a i = Ideal.liftRound Ideal.roundHalfEven (a i) := rfl

/-- A row of the block read in the wider float format is the same row: the change of format is the identity. -/
theorem extf_row2 (x0 : Vec Ideal S128x11264 .bf16) (p : Fin 128) :
    (fun k : Fin 11264 => (extf .f32 x0 bitsLt_bf16_f32 : FVec Ideal S128x11264 .f32) (ix2 p k))
      = fun k : Fin 11264 => (x0 (ix2 p k) : EReal) := rfl

/-- The column of scales at row p: 127 / max(the row's absolute maximum, ε). -/
theorem scale2_apply (x0 : Vec Ideal S128x11264 .bf16) (h : S128x11264.Reduces [1] S128) (hφ : FKind.Formats .f32)
    (hacc : (0xFF800000#32 : BitVec (FTy.bits .f32)) = FKind.maximumf.neutral .f32 hφ) (p : Fin 128) (u : Fin 1) :
    (divf (broadcast S128x1 (Scalar.ofBits .f32 0x42FE0000#32))
        (maximumf (shapeCast S128x1 (multiReduction .maximumf [1] S128 (absf (extf .f32 x0 bitsLt_bf16_f32)) 0xFF800000#32 h hφ hacc) shapeCasts_S128_S128x1)
          (broadcast S128x1 (Scalar.ofBits .f32 0x3727C5AC#32))) : FVec Ideal S128x1 .f32) (ix2 p u)
      = Cert.Spec.ascale (fun k : Fin 11264 => x0 (ix2 p k)) := by
  rw [divf_apply, maximumf_apply, broadcast_apply, broadcast_apply, shapeCast_a_a1_apply2, amax2_apply, extf_row2]
  rfl

/-- From the column of row scales on: each entry scaled, rounded to the nearest even integer, clamped to [-128, 127] and
    divided by its row's scale again. -/
theorem quantised2_apply (x0 : Vec Ideal S128x11264 .bf16) (sc : FVec Ideal S128x1 .f32) (p : Fin 128) (q : Fin 11264) :
    truncf .bf16 (divf (minimumf (broadcast S128x11264 (Scalar.ofBits .f32 0x42FE0000#32))
        (maximumf (broadcast S128x11264 (Scalar.ofBits .f32 0xC3000000#32))
          (roundeven (mulf (extf .f32 x0 bitsLt_bf16_f32) (broadcastTo S128x11264 sc broadcasts_S128x1_S128x11264)))))
        (broadcastTo S128x11264 sc broadcasts_S128x1_S128x11264)) bitsLt_bf16_f32 (ix2 p q)
      = Cert.Spec.aq1 (sc (ix2 p (0 : Fin 1))) (x0 (ix2 p q)) := by
  rw [truncf_apply, divf_apply, minimumf_apply, maximumf_apply, roundeven_apply2, mulf_apply, extf_apply, broadcast_apply, broadcast_apply,
    broadcastTo_a1_ab_apply2]
  rfl

/-- The body's stored value at entry (p, q) of its block is row p of the input block, quantised, at column q. -/
theorem pay2_apply (x0 : Vec Ideal S128x11264 .bf16) (p : Fin 128) (q : Fin 11264) :
    k2_pay1 x0 (ix2 p q) = Cert.Spec.aq (fun k' : Fin 11264 => x0 (ix2 p k')) q := by
  unfold k2_pay1
  simp only [shapeCast_self]
  refine (quantised2_apply x0 _ p q).trans ?_
  unfold Cert.Spec.aq
  exact congrArg (Cert.Spec.aq1 · (x0 (ix2 p q))) (scale2_apply x0 _ _ _ p 0)

/-- The same where the block is part of an array: if row y 0 of the block is row i 0 of A and the columns agree, the
    stored value at y is that row of the array, quantised, at column i 1. -/
theorem pay2_eq_aq (x0 : Vec Ideal S128x11264 .bf16) (A : S4096x11264.Idx → EReal) (y : S128x11264.Idx) (i : S4096x11264.Idx)
    (h0 : ∀ k : Fin 11264, x0 (ix2 (y 0) k) = A (ix2 (i 0) k)) (h1 : (i 1).val = (y 1).val) :
    k2_pay1 x0 y = Cert.Spec.aq (fun k : Fin 11264 => A (ix2 (i 0) k)) (i 1) := by
  refine ((congrArg (k2_pay1 x0) (eq_ix2 y)).trans (pay2_apply x0 (y 0) (y 1))).trans ?_
  have e : (y 1 : Fin 11264) = i 1 := Fin.ext h1.symm
  rw [show (fun k' : Fin 11264 => (x0 (ix2 (y 0) k') : EReal)) = fun k => A (ix2 (i 0) k) from funext h0, e]

/-! ## The blocks as parts of the arrays -/

theorem hz2 : (![0, 0] : Fin 2 → Nat) = fun _ => 0 := funext fun a => by fin_cases a <;> rfl

variable (V : (c : Dev nD) → (b : Ref sig .tc) → Buf (Elt Ideal) ((c : Thread nD τ).loc b))

/-- The printed index maps, decided over the grid: point t reads and writes the block at row tile t, column 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The input block at point t is rows t·128 … of the input. -/
theorem xblk2_apply (c : Dev nD) (t : Fin cfg2.N) (p : Fin 128) (k : Fin 11264) (r : Fin 4096)
    (hr : r.val = t.val * 128 + p.val) :
    (iblk2 V c 0 t : Vec Ideal S128x11264 .bf16) (ix2 p k) = (V c main_v41 : S4096x11264.Idx → EReal) (ix2 r k) := by
  obtain ⟨e0, e1, -⟩ := idx_facts2 t
  unfold iblk2
  rw [View.read_apply]
  show V c main_v41 _ = V c main_v41 _
  congr 1
  funext a
  apply Fin.ext
  match a with
  | ⟨0, _⟩ => show win2_0.index t (0 : Fin 2) * 128 + 1 * p.val = r.val; omega
  | ⟨1, _⟩ => show win2_0.index t (1 : Fin 2) * 11264 + 1 * k.val = k.val; omega

/-! ## The output array -/

/-- Every row of the input, as the region finds it, quantised as a row. -/
abbrev aqArr2 (c : Dev nD) : S4096x11264.Idx → EReal := fun i =>
  Cert.Spec.aq (fun k' : Fin 11264 => (V c main_v41 : S4096x11264.Idx → EReal) (ix2 (i 0) k')) (i 1)

/-- What point t writes back is its block of that array. -/
theorem flushed2_eq (c : Dev nD) (t : Fin cfg2.N) :
    (dat2 (F := Ideal) V c).flushed 1 t = ((cfg2.win 1).blk t).view.read (Elt Ideal) (aqArr2 V c) := by
  show (cfg2.win 1).cut (grid2.coords t) ((dat2 (F := Ideal) V c).after 1 t) = _
  rw [after2_1]
  unfold out2_1
  rw [View.canon_unit_zero hz2]
  simp only [View.ld_unit_zero (S := S128x11264) hz2]
  obtain ⟨-, -, e2, e3⟩ := idx_facts2 t
  funext y
  show k2_pay1 (iblk2 V c 0 t) y = aqArr2 V c (((cfg2.win 1).blk t).view.emb y)
  refine pay2_eq_aq (iblk2 V c 0 t) (V c main_v41) y (((cfg2.win 1).blk t).view.emb y) (fun k => ?_) ?_
  · refine xblk2_apply V c t (y 0) k _ ?_
    show win2_1.index t (0 : Fin 2) * 128 + 1 * (y 0).val = t.val * 128 + (y 0).val
    omega
  · show win2_1.index t (1 : Fin 2) * 11264 + 1 * (y 1).val = (y 1).val
    omega

/-- An index of the output array is in point t's block iff each coordinate is in the block's range on its axis. -/
theorem mem_oblk2 (t : Fin cfg2.N) (i : S4096x11264.Idx) :
    i ∈ ((cfg2.win 1).blk t).view.set ↔ ∀ a : Fin 2, win2_1.index t a * S128x11264.size a ≤ (i a).val ∧ (i a).val < win2_1.index t a * S128x11264.size a + S128x11264.size a := by
  show i ∈ ((View.whole main_v42).slice (win2_1.rect t)).set ↔ _
  rw [View.set_slice_whole, Rect.mem_set_unit]
  exact Iff.rfl

/-- The output's blocks tile the array: entry (r, k) is in the block of the point r / 128. -/
theorem cover_o2 (i : S4096x11264.Idx) :
    ∃ t : Fin cfg2.N, (cfg2.win 1).flush t = true ∧ i ∈ ((cfg2.win 1).blk t).view.set := by
  have hi0 : (i 0).val < 4096 := (i 0).isLt
  have hi1 : (i 1).val < 11264 := (i 1).isLt
  have hN : cfg2.N = 32 := N_2
  have hlt : (i 0).val / 128 < cfg2.N := by rw [hN]; omega
  obtain ⟨-, -, e2, e3⟩ := idx_facts2 ⟨(i 0).val / 128, hlt⟩
  refine ⟨⟨(i 0).val / 128, hlt⟩, flush2_1 _, ?_⟩
  rw [mem_oblk2]
  intro a
  match a with
  | ⟨0, _⟩ =>
    show win2_1.index ⟨(i 0).val / 128, hlt⟩ (0 : Fin 2) * 128 ≤ (i 0).val ∧ (i 0).val < win2_1.index ⟨(i 0).val / 128, hlt⟩ (0 : Fin 2) * 128 + 128
    rw [e2]; show (i 0).val / 128 * 128 ≤ (i 0).val ∧ (i 0).val < (i 0).val / 128 * 128 + 128
    omega
  | ⟨1, _⟩ =>
    show win2_1.index ⟨(i 0).val / 128, hlt⟩ (1 : Fin 2) * 11264 ≤ (i 1).val ∧ (i 1).val < win2_1.index ⟨(i 0).val / 128, hlt⟩ (1 : Fin 2) * 11264 + 11264
    rw [e3]
    omega

/-- So the output array ends holding the quantised rows everywhere. -/
theorem final2 (c : Dev nD) : (dat2 (F := Ideal) V c).arrAt 1 cfg2.N = aqArr2 V c :=
  (dat2 (F := Ideal) V c).arrAt_eq_of_cover 1 (aqArr2 V c) (fun t _ => flushed2_eq V c t) cover_o2

/-- Row r, column k of the output array after the region. -/
theorem val2 (V : (c : Dev nD) → (b : Ref sig .tc) → Buf (Elt Ideal) ((c : Thread nD τ).loc b)) (c : Dev nD) (r : Fin 4096) (k : Fin 11264) :
    (dat2 (F := Ideal) V c).arrAt 1 cfg2.N (ValueIdx.ix2 r k) = Cert.Spec.aq (fun k' : Fin 11264 => V c main_v41 (ValueIdx.ix2 r k')) k :=
  congrFun (final2 V c) (ValueIdx.ix2 r k)

end Cert.KernelIdeal.Hand

end
-- ==== Proof.KiPay3.lean ====
/-
  The payloads of the fourth kernel read at an index, at the ideal values.

  The first payload is the zero word broadcast over the 1024 x 1024 block.  The second adds to the block s the
  product of the two 1024 x 256 operands contracted over the LAST axis of both:
    out (p, q) = s (p, q) + Σ_k a (p, k) · b (q, k).
  The contraction index of the product, a rank-one index, is re-indexed through its one coordinate k : Fin 256;
  the operand indices at output index (p, q) and contraction coordinate k are then (p, k) and (q, k), axis by axis.
-/
import proofs.«156148_j65773129171180_1_alg».proof.Proof.Gen.KernelIdeal.Skeleton
import proofs.«156148_j65773129171180_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The first payload: the zero word at every index. -/
theorem pay3_1_apply (p q : Fin 1024) : k3_pay1 (F := Ideal) (ix2 p q) = Cert.Spec.zero := by
  unfold k3_pay1
  rw [shapeCast_self]
  rfl

/-! The operand indices of the product, axis by axis: the left operand's axis 0 is the output's axis 0, the right
    operand's axis 0 is the output's axis 1, and axis 1 of both is the contraction coordinate. -/

theorem lhs_pay3_0 (i : S1024x1024.Idx) (c : dot_S1024x256_S1024x256_S1024x1024_1_1_0_0_n_n.contr.Idx) :
    (dot_S1024x256_S1024x256_S1024x1024_1_1_0_0_n_n.lhsIdx i c 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_pay3_1 (i : S1024x1024.Idx) (c : dot_S1024x256_S1024x256_S1024x1024_1_1_0_0_n_n.contr.Idx) :
    (dot_S1024x256_S1024x256_S1024x1024_1_1_0_0_n_n.lhsIdx i c 1).val = (c ⟨0, by decide⟩).val :=
  dot_S1024x256_S1024x256_S1024x1024_1_1_0_0_n_n.lhsIdx_val_of_single rfl i c
theorem rhs_pay3_0 (i : S1024x1024.Idx) (c : dot_S1024x256_S1024x256_S1024x1024_1_1_0_0_n_n.contr.Idx) :
    (dot_S1024x256_S1024x256_S1024x1024_1_1_0_0_n_n.rhsIdx i c 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_pay3_1 (i : S1024x1024.Idx) (c : dot_S1024x256_S1024x256_S1024x1024_1_1_0_0_n_n.contr.Idx) :
    (dot_S1024x256_S1024x256_S1024x1024_1_1_0_0_n_n.rhsIdx i c 1).val = (c ⟨0, by decide⟩).val :=
  dot_S1024x256_S1024x256_S1024x1024_1_1_0_0_n_n.rhsIdx_val_of_single rfl i c

/-- The second payload: the block plus the product of the operands over their last axes. -/
theorem pay3_2_apply (a b : Vec Ideal S1024x256 .bf16) (s : Vec Ideal S1024x1024 .f32) (p q : Fin 1024) :
    k3_pay2 a b s (ix2 p q) = s (ix2 p q) + ∑ k : Fin 256, a (ix2 p k) * b (ix2 q k) := by
  unfold k3_pay2
  rw [shapeCast_self, shapeCast_self, shapeCast_self, addf_apply]
  simp only [matmul]
  rw [Ideal.matmul_constant_zero_apply, ← Equiv.sum_comp (contrEquiv1 dot_S1024x256_S1024x256_S1024x1024_1_1_0_0_n_n 256 rfl rfl).symm]
  refine congrArg (s (ix2 p q) + ·) (Finset.sum_congr rfl fun k _ => ?_)
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun c => Fin.ext (by
    match c with
    | ⟨0, _⟩ => exact lhs_pay3_0 _ _
    | ⟨1, _⟩ => exact (lhs_pay3_1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun c => Fin.ext (by
    match c with
    | ⟨0, _⟩ => exact rhs_pay3_0 _ _
    | ⟨1, _⟩ => exact (rhs_pay3_1 _ _).trans hk)
  rw [el, er]

end Cert.KernelIdeal.Hand

end
-- ==== Proof.SpecLaws.lean ====
/-
  Laws relating the padded, blocked arrangement of the gated MLP to the plain one, over the extended reals.

  The extended reals are a commutative monoid under addition and a commutative monoid with zero under
  multiplication (x * 0 = 0 for every x, the infinities included), so finite sums may be regrouped freely and
  a term with a zero factor vanishes.  No finiteness hypothesis is used anywhere.

  * sum_pad, amax_pad: a sum, and an absolute maximum, over an index set padded by zero entries is the sum,
    the absolute maximum, over the unpadded set;
  * sum_blocks, accum_eq: a sum over B * K indices is the sum of its B blocks of K, and an accumulator
    started at zero that adds one block per step holds the sum of the blocks added so far;
  * gate_pad_zero, outRow_pad: a hidden unit with zero weight rows has gate value zero, and padding the hidden
    axis by such units (and by zero columns of the last weight) does not change a token's output.
-/
import proofs.«156148_j65773129171180_1_alg».proof.Proof.Spec
import Mathlib.Algebra.BigOperators.Fin
import Mathlib.Data.Fintype.BigOperators
import Mathlib.Data.Finset.Fold
import Mathlib.Logic.Equiv.Fin.Basic
import Mathlib.Data.EReal.Operations

noncomputable section

namespace Cert.Spec

open Idealize.ShloMosaic

/-- The zero word denotes the extended real zero. -/
theorem zero_eq : zero = 0 := Ideal.ofBits_zero_f32

/-- A sum over a padded index set whose padding terms vanish is the sum over the unpadded set:
    split the C + M indices into the first C and the last M; the last M terms are all zero. -/
theorem sum_pad {C N : Nat} (hCN : C ≤ N) (f : Fin N → EReal) (hz : ∀ k : Fin N, C ≤ k.val → f k = 0) :
    ∑ k, f k = ∑ k : Fin C, f ⟨k.val, lt_of_lt_of_le k.isLt hCN⟩ := by
  obtain ⟨M, rfl⟩ := Nat.exists_eq_add_of_le hCN
  have h2 : ∑ i : Fin M, f (Fin.natAdd C i) = 0 :=
    Finset.sum_eq_zero (fun i _ => hz _ (by simp))
  rw [Fin.sum_univ_add, h2, add_zero]
  rfl

/-- The absolute value max v (-v) of an extended real is non-negative. -/
theorem max_neg_self_nonneg (v : EReal) : 0 ≤ max v (-v) := by
  rcases le_total 0 v with h | h
  · exact le_max_of_le_left h
  · exact le_max_of_le_right (EReal.neg_nonneg.mpr h)

/-- The absolute maximum of a padded row whose padding entries vanish is that of the unpadded row:
    |0| = 0 lies below the absolute value of any entry of the non-empty unpadded row, so the padding adds
    nothing to the fold of max; every unpadded entry occurs on both sides. -/
theorem amax_pad {C N : Nat} (hCN : C ≤ N) (hC : 0 < C) (row : Fin N → EReal) (hz : ∀ k : Fin N, C ≤ k.val → row k = 0) :
    amax row = amax (fun k : Fin C => row ⟨k.val, lt_of_lt_of_le k.isLt hCN⟩) := by
  unfold amax
  apply le_antisymm
  · rw [Finset.fold_max_le]
    refine ⟨(Finset.le_fold_max _).2 (Or.inl le_rfl), fun k _ => ?_⟩
    rw [Finset.le_fold_max]
    right
    by_cases hk : k.val < C
    · exact ⟨⟨k.val, hk⟩, Finset.mem_univ _, le_rfl⟩
    · refine ⟨⟨0, hC⟩, Finset.mem_univ _, ?_⟩
      rw [hz k (not_lt.mp hk), neg_zero, max_self]
      exact max_neg_self_nonneg _
  · rw [Finset.fold_max_le]
    refine ⟨(Finset.le_fold_max _).2 (Or.inl le_rfl), fun k _ => ?_⟩
    rw [Finset.le_fold_max]
    exact Or.inr ⟨⟨k.val, lt_of_lt_of_le k.isLt hCN⟩, Finset.mem_univ _, le_rfl⟩

/-- A sum over N = B * K indices is the sum over B blocks of the K indices b * K + k of each block. -/
theorem sum_blocks {B K N : Nat} (h : B * K = N) (f : Fin N → EReal) :
    ∑ b : Fin B, ∑ k : Fin K, f ⟨b.val * K + k.val, by have := b.isLt; have := k.isLt; subst h; nlinarith [Nat.mul_le_mul_right K (Nat.succ_le_of_lt b.isLt)]⟩ = ∑ j, f j := by
  subst h
  rw [← finProdFinEquiv.sum_comp f, Fintype.sum_prod_type]
  refine Finset.sum_congr rfl (fun b _ => Finset.sum_congr rfl (fun k _ => ?_))
  congr 1
  ext
  simp only [finProdFinEquiv_apply_val]
  ring

/-- The accumulator after block k: started at Spec.zero, one block added per step. -/
def accum (f : Nat → EReal) : Nat → EReal
  | 0 => zero + f 0
  | k + 1 => accum f k + f (k + 1)

/-- The accumulator after block k is the sum of the blocks 0, ..., k. -/
theorem accum_eq (f : Nat → EReal) (k : Nat) : accum f k = ∑ i ∈ Finset.range (k + 1), f i := by
  induction k with
  | zero => simp [accum, zero_eq]
  | succ k ih => rw [accum, ih, ← Finset.sum_range_succ]

/-- A hidden unit whose gate and up weight rows are zero has gate value zero:
    the up projection is a sum of products with zero, and anything times zero is zero. -/
theorem gate_pad_zero {H I : Nat} (xq : Fin H → EReal) (wg wu : Fin I → Fin H → EReal) (j : Fin I)
    (hg : ∀ k, wg j k = 0) (hu : ∀ k, wu j k = 0) : gate xq wg wu j = 0 := by
  simp [gate, hg, hu]

/-- Padding the hidden axis from C to N by zero weight rows and columns does not change a token's output. -/
theorem outRow_pad {H C N O : Nat} (hCN : C ≤ N) (hC : 0 < C) (x : Fin H → EReal)
    (wg wu : Fin C → Fin H → EReal) (wd : Fin O → Fin C → EReal)
    (wgp wup : Fin N → Fin H → EReal) (wdp : Fin O → Fin N → EReal)
    (hg : ∀ (j : Fin N) (k : Fin H), wgp j k = if h : j.val < C then wg ⟨j.val, h⟩ k else 0)
    (hu : ∀ (j : Fin N) (k : Fin H), wup j k = if h : j.val < C then wu ⟨j.val, h⟩ k else 0)
    (hd : ∀ (n : Fin O) (j : Fin N), wdp n j = if h : j.val < C then wd n ⟨j.val, h⟩ else 0)
    (n : Fin O) : outRow x wgp wup wdp n = outRow x wg wu wd n := by
  -- the padded gate row: zero beyond C, the unpadded gate below C
  have hhi : ∀ j : Fin N, C ≤ j.val → gate (aq x) wgp wup j = 0 := fun j hj =>
    gate_pad_zero _ _ _ _ (fun k => by rw [hg, dif_neg (not_lt.mpr hj)]) (fun k => by rw [hu, dif_neg (not_lt.mpr hj)])
  have hlo : ∀ k : Fin C, gate (aq x) wgp wup ⟨k.val, lt_of_lt_of_le k.isLt hCN⟩ = gate (aq x) wg wu k := fun k => by
    simp only [gate, hg, hu, dif_pos k.isLt]
  -- hence the same absolute maximum and the same scale
  have hs : ascale (gate (aq x) wgp wup) = ascale (gate (aq x) wg wu) := by
    unfold ascale
    rw [amax_pad hCN hC _ hhi, funext hlo]
  unfold outRow
  rw [sum_pad hCN _ (fun j hj => by rw [hd, dif_neg (not_lt.mpr hj), mul_zero])]
  refine Finset.sum_congr rfl (fun k _ => ?_)
  have haq : aq (gate (aq x) wgp wup) ⟨k.val, lt_of_lt_of_le k.isLt hCN⟩ = aq (gate (aq x) wg wu) k := by
    show aq1 _ _ = aq1 _ _
    rw [hs, hlo k]
  rw [hd, dif_pos k.isLt, haq]

end Cert.Spec

end
-- ==== Proof.SpecDot.lean ====
/-
  The inner product of two rows of extended reals: what one entry of the down projection is, of the
  quantised hidden row and one row of the down weights.
-/
import proofs.«156148_j65773129171180_1_alg».proof.Proof.Spec

noncomputable section

namespace Cert.Spec

/-- `Σ_j a j · w j`. -/
def dot {I : Nat} (a w : Fin I → EReal) : EReal := ∑ j, a j * w j

/-- The output row is the inner product of the quantised gate row with the down weights' row. -/
theorem outRow_eq_dot {H I O : Nat} (x : Fin H → EReal) (wg wu : Fin I → Fin H → EReal) (wd : Fin O → Fin I → EReal) (n : Fin O) :
    outRow x wg wu wd n = dot (aq (gate (aq x) wg wu)) (wd n) := rfl

end Cert.Spec

end
-- ==== Proof.KiAcc3.lean ====
/-
  The value of the down projection's accumulator, over the extended reals and for every contents `V` the
  region is entered with.

  Point t of the 4 × 4 × 44 grid has coordinates (t / 176, (t / 44) % 4, t % 44).  At k-step i = t % 44 the body
  reads columns i·256 … of row block t / 176 of the left array and of row block (t / 44) % 4 of the right array,
  and adds to entry (p, q) of the accumulator the inner product of those 256 columns of row (t / 176)·1024 + p of
  the left array with those of row ((t / 44) % 4)·1024 + q of the right array.  Started at zero at i = 0, the
  accumulator after k-step i therefore holds the sum of the first i + 1 such inner products; after the last, i = 43,
  the 44 blocks of 256 columns make up all 11264 columns, so the entry is the inner product of the two whole rows,
  and that is what the body copies into the output block there.
-/
import proofs.«156148_j65773129171180_1_alg».proof.Proof.KiReg3
import proofs.«156148_j65773129171180_1_alg».proof.Proof.KiPay3
import proofs.«156148_j65773129171180_1_alg».proof.Proof.SpecLaws
import proofs.«156148_j65773129171180_1_alg».proof.Proof.SpecDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## Rows cut into 44 blocks of 256 columns -/

/-- The contribution of k-step `i` to the inner product of two rows of 11264 entries: the inner product of their
    `i`-th blocks of 256 columns (nothing beyond the 44 blocks). -/
def acc3_blk (a w : Fin 11264 → EReal) (i : ℕ) : EReal :=
  if h : i < 44 then ∑ k : Fin 256, a ⟨i * 256 + k.val, by have := k.isLt; omega⟩ * w ⟨i * 256 + k.val, by have := k.isLt; omega⟩ else 0

/-- The accumulator after the last k-step holds the inner product of the whole rows: the 44 blocks of 256 columns are
    all 11264 columns. -/
theorem acc3_accum_last (a w : Fin 11264 → EReal) : Cert.Spec.accum (acc3_blk a w) 43 = Cert.Spec.dot a w := by
  rw [Cert.Spec.accum_eq]
  show ∑ i ∈ Finset.range 44, acc3_blk a w i = _
  rw [Finset.sum_range]
  unfold Cert.Spec.dot
  rw [← Cert.Spec.sum_blocks (B := 44) (K := 256) (N := 11264) rfl (fun j => a j * w j)]
  refine Finset.sum_congr rfl fun b _ => ?_
  unfold acc3_blk
  rw [dif_pos b.isLt]

/-! ## The blocks as parts of the arrays -/

variable (V : (c : Dev nD) → (b : Ref sig .tc) → Buf (Elt Ideal) ((c : Thread nD τ).loc b))

/-- The two operands' blocks at point `t`, at their literal type. -/
abbrev acc3_a (c : Dev nD) (t : Fin cfg3.N) : Vec Ideal S1024x256 .bf16 := iblk3 V c 0 t
abbrev acc3_b (c : Dev nD) (t : Fin cfg3.N) : Vec Ideal S1024x256 .bf16 := iblk3 V c 1 t
/-- Row `r` of the left array and row `s` of the right array, as the region finds them. -/
abbrev acc3_row42 (c : Dev nD) (r : Fin 4096) : Fin 11264 → EReal := fun j => (V c main_v42 : S4096x11264.Idx → EReal) (ix2 r j)
abbrev acc3_row39 (c : Dev nD) (s : Fin 4096) : Fin 11264 → EReal := fun j => (V c main_v39 : S4096x11264.Idx → EReal) (ix2 s j)

/-- The printed index maps, decided over the grid: the left operand's block is (t / 176, t % 44), the right
    operand's ((t / 44) % 4, t % 44). -/
theorem acc3_idx_facts : ∀ t : Fin cfg3.N,
    win3_0.index t (0 : Fin 2) = t.val / 176 ∧ win3_0.index t (1 : Fin 2) = t.val % 44
    ∧ win3_1.index t (0 : Fin 2) = t.val / 44 % 4 ∧ win3_1.index t (1 : Fin 2) = t.val % 44 :=
  (by decide +kernel : ∀ t : Fin grid3.N, _)

/-- Entry (p, k) of the left operand's block at point `t` is entry ((t / 176)·1024 + p, (t % 44)·256 + k) of the left array. -/
theorem acc3_ablk (c : Dev nD) (t : Fin cfg3.N) (p : Fin 1024) (k : Fin 256) (r : Fin 4096) (j : Fin 11264)
    (hr : r.val = t.val / 176 * 1024 + p.val) (hj : j.val = t.val % 44 * 256 + k.val) :
    acc3_a V c t (ix2 p k) = acc3_row42 V c r j := by
  obtain ⟨e0, e1, -⟩ := acc3_idx_facts t
  unfold acc3_a acc3_row42 iblk3
  rw [View.read_apply]
  show V c main_v42 _ = V c main_v42 _
  congr 1
  funext a
  apply Fin.ext
  match a with
  | ⟨0, _⟩ => show win3_0.index t (0 : Fin 2) * 1024 + 1 * p.val = r.val; omega
  | ⟨1, _⟩ => show win3_0.index t (1 : Fin 2) * 256 + 1 * k.val = j.val; omega

/-- Entry (q, k) of the right operand's block at point `t` is entry (((t / 44) % 4)·1024 + q, (t % 44)·256 + k) of the right array. -/
theorem acc3_bblk (c : Dev nD) (t : Fin cfg3.N) (q : Fin 1024) (k : Fin 256) (s : Fin 4096) (j : Fin 11264)
    (hs : s.val = t.val / 44 % 4 * 1024 + q.val) (hj : j.val = t.val % 44 * 256 + k.val) :
    acc3_b V c t (ix2 q k) = acc3_row39 V c s j := by
  obtain ⟨-, -, e2, e3⟩ := acc3_idx_facts t
  unfold acc3_b acc3_row39 iblk3
  rw [View.read_apply]
  show V c main_v39 _ = V c main_v39 _
  congr 1
  funext a
  apply Fin.ext
  match a with
  | ⟨0, _⟩ => show win3_1.index t (0 : Fin 2) * 1024 + 1 * q.val = s.val; omega
  | ⟨1, _⟩ => show win3_1.index t (1 : Fin 2) * 256 + 1 * k.val = j.val; omega

/-- The product of the two blocks at point `t`, at entry (p, q): the contribution of k-step t % 44 to the inner
    product of the two rows. -/
theorem acc3_prod (c : Dev nD) (t : Fin cfg3.N) (p q : Fin 1024) (r s : Fin 4096)
    (hr : r.val = t.val / 176 * 1024 + p.val) (hs : s.val = t.val / 44 % 4 * 1024 + q.val) :
    ∑ k : Fin 256, acc3_a V c t (ix2 p k) * acc3_b V c t (ix2 q k) = acc3_blk (acc3_row42 V c r) (acc3_row39 V c s) (t.val % 44) := by
  unfold acc3_blk
  rw [dif_pos (Nat.mod_lt _ (by decide) : t.val % 44 < 44)]
  refine Finset.sum_congr rfl fun k _ => ?_
  exact congrArg₂ (· * ·) (acc3_ablk V c t p k r ⟨t.val % 44 * 256 + k.val, by have := k.isLt; have := Nat.mod_lt t.val (show 0 < 44 by decide); omega⟩ hr rfl)
    (acc3_bblk V c t q k s ⟨t.val % 44 * 256 + k.val, by have := k.isLt; have := Nat.mod_lt t.val (show 0 < 44 by decide); omega⟩ hs rfl)

/-! ## One k-step of the accumulator at an entry -/

/-- A first k-step: zero plus the first contribution. -/
theorem acc3_first (c : Dev nD) (t : Fin cfg3.N) (p q : Fin 1024) (r s : Fin 4096)
    (hr : r.val = t.val / 176 * 1024 + p.val) (hs : s.val = t.val / 44 % 4 * 1024 + q.val) (h0 : t.val % 44 = 0) :
    k3_pay2 (acc3_a V c t) (acc3_b V c t) (k3_pay1 (F := Ideal)) (ix2 p q)
      = Cert.Spec.accum (acc3_blk (acc3_row42 V c r) (acc3_row39 V c s)) 0 := by
  refine (pay3_2_apply (acc3_a V c t) (acc3_b V c t) (k3_pay1 (F := Ideal)) p q).trans ?_
  rw [pay3_1_apply p q, acc3_prod V c t p q r s hr hs, h0]
  rfl

/-- A later k-step: what the accumulator held plus the next contribution. -/
theorem acc3_next (c : Dev nD) (t : Fin cfg3.N) (p q : Fin 1024) (r s : Fin 4096)
    (hr : r.val = t.val / 176 * 1024 + p.val) (hs : s.val = t.val / 44 % 4 * 1024 + q.val)
    (xs : Vec Ideal S1024x1024 .f32) (j : ℕ) (hj : t.val % 44 = j + 1)
    (hx : xs (ix2 p q) = Cert.Spec.accum (acc3_blk (acc3_row42 V c r) (acc3_row39 V c s)) j) :
    k3_pay2 (acc3_a V c t) (acc3_b V c t) xs (ix2 p q)
      = Cert.Spec.accum (acc3_blk (acc3_row42 V c r) (acc3_row39 V c s)) (j + 1) := by
  refine (pay3_2_apply (acc3_a V c t) (acc3_b V c t) xs p q).trans ?_
  rw [hx, acc3_prod V c t p q r s hr hs, hj]
  rfl

/-! ## The accumulator and the output block, point by point -/

/-- After a first k-step the accumulator holds the product of the two blocks added to zero. -/
theorem acc3_scratch_first (c : Dev nD) (t : Fin cfg3.N) (h0 : t.val % 44 = 0) :
    (outsAt3 (F := Ideal) V c t.val t.isLt).2 = k3_pay2 (acc3_a V c t) (acc3_b V c t) (k3_pay1 (F := Ideal)) := by
  have h1 : ¬t.val % 44 = 43 := by omega
  rw [outsAt3_A V c t h0 h1]; dsimp only
  exact sout3_A_eq (F := Ideal) c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)

/-- After a later k-step it holds the product of the two blocks added to what the point before left. -/
theorem acc3_scratch_next (c : Dev nD) (t : Fin cfg3.N) (h0 : ¬t.val % 44 = 0) :
    (outsAt3 (F := Ideal) V c t.val t.isLt).2 = k3_pay2 (acc3_a V c t) (acc3_b V c t) (outsAt3 (F := Ideal) V c (t.val - 1) (Nat.lt_of_le_of_lt (Nat.sub_le _ _) t.isLt)).2 := by
  by_cases h1 : t.val % 44 = 43
  · rw [outsAt3_C V c t h0 h1]; dsimp only
    exact sout3_C_eq (F := Ideal) c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 (F := Ideal) V c (t.val - 1) (Nat.lt_of_le_of_lt (Nat.sub_le _ _) t.isLt)).2
  · rw [outsAt3_B V c t h0 h1]; dsimp only
    exact sout3_B_eq (F := Ideal) c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 (F := Ideal) V c (t.val - 1) (Nat.lt_of_le_of_lt (Nat.sub_le _ _) t.isLt)).2

/-- At a last k-step the output block receives the same value. -/
theorem acc3_out_last (c : Dev nD) (t : Fin cfg3.N) (h1 : t.val % 44 = 43) :
    (outsAt3 (F := Ideal) V c t.val t.isLt).1 = k3_pay2 (acc3_a V c t) (acc3_b V c t) (outsAt3 (F := Ideal) V c (t.val - 1) (Nat.lt_of_le_of_lt (Nat.sub_le _ _) t.isLt)).2 := by
  have h0 : ¬t.val % 44 = 0 := by omega
  rw [outsAt3_C V c t h0 h1]; dsimp only
  exact out3_C_eq (F := Ideal) c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 (F := Ideal) V c (t.val - 1) (Nat.lt_of_le_of_lt (Nat.sub_le _ _) t.isLt)).2

/-- THE INVARIANT.  After the point at position `n`, entry (p, q) of the accumulator is the sum of the first
    n % 44 + 1 contributions to the inner product of row (n / 176)·1024 + p of the left array with row
    ((n / 44) % 4)·1024 + q of the right array: by induction on the position, a first k-step starting from zero and a
    later one (same row blocks, next column block) from what the point before left. -/
theorem acc3_inv (c : Dev nD) : ∀ (n : ℕ) (hn : n < cfg3.N) (p q : Fin 1024) (r s : Fin 4096),
    r.val = n / 176 * 1024 + p.val → s.val = n / 44 % 4 * 1024 + q.val →
    (outsAt3 (F := Ideal) V c n hn).2 (ix2 p q) = Cert.Spec.accum (acc3_blk (acc3_row42 V c r) (acc3_row39 V c s)) (n % 44) := by
  intro n
  induction n using Nat.strong_induction_on with
  | _ n ih =>
    intro hn p q r s hr hs
    have hN : n < 704 := lt_of_lt_of_eq hn (show cfg3.N = 704 from N_3)
    by_cases h0 : n % 44 = 0
    · refine (congrFun (acc3_scratch_first V c ⟨n, hn⟩ h0) (ix2 p q)).trans ?_
      rw [h0]
      exact acc3_first V c ⟨n, hn⟩ p q r s hr hs h0
    · obtain ⟨j, hj⟩ : ∃ j, n % 44 = j + 1 := ⟨n % 44 - 1, by omega⟩
      refine (congrFun (acc3_scratch_next V c ⟨n, hn⟩ h0) (ix2 p q)).trans ?_
      rw [hj]
      refine acc3_next V c ⟨n, hn⟩ p q r s hr hs _ j hj ?_
      have e := ih (n - 1) (by omega) (Nat.lt_of_le_of_lt (Nat.sub_le _ _) hn) p q r s (by omega) (by omega)
      rw [show (n - 1) % 44 = j by omega] at e
      exact e

/-! ## The output block at a last k-step -/

/-- At a last k-step, entry (p, q) of the output block is the inner product of row (t / 176)·1024 + p of the left
    array with row ((t / 44) % 4)·1024 + q of the right array. -/
theorem out3_last (V : (c : Dev nD) → (b : Ref sig .tc) → Buf (Elt Ideal) ((c : Thread nD τ).loc b)) (c : Dev nD) (t : Fin cfg3.N) (ht : t.val % 44 = 43) (p q : Fin 1024) :
    (outsAt3 (F := Ideal) V c t.val t.isLt).1 (ValueIdx.ix2 p q)
      = Cert.Spec.dot (fun j : Fin 11264 => V c main_v42 (ValueIdx.ix2 ⟨(t.val / 176) * 1024 + p.val, by have := t.isLt; have := p.isLt; have hN : cfg3.N = 704 := N_3; omega⟩ j))
          (fun j : Fin 11264 => V c main_v39 (ValueIdx.ix2 ⟨((t.val / 44) % 4) * 1024 + q.val, by have := q.isLt; omega⟩ j)) := by
  have hN : t.val < 704 := lt_of_lt_of_eq t.isLt (show cfg3.N = 704 from N_3)
  have hr4 : t.val / 176 * 1024 + p.val < 4096 := by have := p.isLt; omega
  have hs4 : t.val / 44 % 4 * 1024 + q.val < 4096 := by have := q.isLt; omega
  refine (congrFun (acc3_out_last V c t ht) (ix2 p q)).trans ?_
  refine (acc3_next V c t p q ⟨t.val / 176 * 1024 + p.val, hr4⟩ ⟨t.val / 44 % 4 * 1024 + q.val, hs4⟩ rfl rfl _ 42 (by omega) ?_).trans ?_
  · have e := acc3_inv V c (t.val - 1) (Nat.lt_of_le_of_lt (Nat.sub_le _ _) t.isLt) p q ⟨t.val / 176 * 1024 + p.val, hr4⟩ ⟨t.val / 44 % 4 * 1024 + q.val, hs4⟩
      (by show t.val / 176 * 1024 + p.val = (t.val - 1) / 176 * 1024 + p.val; omega) (by show t.val / 44 % 4 * 1024 + q.val = (t.val - 1) / 44 % 4 * 1024 + q.val; omega)
    rw [show (t.val - 1) % 44 = 42 by omega] at e
    exact e
  · exact acc3_accum_last _ _

end Cert.KernelIdeal.Hand

end
-- ==== Proof.KiVal3.lean ====
/-
  What the fourth pallas_call leaves in its output array, over the extended reals and for every contents `V` the
  region is entered with: row `r`, column `n` of the 4096 × 4096 output is `Σ_j a r j · w n j`, the product of row `r`
  of the quantised gate activations with row `n` of the down weights, summed over all 11264 hidden units.

  The grid is 4 × 4 × 44: point `t` has row tile `t / 176`, column tile `(t / 44) % 4` and k-step `t % 44`.  The output's
  1024 × 1024 block at (row tile, column tile) is written back only at the last k-step, where it holds the whole
  sum for its rows and columns; those sixteen blocks tile the array: entry `(r, n)` lies in the block written
  at the point `((r / 1024)·4 + n / 1024)·44 + 43`.
-/
import proofs.«156148_j65773129171180_1_alg».proof.Proof.KiAcc3
import proofs.«156148_j65773129171180_1_alg».proof.Proof.SpecDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The output array -/

/-- The product of every row of the gate activations with every row of the down weights, as the region finds them. -/
abbrev v3_G (c : Dev nD) : S4096x4096.Idx → EReal := fun i =>
  Cert.Spec.dot (fun j : Fin 11264 => (V c main_v42 : S4096x11264.Idx → EReal) (ix2 (i 0) j)) (fun j : Fin 11264 => (V c main_v39 : S4096x11264.Idx → EReal) (ix2 (i 1) j))

/-- The sum depends on the row and the column only through their values. -/
theorem v3_sum_congr (A B : S4096x11264.Idx → EReal) (r r' n n' : Fin 4096) (hr : r.val = r'.val) (hn : n.val = n'.val) :
    Cert.Spec.dot (fun j : Fin 11264 => A (ix2 r j)) (fun j : Fin 11264 => B (ix2 n j)) = Cert.Spec.dot (fun j : Fin 11264 => A (ix2 r' j)) (fun j : Fin 11264 => B (ix2 n' j)) := by
  obtain rfl : r = r' := Fin.ext hr
  obtain rfl : n = n' := Fin.ext hn
  rfl

/-- The output's printed index map, decided over the grid: its block is at (row tile, column tile). -/
theorem v3_idx_facts : ∀ t : Fin cfg3.N,
    win3_2.index t (0 : Fin 2) = t.val / 176 ∧ win3_2.index t (1 : Fin 2) = (t.val / 44) % 4 :=
  (by decide +kernel : ∀ t : Fin grid3.N, _)

/-- What a last k-step writes back is its block of that array. -/
theorem v3_flushed_eq (c : Dev nD) (t : Fin cfg3.N) (hf : (cfg3.win 2).flush t = true) :
    (dat3 (F := Ideal) V c).flushed 2 t = ((cfg3.win 2).blk t).view.read (Elt Ideal) (v3_G V c) := by
  have ht : t.val % 44 = 43 := (flush3_2 t).mp hf
  obtain ⟨e0, e1⟩ := v3_idx_facts t
  show (cfg3.win 2).cut (grid3.coords t) ((dat3 (F := Ideal) V c).after 2 t) = _
  rw [after3_2]
  funext y
  show (outsAt3 (F := Ideal) V c t.val t.isLt).1 y = v3_G V c (((cfg3.win 2).blk t).view.emb y)
  refine ((congrArg (outsAt3 (F := Ideal) V c t.val t.isLt).1 (eq_ix2 y)).trans (out3_last V c t ht (y 0) (y 1))).trans ?_
  refine v3_sum_congr (V c main_v42) (V c main_v39) _ ((((cfg3.win 2).blk t).view.emb y) 0) _ ((((cfg3.win 2).blk t).view.emb y) 1) ?_ ?_
  · show t.val / 176 * 1024 + (y 0).val = win3_2.index t (0 : Fin 2) * 1024 + 1 * (y 0).val
    omega
  · show t.val / 44 % 4 * 1024 + (y 1).val = win3_2.index t (1 : Fin 2) * 1024 + 1 * (y 1).val
    omega

/-- An index of the output array is in point `t`'s block iff each coordinate is in the block's range on its axis. -/
theorem v3_mem_oblk (t : Fin cfg3.N) (i : S4096x4096.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v43).slice (win3_2.rect t)).set ↔ _
  rw [View.set_slice_whole, Rect.mem_set_unit]
  exact Iff.rfl

/-- The blocks written back tile the array: entry `(r, n)` is in the block of the last k-step of its tiles. -/
theorem v3_cover (i : S4096x4096.Idx) :
    ∃ t : Fin cfg3.N, (cfg3.win 2).flush t = true ∧ i ∈ ((cfg3.win 2).blk t).view.set := by
  have hi0 : (i 0).val < 4096 := (i 0).isLt
  have hi1 : (i 1).val < 4096 := (i 1).isLt
  have hN : cfg3.N = 704 := N_3
  have hlt : ((i 0).val / 1024 * 4 + (i 1).val / 1024) * 44 + 43 < cfg3.N := by rw [hN]; omega
  obtain ⟨e0, e1⟩ := v3_idx_facts ⟨((i 0).val / 1024 * 4 + (i 1).val / 1024) * 44 + 43, hlt⟩
  refine ⟨⟨((i 0).val / 1024 * 4 + (i 1).val / 1024) * 44 + 43, hlt⟩, (flush3_2 _).mpr ?_, ?_⟩
  · show (((i 0).val / 1024 * 4 + (i 1).val / 1024) * 44 + 43) % 44 = 43
    omega
  rw [v3_mem_oblk]
  intro a
  match a with
  | ⟨0, _⟩ =>
    show win3_2.index ⟨((i 0).val / 1024 * 4 + (i 1).val / 1024) * 44 + 43, hlt⟩ (0 : Fin 2) * 1024 ≤ (i 0).val ∧ (i 0).val < win3_2.index ⟨((i 0).val / 1024 * 4 + (i 1).val / 1024) * 44 + 43, hlt⟩ (0 : Fin 2) * 1024 + 1024
    rw [e0]; show (((i 0).val / 1024 * 4 + (i 1).val / 1024) * 44 + 43) / 176 * 1024 ≤ (i 0).val ∧ (i 0).val < (((i 0).val / 1024 * 4 + (i 1).val / 1024) * 44 + 43) / 176 * 1024 + 1024
    omega
  | ⟨1, _⟩ =>
    show win3_2.index ⟨((i 0).val / 1024 * 4 + (i 1).val / 1024) * 44 + 43, hlt⟩ (1 : Fin 2) * 1024 ≤ (i 1).val ∧ (i 1).val < win3_2.index ⟨((i 0).val / 1024 * 4 + (i 1).val / 1024) * 44 + 43, hlt⟩ (1 : Fin 2) * 1024 + 1024
    rw [e1]; show (((i 0).val / 1024 * 4 + (i 1).val / 1024) * 44 + 43) / 44 % 4 * 1024 ≤ (i 1).val ∧ (i 1).val < (((i 0).val / 1024 * 4 + (i 1).val / 1024) * 44 + 43) / 44 % 4 * 1024 + 1024
    omega

/-- So the output array ends holding the product everywhere. -/
theorem v3_final (c : Dev nD) : (dat3 (F := Ideal) V c).arrAt 2 cfg3.N = v3_G V c :=
  (dat3 (F := Ideal) V c).arrAt_eq_of_cover 2 (v3_G V c) (fun t hf => v3_flushed_eq V c t hf) v3_cover

/-- Row `r`, column `n` of the output array after the region. -/
theorem val3 (V : (c : Dev nD) → (b : Ref sig .tc) → Buf (Elt Ideal) ((c : Thread nD τ).loc b)) (c : Dev nD) (r n : Fin 4096) :
    (dat3 (F := Ideal) V c).arrAt 2 cfg3.N (ValueIdx.ix2 r n) = Cert.Spec.dot (fun j : Fin 11264 => V c main_v42 (ValueIdx.ix2 r j)) (fun j : Fin 11264 => V c main_v39 (ValueIdx.ix2 n j)) :=
  congrFun (v3_final V c) (ValueIdx.ix2 r n)

end Cert.KernelIdeal.Hand

end
-- ==== Proof.KiHostVal.lean ====
/-
  What the host operations of the printed program leave, at the exact instance, in the four arrays its
  pallas_calls read, before the first call: each array read at an index, as a function of @main's arguments
  read at an index.  The activations are a reshape (row `r` of the flat array is row `r % 2048` of batch
  `r / 2048`); each weight tensor goes through the per-tensor ternary quantiser (scale `1 / max(mean |w|, ε)`,
  entries scaled, rounded to even, clamped to [-1, 1], unscaled) and is then padded with zeros at the high
  end of its hidden axis.  Last, what the closing reshape makes of the last call's result.
-/
import proofs.«156148_j65773129171180_1_alg».proof.Proof.Gen.KernelIdeal.Regions
import proofs.«156148_j65773129171180_1_alg».proof.Proof.Spec
import Idealize.ShloMosaic.Lib.StableHlo.Run
import Idealize.ShloMosaic.Lib.Pipeline.Value
import Idealize.ShloMosaic.Lib.ValueIdx
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (c : Dev nD)

/-! ## The two reshapes, read at an index -/

/-- Row `r` of a `[2, 2048, 4096]` array flattened to `[4096, 4096]` is row `r % 2048` of batch `r / 2048`. -/
theorem hv_flatten_apply (x : S2x2048x4096.Idx → EReal) (r k : Fin 4096) :
    shapeCast S4096x4096 x shapeCasts_S2x2048x4096_S4096x4096 (ix2 r k)
      = x (ix3 ⟨r.val / 2048, by omega⟩ ⟨r.val % 2048, by omega⟩ k) := by
  refine shapeCast_apply x _ _ _ ?_
  rw [Shape.rowMajor_val_three, Shape.rowMajor_val_two]
  show (r.val / 2048 * 2048 + r.val % 2048) * 4096 + k.val = r.val * 4096 + k.val
  omega

/-- Entry `(b, s, n)` of a `[4096, 4096]` array split to `[2, 2048, 4096]` is its row `b · 2048 + s`. -/
theorem hv_unflatten_apply (x : S4096x4096.Idx → EReal) (b : Fin 2) (s : Fin 2048) (n : Fin 4096) :
    shapeCast S2x2048x4096 x shapeCasts_S4096x4096_S2x2048x4096 (ix3 b s n)
      = x (ix2 ⟨b.val * 2048 + s.val, by omega⟩ n) := by
  refine shapeCast_apply x _ _ _ ?_
  rw [Shape.rowMajor_val_three, Shape.rowMajor_val_two]
  rfl

/-! ## The activations -/

/-- No later host operation writes the flat activations. -/
theorem hv_V18_v0 : V18 m c main_v0 = V1 m c main_v0 :=
  (V18_of m c main_v0 (by decide)).trans <| (V17_of m c main_v0 (by decide)).trans <| (V16_of m c main_v0 (by decide)).trans <|
  (V15_of m c main_v0 (by decide)).trans <| (V14_of m c main_v0 (by decide)).trans <| (V13_of m c main_v0 (by decide)).trans <|
  (V12_of m c main_v0 (by decide)).trans <| (V11_of m c main_v0 (by decide)).trans <| (V10_of m c main_v0 (by decide)).trans <|
  (V9_of m c main_v0 (by decide)).trans <| (V8_of m c main_v0 (by decide)).trans <| (V7_of m c main_v0 (by decide)).trans <|
  (V6_of m c main_v0 (by decide)).trans <| (V5_of m c main_v0 (by decide)).trans <| (V4_of m c main_v0 (by decide)).trans <|
  (V3_of m c main_v0 (by decide)).trans <| (V2_of m c main_v0 (by decide))

/-- The flat activations are the argument reshaped. -/
theorem hv_V1_v0 : (V1 m c main_v0 : S4096x4096.Idx → EReal)
    = shapeCast S4096x4096 (m ((c : Thread nD τ).loc main_arg0) : S2x2048x4096.Idx → EReal) shapeCasts_S2x2048x4096_S4096x4096 := by
  show StableHlo.after hostOps0 _ (Proc.devRef .tc main_v0) = _
  after_results
  rfl

/-- Row `r` of the flat activations is row `r % 2048` of batch `r / 2048`. -/
theorem host_v0 (r k : Fin 4096) :
    V18 m c main_v0 (ValueIdx.ix2 r k)
      = m ((c : Thread nD τ).loc main_arg0) (ValueIdx.ix3 ⟨r.val / 2048, by omega⟩ ⟨r.val % 2048, by omega⟩ k) := by
  rw [hv_V18_v0, hv_V1_v0]
  exact hv_flatten_apply _ r k

/-- The closing reshape: entry `(b, s, n)` of the result is row `b · 2048 + s` of the last call's output. -/
theorem tail_v44 (W : Valuation τ sig (Elt Ideal)) (b : Fin 2) (s : Fin 2048) (n : Fin 4096) :
    StableHlo.after hostOps4 W main_v44 (ValueIdx.ix3 b s n)
      = W main_v43 (ValueIdx.ix2 ⟨b.val * 2048 + s.val, by omega⟩ n) := by
  have e : (StableHlo.after hostOps4 W main_v44 : S2x2048x4096.Idx → EReal)
      = shapeCast S2x2048x4096 (W main_v43 : S4096x4096.Idx → EReal) shapeCasts_S4096x4096_S2x2048x4096 := by
    show StableHlo.after hostOps4 W (Proc.devRef .tc main_v44) = _
    after_results
    rfl
  rw [e]
  exact hv_unflatten_apply _ b s n

/-! ## The host's operations read at an index -/

section Pure
variable {S : Shape} (hb : S_.BroadcastsInDim S (![] : Fin 0 → Fin S.rank))

/-- A rank-zero vector broadcast to any shape reads its one entry everywhere. -/
theorem hv_bcast0_apply (x : FVec Ideal S_ .f32) (i : S.Idx) : broadcastInDim S ![] hb x i = x ix0 :=
  broadcastInDim_apply _ hb x i ix0 (fun a => a.elim0)

/-- An array times a broadcast scalar. -/
theorem hv_mul_bcast0_apply (w : FVec Ideal S .f32) (sc : FVec Ideal S_ .f32) (i : S.Idx) :
    mulf w (broadcastInDim S ![] hb sc) i = w i * sc ix0 := by
  rw [mulf_apply, hv_bcast0_apply]

/-- An array clamped between two broadcast scalars. -/
theorem hv_clip_bcast0_apply (x : FVec Ideal S .f32) (lo hi : FVec Ideal S_ .f32) (i : S.Idx) :
    minimumf (broadcastInDim S ![] hb (id hi)) (maximumf (broadcastInDim S ![] hb (id lo)) x) i
      = min (hi ix0) (max (lo ix0) (x i)) := by
  rw [minimumf_apply, maximumf_apply, hv_bcast0_apply, hv_bcast0_apply]; rfl

/-- An array divided by a broadcast scalar and converted to bf16 (the identity on the extended reals). -/
theorem hv_div_bcast0_trunc_apply (x : FVec Ideal S .f32) (sc : FVec Ideal S_ .f32) (i : S.Idx) :
    (truncf .bf16 (Host.divf x (broadcastInDim S ![] hb sc)) bitsLt_bf16_f32 : FVec Ideal S .bf16) i
      = Ideal.div (x i) (sc ix0) := by
  rw [truncf_apply]
  show Ideal.div (x i) (broadcastInDim S ![] hb sc i) = _
  rw [hv_bcast0_apply]

end Pure

/-- The quantiser's scale as the host computes it, a rank-zero vector, from the absolute sum. -/
def hv_hscale (s : FVec Ideal S_ .f32) : FVec Ideal S_ .f32 :=
  Host.divf (constant S_ .f32 0x3F800000#32)
    (maximumf (Host.divf s (constant S_ .f32 0x4C2C0000#32)) (constant S_ .f32 0x3727C5AC#32))

/-- It is the specification's scale of the sum. -/
theorem hv_hscale_apply (s : FVec Ideal S_ .f32) (i : S_.Idx) : hv_hscale s i = Cert.Spec.wscale (s i) := rfl

/-- A weight tensor's absolute sum, as the host computes it. -/
def wsum1 (w : (⟨S11008x4096, .f32⟩ : BufTy).Contents (Elt Ideal)) : EReal :=
  Host.reduceAdd (F := Ideal) (Host.absf w) (constant S_ .f32 0x00000000#32) reducesTo_S11008x4096_S_d0_1 h_S_ ValueIdx.ix0

/-- The same for the tensor of the transposed shape. -/
def wsum3 (w : (⟨S4096x11008, .f32⟩ : BufTy).Contents (Elt Ideal)) : EReal :=
  Host.reduceAdd (F := Ideal) (Host.absf w) (constant S_ .f32 0x00000000#32) reducesTo_S4096x11008_S_d0_1 h_S_ ValueIdx.ix0

/-- The padding value: the integer constant 0 converted is the real 0. -/
theorem hv_padval_apply (z : IVec S_ 32) (hz : z = constantI S_ 32 0#32) (i : S_.Idx) :
    (sitofp .bf16 z : FVec Ideal S_ .bf16) i = 0 := by
  subst hz
  show (((0#32 : BitVec 32).toInt : ℝ) : EReal) = 0
  rw [show (0#32 : BitVec 32).toInt = 0 by decide]
  simp

/-- A `[11008, 4096]` array padded with 256 rows at the high end, read at an index. -/
theorem hv_pad_rows_apply (x : FVec Ideal S11008x4096 .bf16) (v : FVec Ideal S_ .bf16) (j : Fin 11264) (k : Fin 4096) :
    pad S11264x4096 ![0, 0] ![256, 0] ![0, 0] x v pads_S11008x4096_S11264x4096_02560_000 h_S_ (ix2 j k)
      = if h : j.val < 11008 then x (ix2 ⟨j.val, h⟩ k) else v ix0 := by
  by_cases h : j.val < 11008
  · rw [dif_pos h]
    refine pad_apply_of_inside _ _ _ x v _ _ (ix2 j k) (ix2 ⟨j.val, h⟩ k) ?_
    intro a
    match a with
    | ⟨0, _⟩ => show j.val = 0 + j.val * (0 + 1); omega
    | ⟨1, _⟩ => show k.val = 0 + k.val * (0 + 1); omega
  · rw [dif_neg h, pad_apply_of_not_inside _ _ _ x v _ _ (ix2 j k) 0 ?_]
    · exact congrArg v (eq_ix0 _)
    · show ¬(0 ≤ j.val ∧ (j.val - 0) % (0 + 1) = 0 ∧ (j.val - 0) / (0 + 1) < 11008)
      omega

/-- A `[4096, 11008]` array padded with 256 columns at the high end, read at an index. -/
theorem hv_pad_cols_apply (x : FVec Ideal S4096x11008 .bf16) (v : FVec Ideal S_ .bf16) (n : Fin 4096) (j : Fin 11264) :
    pad S4096x11264 ![0, 0] ![0, 256] ![0, 0] x v pads_S4096x11008_S4096x11264_000_02560 h_S_ (ix2 n j)
      = if h : j.val < 11008 then x (ix2 n ⟨j.val, h⟩) else v ix0 := by
  by_cases h : j.val < 11008
  · rw [dif_pos h]
    refine pad_apply_of_inside _ _ _ x v _ _ (ix2 n j) (ix2 n ⟨j.val, h⟩) ?_
    intro a
    match a with
    | ⟨0, _⟩ => show n.val = 0 + n.val * (0 + 1); omega
    | ⟨1, _⟩ => show j.val = 0 + j.val * (0 + 1); omega
  · rw [dif_neg h, pad_apply_of_not_inside _ _ _ x v _ _ (ix2 n j) 1 ?_]
    · exact congrArg v (eq_ix0 _)
    · show ¬(0 ≤ j.val ∧ (j.val - 0) % (0 + 1) = 0 ∧ (j.val - 0) / (0 + 1) < 11008)
      omega

/-! ## The first weight tensor (the gate projection): stretch by stretch, from any contents `W` -/

section Steps1
variable (W : Valuation τ sig (Elt Ideal))

/-- The scale. -/
theorem hv_main_v5_apply (w : FVec Ideal S11008x4096 .f32) (hw : W main_arg1 = w) (i : S_.Idx) :
    StableHlo.after hostOps0 W main_v5 i = Cert.Spec.wscale (wsum1 w) := by
  have e : (StableHlo.after hostOps0 W main_v5 : FVec Ideal S_ .f32)
      = hv_hscale (Host.reduceAdd (F := Ideal) (Host.absf w) (constant S_ .f32 0x00000000#32) reducesTo_S11008x4096_S_d0_1 h_S_) := by
    subst hw
    show StableHlo.after hostOps0 W (Proc.devRef .tc main_v5) = _
    after_results <;> rfl
  rw [e, hv_hscale_apply, eq_ix0 i]; rfl

/-- The entries scaled. -/
theorem hv_main_v7_apply (w : FVec Ideal S11008x4096 .f32) (hw : W main_arg1 = w) (i : S11008x4096.Idx) :
    StableHlo.after hostOps0 W main_v7 i = w i * Cert.Spec.wscale (wsum1 w) := by
  have e : (StableHlo.after hostOps0 W main_v7 : FVec Ideal S11008x4096 .f32)
      = mulf w (broadcastInDim S11008x4096 ![] bcast_S_S11008x4096
          (hv_hscale (Host.reduceAdd (F := Ideal) (Host.absf w) (constant S_ .f32 0x00000000#32) reducesTo_S11008x4096_S_d0_1 h_S_))) := by
    subst hw
    show StableHlo.after hostOps0 W (Proc.devRef .tc main_v7) = _
    after_results <;> rfl
  rw [e, hv_mul_bcast0_apply, hv_hscale_apply]; rfl

/-- Rounded to the nearest integer, ties to even. -/
theorem hv_main_v8_apply (x : FVec Ideal S11008x4096 .f32) (hx : W main_v7 = x) (i : S11008x4096.Idx) :
    StableHlo.after hostOps0_1 W main_v8 i = Cert.Spec.rne (x i) := by
  have e : (StableHlo.after hostOps0_1 W main_v8 : FVec Ideal S11008x4096 .f32) = Host.roundeven x := by
    subst hx
    show StableHlo.after hostOps0_1 W (Proc.devRef .tc main_v8) = _
    after_results <;> rfl
  rw [e]; rfl

/-- The clamp's two bounds. -/
theorem hv_main_cst_3 : (StableHlo.after hostOps0_2 W main_cst_3 : FVec Ideal S_ .f32) = constant (F := Ideal) S_ .f32 0xBF800000#32 := by
  show StableHlo.after hostOps0_2 W (Proc.devRef .tc main_cst_3) = _
  after_results <;> rfl
theorem hv_main_cst_4 : (StableHlo.after hostOps0_2 W main_cst_4 : FVec Ideal S_ .f32) = constant (F := Ideal) S_ .f32 0x3F800000#32 := by
  show StableHlo.after hostOps0_2 W (Proc.devRef .tc main_cst_4) = _
  after_results <;> rfl

/-- Clamped to [-1, 1]. -/
theorem hv_main_v9_apply (lo hi : FVec Ideal S_ .f32) (x : FVec Ideal S11008x4096 .f32)
    (hlo : W main_cst_3 = lo) (hhi : W main_cst_4 = hi) (hx : W main_v8 = x) (i : S11008x4096.Idx) :
    StableHlo.after hostOps0_3 W main_v9 i = min (hi ix0) (max (lo ix0) (x i)) := by
  have e : (StableHlo.after hostOps0_3 W main_v9 : FVec Ideal S11008x4096 .f32)
      = minimumf (broadcastInDim S11008x4096 ![] bcast_S_S11008x4096 (id hi))
          (maximumf (broadcastInDim S11008x4096 ![] bcast_S_S11008x4096 (id lo)) x) := by
    subst hlo hhi hx
    show StableHlo.after hostOps0_3 W (Proc.devRef .tc main_v9) = _
    after_results <;> rfl
  rw [e]; exact hv_clip_bcast0_apply bcast_S_S11008x4096 x lo hi i

/-- Divided by the scale again, and converted. -/
theorem hv_main_v12_apply (x : FVec Ideal S11008x4096 .f32) (sc : FVec Ideal S_ .f32)
    (hx : W main_v9 = x) (hsc : W main_v5 = sc) (i : S11008x4096.Idx) :
    StableHlo.after hostOps0_4 W main_v12 i = Ideal.div (x i) (sc ix0) := by
  have e : (StableHlo.after hostOps0_4 W main_v12 : FVec Ideal S11008x4096 .bf16)
      = truncf .bf16 (Host.divf x (broadcastInDim S11008x4096 ![] bcast_S_S11008x4096 sc)) bitsLt_bf16_f32 := by
    subst hx hsc
    show StableHlo.after hostOps0_4 W (Proc.devRef .tc main_v12) = _
    after_results <;> rfl
  rw [e]; exact hv_div_bcast0_trunc_apply bcast_S_S11008x4096 x sc i

/-- The integer zero the padding value is converted from. -/
theorem hv_main_c : (StableHlo.after hostOps0_12 W main_c : IVec S_ 32) = constantI S_ 32 0#32 := by
  show StableHlo.after hostOps0_12 W (Proc.devRef .tc main_c) = _
  after_results <;> rfl

/-- Padded with 256 zero rows at the high end. -/
theorem hv_main_v37_apply (x : FVec Ideal S11008x4096 .bf16) (hx : W main_v12 = x) (hz : W main_c = constantI S_ 32 0#32)
    (j : Fin 11264) (k : Fin 4096) :
    StableHlo.after hostOps0_13 W main_v37 (ix2 j k) = if h : j.val < 11008 then x (ix2 ⟨j.val, h⟩ k) else 0 := by
  have e : (StableHlo.after hostOps0_13 W main_v37 : FVec Ideal S11264x4096 .bf16)
      = pad S11264x4096 ![0, 0] ![256, 0] ![0, 0] x
          (sitofp .bf16 (constantI S_ 32 0#32) : FVec Ideal S_ .bf16) pads_S11008x4096_S11264x4096_02560_000 h_S_ := by
    subst hx
    rw [← hz]
    show StableHlo.after hostOps0_13 W (Proc.devRef .tc main_v37) = _
    after_results <;> rfl
  rw [e, hv_pad_rows_apply]
  split
  · rfl
  · exact hv_padval_apply _ rfl _

end Steps1

/-! ## The second weight tensor (the up projection): stretch by stretch, from any contents `W` -/

section Steps2
variable (W : Valuation τ sig (Elt Ideal))

/-- The scale. -/
theorem hv_main_v17_apply (w : FVec Ideal S11008x4096 .f32) (hw : W main_arg2 = w) (i : S_.Idx) :
    StableHlo.after hostOps0_4 W main_v17 i = Cert.Spec.wscale (wsum1 w) := by
  have e : (StableHlo.after hostOps0_4 W main_v17 : FVec Ideal S_ .f32)
      = hv_hscale (Host.reduceAdd (F := Ideal) (Host.absf w) (constant S_ .f32 0x00000000#32) reducesTo_S11008x4096_S_d0_1 h_S_) := by
    subst hw
    show StableHlo.after hostOps0_4 W (Proc.devRef .tc main_v17) = _
    after_results <;> rfl
  rw [e, hv_hscale_apply, eq_ix0 i]; rfl

/-- The entries scaled. -/
theorem hv_main_v19_apply (w : FVec Ideal S11008x4096 .f32) (hw : W main_arg2 = w) (i : S11008x4096.Idx) :
    StableHlo.after hostOps0_4 W main_v19 i = w i * Cert.Spec.wscale (wsum1 w) := by
  have e : (StableHlo.after hostOps0_4 W main_v19 : FVec Ideal S11008x4096 .f32)
      = mulf w (broadcastInDim S11008x4096 ![] bcast_S_S11008x4096
          (hv_hscale (Host.reduceAdd (F := Ideal) (Host.absf w) (constant S_ .f32 0x00000000#32) reducesTo_S11008x4096_S_d0_1 h_S_))) := by
    subst hw
    show StableHlo.after hostOps0_4 W (Proc.devRef .tc main_v19) = _
    after_results <;> rfl
  rw [e, hv_mul_bcast0_apply, hv_hscale_apply]; rfl

/-- Rounded to the nearest integer, ties to even. -/
theorem hv_main_v20_apply (x : FVec Ideal S11008x4096 .f32) (hx : W main_v19 = x) (i : S11008x4096.Idx) :
    StableHlo.after hostOps0_5 W main_v20 i = Cert.Spec.rne (x i) := by
  have e : (StableHlo.after hostOps0_5 W main_v20 : FVec Ideal S11008x4096 .f32) = Host.roundeven x := by
    subst hx
    show StableHlo.after hostOps0_5 W (Proc.devRef .tc main_v20) = _
    after_results <;> rfl
  rw [e]; rfl

/-- The clamp's two bounds. -/
theorem hv_main_cst_9 : (StableHlo.after hostOps0_6 W main_cst_9 : FVec Ideal S_ .f32) = constant (F := Ideal) S_ .f32 0xBF800000#32 := by
  show StableHlo.after hostOps0_6 W (Proc.devRef .tc main_cst_9) = _
  after_results <;> rfl
theorem hv_main_cst_10 : (StableHlo.after hostOps0_6 W main_cst_10 : FVec Ideal S_ .f32) = constant (F := Ideal) S_ .f32 0x3F800000#32 := by
  show StableHlo.after hostOps0_6 W (Proc.devRef .tc main_cst_10) = _
  after_results <;> rfl

/-- Clamped to [-1, 1]. -/
theorem hv_main_v21_apply (lo hi : FVec Ideal S_ .f32) (x : FVec Ideal S11008x4096 .f32)
    (hlo : W main_cst_9 = lo) (hhi : W main_cst_10 = hi) (hx : W main_v20 = x) (i : S11008x4096.Idx) :
    StableHlo.after hostOps0_7 W main_v21 i = min (hi ix0) (max (lo ix0) (x i)) := by
  have e : (StableHlo.after hostOps0_7 W main_v21 : FVec Ideal S11008x4096 .f32)
      = minimumf (broadcastInDim S11008x4096 ![] bcast_S_S11008x4096 (id hi))
          (maximumf (broadcastInDim S11008x4096 ![] bcast_S_S11008x4096 (id lo)) x) := by
    subst hlo hhi hx
    show StableHlo.after hostOps0_7 W (Proc.devRef .tc main_v21) = _
    after_results <;> rfl
  rw [e]; exact hv_clip_bcast0_apply bcast_S_S11008x4096 x lo hi i

/-- Divided by the scale again, and converted. -/
theorem hv_main_v24_apply (x : FVec Ideal S11008x4096 .f32) (sc : FVec Ideal S_ .f32)
    (hx : W main_v21 = x) (hsc : W main_v17 = sc) (i : S11008x4096.Idx) :
    StableHlo.after hostOps0_8 W main_v24 i = Ideal.div (x i) (sc ix0) := by
  have e : (StableHlo.after hostOps0_8 W main_v24 : FVec Ideal S11008x4096 .bf16)
      = truncf .bf16 (Host.divf x (broadcastInDim S11008x4096 ![] bcast_S_S11008x4096 sc)) bitsLt_bf16_f32 := by
    subst hx hsc
    show StableHlo.after hostOps0_8 W (Proc.devRef .tc main_v24) = _
    after_results <;> rfl
  rw [e]; exact hv_div_bcast0_trunc_apply bcast_S_S11008x4096 x sc i

/-- The integer zero the padding value is converted from. -/
theorem hv_main_c_17 : (StableHlo.after hostOps0_14 W main_c_17 : IVec S_ 32) = constantI S_ 32 0#32 := by
  show StableHlo.after hostOps0_14 W (Proc.devRef .tc main_c_17) = _
  after_results <;> rfl

/-- Padded with 256 zero rows at the high end. -/
theorem hv_main_v38_apply (x : FVec Ideal S11008x4096 .bf16) (hx : W main_v24 = x) (hz : W main_c_17 = constantI S_ 32 0#32)
    (j : Fin 11264) (k : Fin 4096) :
    StableHlo.after hostOps0_15 W main_v38 (ix2 j k) = if h : j.val < 11008 then x (ix2 ⟨j.val, h⟩ k) else 0 := by
  have e : (StableHlo.after hostOps0_15 W main_v38 : FVec Ideal S11264x4096 .bf16)
      = pad S11264x4096 ![0, 0] ![256, 0] ![0, 0] x
          (sitofp .bf16 (constantI S_ 32 0#32) : FVec Ideal S_ .bf16) pads_S11008x4096_S11264x4096_02560_000 h_S_ := by
    subst hx
    rw [← hz]
    show StableHlo.after hostOps0_15 W (Proc.devRef .tc main_v38) = _
    after_results <;> rfl
  rw [e, hv_pad_rows_apply]
  split
  · rfl
  · exact hv_padval_apply _ rfl _

end Steps2

/-! ## The third weight tensor (the down projection): stretch by stretch, from any contents `W` -/

section Steps3
variable (W : Valuation τ sig (Elt Ideal))

/-- The scale. -/
theorem hv_main_v29_apply (w : FVec Ideal S4096x11008 .f32) (hw : W main_arg3 = w) (i : S_.Idx) :
    StableHlo.after hostOps0_8 W main_v29 i = Cert.Spec.wscale (wsum3 w) := by
  have e : (StableHlo.after hostOps0_8 W main_v29 : FVec Ideal S_ .f32)
      = hv_hscale (Host.reduceAdd (F := Ideal) (Host.absf w) (constant S_ .f32 0x00000000#32) reducesTo_S4096x11008_S_d0_1 h_S_) := by
    subst hw
    show StableHlo.after hostOps0_8 W (Proc.devRef .tc main_v29) = _
    after_results <;> rfl
  rw [e, hv_hscale_apply, eq_ix0 i]; rfl

/-- The entries scaled. -/
theorem hv_main_v31_apply (w : FVec Ideal S4096x11008 .f32) (hw : W main_arg3 = w) (i : S4096x11008.Idx) :
    StableHlo.after hostOps0_8 W main_v31 i = w i * Cert.Spec.wscale (wsum3 w) := by
  have e : (StableHlo.after hostOps0_8 W main_v31 : FVec Ideal S4096x11008 .f32)
      = mulf w (broadcastInDim S4096x11008 ![] bcast_S_S4096x11008
          (hv_hscale (Host.reduceAdd (F := Ideal) (Host.absf w) (constant S_ .f32 0x00000000#32) reducesTo_S4096x11008_S_d0_1 h_S_))) := by
    subst hw
    show StableHlo.after hostOps0_8 W (Proc.devRef .tc main_v31) = _
    after_results <;> rfl
  rw [e, hv_mul_bcast0_apply, hv_hscale_apply]; rfl

/-- Rounded to the nearest integer, ties to even. -/
theorem hv_main_v32_apply (x : FVec Ideal S4096x11008 .f32) (hx : W main_v31 = x) (i : S4096x11008.Idx) :
    StableHlo.after hostOps0_9 W main_v32 i = Cert.Spec.rne (x i) := by
  have e : (StableHlo.after hostOps0_9 W main_v32 : FVec Ideal S4096x11008 .f32) = Host.roundeven x := by
    subst hx
    show StableHlo.after hostOps0_9 W (Proc.devRef .tc main_v32) = _
    after_results <;> rfl
  rw [e]; rfl

/-- The clamp's two bounds. -/
theorem hv_main_cst_15 : (StableHlo.after hostOps0_10 W main_cst_15 : FVec Ideal S_ .f32) = constant (F := Ideal) S_ .f32 0xBF800000#32 := by
  show StableHlo.after hostOps0_10 W (Proc.devRef .tc main_cst_15) = _
  after_results <;> rfl
theorem hv_main_cst_16 : (StableHlo.after hostOps0_10 W main_cst_16 : FVec Ideal S_ .f32) = constant (F := Ideal) S_ .f32 0x3F800000#32 := by
  show StableHlo.after hostOps0_10 W (Proc.devRef .tc main_cst_16) = _
  after_results <;> rfl

/-- Clamped to [-1, 1]. -/
theorem hv_main_v33_apply (lo hi : FVec Ideal S_ .f32) (x : FVec Ideal S4096x11008 .f32)
    (hlo : W main_cst_15 = lo) (hhi : W main_cst_16 = hi) (hx : W main_v32 = x) (i : S4096x11008.Idx) :
    StableHlo.after hostOps0_11 W main_v33 i = min (hi ix0) (max (lo ix0) (x i)) := by
  have e : (StableHlo.after hostOps0_11 W main_v33 : FVec Ideal S4096x11008 .f32)
      = minimumf (broadcastInDim S4096x11008 ![] bcast_S_S4096x11008 (id hi))
          (maximumf (broadcastInDim S4096x11008 ![] bcast_S_S4096x11008 (id lo)) x) := by
    subst hlo hhi hx
    show StableHlo.after hostOps0_11 W (Proc.devRef .tc main_v33) = _
    after_results <;> rfl
  rw [e]; exact hv_clip_bcast0_apply bcast_S_S4096x11008 x lo hi i

/-- Divided by the scale again, and converted. -/
theorem hv_main_v36_apply (x : FVec Ideal S4096x11008 .f32) (sc : FVec Ideal S_ .f32)
    (hx : W main_v33 = x) (hsc : W main_v29 = sc) (i : S4096x11008.Idx) :
    StableHlo.after hostOps0_12 W main_v36 i = Ideal.div (x i) (sc ix0) := by
  have e : (StableHlo.after hostOps0_12 W main_v36 : FVec Ideal S4096x11008 .bf16)
      = truncf .bf16 (Host.divf x (broadcastInDim S4096x11008 ![] bcast_S_S4096x11008 sc)) bitsLt_bf16_f32 := by
    subst hx hsc
    show StableHlo.after hostOps0_12 W (Proc.devRef .tc main_v36) = _
    after_results <;> rfl
  rw [e]; exact hv_div_bcast0_trunc_apply bcast_S_S4096x11008 x sc i

/-- The integer zero the padding value is converted from. -/
theorem hv_main_c_18 : (StableHlo.after hostOps0_16 W main_c_18 : IVec S_ 32) = constantI S_ 32 0#32 := by
  show StableHlo.after hostOps0_16 W (Proc.devRef .tc main_c_18) = _
  after_results <;> rfl

/-- Padded with 256 zero columns at the high end. -/
theorem hv_main_v39_apply (x : FVec Ideal S4096x11008 .bf16) (hx : W main_v36 = x) (hz : W main_c_18 = constantI S_ 32 0#32)
    (n : Fin 4096) (j : Fin 11264) :
    StableHlo.after hostOps0_17 W main_v39 (ix2 n j) = if h : j.val < 11008 then x (ix2 n ⟨j.val, h⟩) else 0 := by
  have e : (StableHlo.after hostOps0_17 W main_v39 : FVec Ideal S4096x11264 .bf16)
      = pad S4096x11264 ![0, 0] ![0, 256] ![0, 0] x
          (sitofp .bf16 (constantI S_ 32 0#32) : FVec Ideal S_ .bf16) pads_S4096x11008_S4096x11264_000_02560 h_S_ := by
    subst hx
    rw [← hz]
    show StableHlo.after hostOps0_17 W (Proc.devRef .tc main_v39) = _
    after_results <;> rfl
  rw [e, hv_pad_cols_apply]
  split
  · rfl
  · exact hv_padval_apply _ rfl _

end Steps3

/-! ## The first weight tensor (the gate projection) at the program's own contents -/

/-- The argument as launched. -/
abbrev hv_a1 : FVec Ideal S11008x4096 .f32 := m ((c : Thread nD τ).loc main_arg1)

theorem hv_V1_main_v5 : (V1 m c main_v5 : FVec Ideal S_ .f32) = fun _ => Cert.Spec.wscale (wsum1 (hv_a1 m c)) :=
  funext fun i => hv_main_v5_apply (V0 m c) (hv_a1 m c) rfl i

theorem hv_V1_main_v7 : (V1 m c main_v7 : FVec Ideal S11008x4096 .f32) = fun i => hv_a1 m c i * Cert.Spec.wscale (wsum1 (hv_a1 m c)) :=
  funext fun i => hv_main_v7_apply (V0 m c) (hv_a1 m c) rfl i

theorem hv_V2_main_v8 : (V2 m c main_v8 : FVec Ideal S11008x4096 .f32)
    = fun i => Cert.Spec.rne (hv_a1 m c i * Cert.Spec.wscale (wsum1 (hv_a1 m c))) :=
  funext fun i => hv_main_v8_apply (V1 m c) _ (hv_V1_main_v7 m c) i

theorem hv_V4_main_v9 : (V4 m c main_v9 : FVec Ideal S11008x4096 .f32)
    = fun i => min Cert.Spec.c1 (max Cert.Spec.cm1 (Cert.Spec.rne (hv_a1 m c i * Cert.Spec.wscale (wsum1 (hv_a1 m c))))) :=
  funext fun i => hv_main_v9_apply (V3 m c) _ _ _ (hv_main_cst_3 (V2 m c)) (hv_main_cst_4 (V2 m c))
    ((V3_of m c main_v8 (by decide)).trans (hv_V2_main_v8 m c)) i

theorem hv_V4_main_v5 : (V4 m c main_v5 : FVec Ideal S_ .f32) = fun _ => Cert.Spec.wscale (wsum1 (hv_a1 m c)) :=
  (V4_of m c main_v5 (by decide)).trans <| (V3_of m c main_v5 (by decide)).trans <| (V2_of m c main_v5 (by decide)).trans <| (hv_V1_main_v5 m c)

/-- The tensor quantised. -/
theorem hv_V5_main_v12 : (V5 m c main_v12 : FVec Ideal S11008x4096 .bf16) = fun i => Cert.Spec.wq (wsum1 (hv_a1 m c)) (hv_a1 m c i) :=
  funext fun i => hv_main_v12_apply (V4 m c) _ _ (hv_V4_main_v9 m c) (hv_V4_main_v5 m c) i

theorem hv_V13_main_v12 : (V13 m c main_v12 : FVec Ideal S11008x4096 .bf16) = fun i => Cert.Spec.wq (wsum1 (hv_a1 m c)) (hv_a1 m c i) :=
  (V13_of m c main_v12 (by decide)).trans <| (V12_of m c main_v12 (by decide)).trans <| (V11_of m c main_v12 (by decide)).trans <| (V10_of m c main_v12 (by decide)).trans <| (V9_of m c main_v12 (by decide)).trans <| (V8_of m c main_v12 (by decide)).trans <| (V7_of m c main_v12 (by decide)).trans <| (V6_of m c main_v12 (by decide)).trans <| (hv_V5_main_v12 m c)

/-! ## The second weight tensor (the up projection) at the program's own contents -/

/-- The argument as launched. -/
abbrev hv_a2 : FVec Ideal S11008x4096 .f32 := m ((c : Thread nD τ).loc main_arg2)

theorem hv_V5_main_v17 : (V5 m c main_v17 : FVec Ideal S_ .f32) = fun _ => Cert.Spec.wscale (wsum1 (hv_a2 m c)) :=
  funext fun i => hv_main_v17_apply (V4 m c) (hv_a2 m c) ((V4_of m c main_arg2 (by decide)).trans <| (V3_of m c main_arg2 (by decide)).trans <| (V2_of m c main_arg2 (by decide)).trans <| (V1_of m c main_arg2 (by decide))) i

theorem hv_V5_main_v19 : (V5 m c main_v19 : FVec Ideal S11008x4096 .f32) = fun i => hv_a2 m c i * Cert.Spec.wscale (wsum1 (hv_a2 m c)) :=
  funext fun i => hv_main_v19_apply (V4 m c) (hv_a2 m c) ((V4_of m c main_arg2 (by decide)).trans <| (V3_of m c main_arg2 (by decide)).trans <| (V2_of m c main_arg2 (by decide)).trans <| (V1_of m c main_arg2 (by decide))) i

theorem hv_V6_main_v20 : (V6 m c main_v20 : FVec Ideal S11008x4096 .f32)
    = fun i => Cert.Spec.rne (hv_a2 m c i * Cert.Spec.wscale (wsum1 (hv_a2 m c))) :=
  funext fun i => hv_main_v20_apply (V5 m c) _ (hv_V5_main_v19 m c) i

theorem hv_V8_main_v21 : (V8 m c main_v21 : FVec Ideal S11008x4096 .f32)
    = fun i => min Cert.Spec.c1 (max Cert.Spec.cm1 (Cert.Spec.rne (hv_a2 m c i * Cert.Spec.wscale (wsum1 (hv_a2 m c))))) :=
  funext fun i => hv_main_v21_apply (V7 m c) _ _ _ (hv_main_cst_9 (V6 m c)) (hv_main_cst_10 (V6 m c))
    ((V7_of m c main_v20 (by decide)).trans (hv_V6_main_v20 m c)) i

theorem hv_V8_main_v17 : (V8 m c main_v17 : FVec Ideal S_ .f32) = fun _ => Cert.Spec.wscale (wsum1 (hv_a2 m c)) :=
  (V8_of m c main_v17 (by decide)).trans <| (V7_of m c main_v17 (by decide)).trans <| (V6_of m c main_v17 (by decide)).trans <| (hv_V5_main_v17 m c)

/-- The tensor quantised. -/
theorem hv_V9_main_v24 : (V9 m c main_v24 : FVec Ideal S11008x4096 .bf16) = fun i => Cert.Spec.wq (wsum1 (hv_a2 m c)) (hv_a2 m c i) :=
  funext fun i => hv_main_v24_apply (V8 m c) _ _ (hv_V8_main_v21 m c) (hv_V8_main_v17 m c) i

theorem hv_V15_main_v24 : (V15 m c main_v24 : FVec Ideal S11008x4096 .bf16) = fun i => Cert.Spec.wq (wsum1 (hv_a2 m c)) (hv_a2 m c i) :=
  (V15_of m c main_v24 (by decide)).trans <| (V14_of m c main_v24 (by decide)).trans <| (V13_of m c main_v24 (by decide)).trans <| (V12_of m c main_v24 (by decide)).trans <| (V11_of m c main_v24 (by decide)).trans <| (V10_of m c main_v24 (by decide)).trans <| (hv_V9_main_v24 m c)

/-! ## The third weight tensor (the down projection) at the program's own contents -/

/-- The argument as launched. -/
abbrev hv_a3 : FVec Ideal S4096x11008 .f32 := m ((c : Thread nD τ).loc main_arg3)

theorem hv_V9_main_v29 : (V9 m c main_v29 : FVec Ideal S_ .f32) = fun _ => Cert.Spec.wscale (wsum3 (hv_a3 m c)) :=
  funext fun i => hv_main_v29_apply (V8 m c) (hv_a3 m c) ((V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))) i

theorem hv_V9_main_v31 : (V9 m c main_v31 : FVec Ideal S4096x11008 .f32) = fun i => hv_a3 m c i * Cert.Spec.wscale (wsum3 (hv_a3 m c)) :=
  funext fun i => hv_main_v31_apply (V8 m c) (hv_a3 m c) ((V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))) i

theorem hv_V10_main_v32 : (V10 m c main_v32 : FVec Ideal S4096x11008 .f32)
    = fun i => Cert.Spec.rne (hv_a3 m c i * Cert.Spec.wscale (wsum3 (hv_a3 m c))) :=
  funext fun i => hv_main_v32_apply (V9 m c) _ (hv_V9_main_v31 m c) i

theorem hv_V12_main_v33 : (V12 m c main_v33 : FVec Ideal S4096x11008 .f32)
    = fun i => min Cert.Spec.c1 (max Cert.Spec.cm1 (Cert.Spec.rne (hv_a3 m c i * Cert.Spec.wscale (wsum3 (hv_a3 m c))))) :=
  funext fun i => hv_main_v33_apply (V11 m c) _ _ _ (hv_main_cst_15 (V10 m c)) (hv_main_cst_16 (V10 m c))
    ((V11_of m c main_v32 (by decide)).trans (hv_V10_main_v32 m c)) i

theorem hv_V12_main_v29 : (V12 m c main_v29 : FVec Ideal S_ .f32) = fun _ => Cert.Spec.wscale (wsum3 (hv_a3 m c)) :=
  (V12_of m c main_v29 (by decide)).trans <| (V11_of m c main_v29 (by decide)).trans <| (V10_of m c main_v29 (by decide)).trans <| (hv_V9_main_v29 m c)

/-- The tensor quantised. -/
theorem hv_V13_main_v36 : (V13 m c main_v36 : FVec Ideal S4096x11008 .bf16) = fun i => Cert.Spec.wq (wsum3 (hv_a3 m c)) (hv_a3 m c i) :=
  funext fun i => hv_main_v36_apply (V12 m c) _ _ (hv_V12_main_v33 m c) (hv_V12_main_v29 m c) i

theorem hv_V17_main_v36 : (V17 m c main_v36 : FVec Ideal S4096x11008 .bf16) = fun i => Cert.Spec.wq (wsum3 (hv_a3 m c)) (hv_a3 m c i) :=
  (V17_of m c main_v36 (by decide)).trans <| (V16_of m c main_v36 (by decide)).trans <| (V15_of m c main_v36 (by decide)).trans <| (V14_of m c main_v36 (by decide)).trans <| (hv_V13_main_v36 m c)

/-! ## The three padded weight arrays read at an index -/

theorem hv_V18_v37 : V18 m c main_v37 = V14 m c main_v37 :=
  (V18_of m c main_v37 (by decide)).trans <| (V17_of m c main_v37 (by decide)).trans <| (V16_of m c main_v37 (by decide)).trans <| (V15_of m c main_v37 (by decide))

theorem hv_V18_v38 : V18 m c main_v38 = V16 m c main_v38 :=
  (V18_of m c main_v38 (by decide)).trans <| (V17_of m c main_v38 (by decide))

/-- The first padded weight array: rows below 11008 hold the argument's rows quantised, the rest zero. -/
theorem host_v37 (j : Fin 11264) (k : Fin 4096) :
    V18 m c main_v37 (ValueIdx.ix2 j k)
      = if h : j.val < 11008 then Cert.Spec.wq (wsum1 (m ((c : Thread nD τ).loc main_arg1)))
          (m ((c : Thread nD τ).loc main_arg1) (ValueIdx.ix2 ⟨j.val, h⟩ k)) else 0 := by
  rw [hv_V18_v37]
  exact hv_main_v37_apply (V13 m c) _ (hv_V13_main_v12 m c) (hv_main_c (V12 m c)) j k

/-- The second padded weight array, likewise. -/
theorem host_v38 (j : Fin 11264) (k : Fin 4096) :
    V18 m c main_v38 (ValueIdx.ix2 j k)
      = if h : j.val < 11008 then Cert.Spec.wq (wsum1 (m ((c : Thread nD τ).loc main_arg2)))
          (m ((c : Thread nD τ).loc main_arg2) (ValueIdx.ix2 ⟨j.val, h⟩ k)) else 0 := by
  rw [hv_V18_v38]
  exact hv_main_v38_apply (V15 m c) _ (hv_V15_main_v24 m c) (hv_main_c_17 (V14 m c)) j k

/-- The third padded weight array: columns below 11008 hold the argument's columns quantised, the rest zero. -/
theorem host_v39 (n : Fin 4096) (j : Fin 11264) :
    V18 m c main_v39 (ValueIdx.ix2 n j)
      = if h : j.val < 11008 then Cert.Spec.wq (wsum3 (m ((c : Thread nD τ).loc main_arg3)))
          (m ((c : Thread nD τ).loc main_arg3) (ValueIdx.ix2 n ⟨j.val, h⟩)) else 0 :=
  hv_main_v39_apply (V17 m c) _ (hv_V17_main_v36 m c) (hv_main_c_18 (V16 m c)) n j

end Cert.KernelIdeal.Hand

end
-- ==== Proof.KiValue.lean ====
/-
  The idealised kernel's result as the specification.  The run leaves every unscoped buffer at the last
  boundary's contents; read backwards from the result, boundary by boundary: the result is the reshape of the
  last pallas_call's array, whose entry (r, n) is the sum over the PADDED hidden axis of the quantised hidden
  row times the padded down-projection weights; the quantised hidden row is the row quantiser of the gate row;
  the gate row is the gate of the quantised input row against the padded gate and up weights; the quantised
  input row is the row quantiser of the input's row; and the padded weights are the tensor quantiser's values
  with zero rows (columns) appended.  That is the specification's output row over the padded weights, which the
  padding law turns into the one over the plain weights.
-/
import proofs.«156148_j65773129171180_1_alg».proof.Proof.KiRun
import proofs.«156148_j65773129171180_1_alg».proof.Proof.KiVal0
import proofs.«156148_j65773129171180_1_alg».proof.Proof.KiVal1
import proofs.«156148_j65773129171180_1_alg».proof.Proof.KiVal2
import proofs.«156148_j65773129171180_1_alg».proof.Proof.KiVal3
import proofs.«156148_j65773129171180_1_alg».proof.Proof.KiHostVal
import proofs.«156148_j65773129171180_1_alg».proof.Proof.SpecLaws
import proofs.«156148_j65773129171180_1_alg».proof.Proof.SpecDot

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-! ## Buffers a pallas_call does not write keep their contents across it -/

theorem VR19_v37 (j : Fin 11264) (k : Fin 4096) : VR19 m c main_v37 (ix2 j k) = V18 m c main_v37 (ix2 j k) :=
  congrFun (W19_of_ne m c main_v37 (by decide)) _
theorem VR19_v38 (j : Fin 11264) (k : Fin 4096) : VR19 m c main_v38 (ix2 j k) = V18 m c main_v38 (ix2 j k) :=
  congrFun (W19_of_ne m c main_v38 (by decide)) _
theorem VR21_v39 (n : Fin 4096) (j : Fin 11264) : VR21 m c main_v39 (ix2 n j) = V18 m c main_v39 (ix2 n j) :=
  congrFun ((W21_of_ne m c main_v39 (by decide)).trans ((W20_of_ne m c main_v39 (by decide)).trans (W19_of_ne m c main_v39 (by decide)))) _

/-! ## The arrays each pallas_call wrote -/

/-- The padded gate, up and down weights and the input's rows, as the specification's arguments. -/
def xrow (r : Fin 4096) (k : Fin 4096) : EReal := V18 m c main_v0 (ix2 r k)
def wgp (j : Fin 11264) (k : Fin 4096) : EReal := V18 m c main_v37 (ix2 j k)
def wup (j : Fin 11264) (k : Fin 4096) : EReal := V18 m c main_v38 (ix2 j k)
def wdp (n : Fin 4096) (j : Fin 11264) : EReal := V18 m c main_v39 (ix2 n j)

theorem VR19_v40 (r k : Fin 4096) : VR19 m c main_v40 (ix2 r k) = Cert.Spec.aq (xrow m c r) k :=
  (congrFun (W19_arr m c 1) _).trans (val0 (VR18 m) c r k)

theorem VR20_v41 (r : Fin 4096) (j : Fin 11264) :
    VR20 m c main_v41 (ix2 r j) = Cert.Spec.gate (Cert.Spec.aq (xrow m c r)) (wgp m c) (wup m c) j := by
  have h1 : (fun k : Fin 4096 => VR19 m c main_v40 (ix2 r k)) = Cert.Spec.aq (xrow m c r) := funext fun k => VR19_v40 m c r k
  have h2 : (fun (j' : Fin 11264) (k : Fin 4096) => VR19 m c main_v37 (ix2 j' k)) = wgp m c :=
    funext fun j' => funext fun k => VR19_v37 m c j' k
  have h3 : (fun (j' : Fin 11264) (k : Fin 4096) => VR19 m c main_v38 (ix2 j' k)) = wup m c :=
    funext fun j' => funext fun k => VR19_v38 m c j' k
  refine (congrFun (W20_arr m c 3) _).trans ((val1 (VR19 m) c r j).trans ?_)
  rw [h1, h2, h3]

theorem VR21_v42 (r : Fin 4096) (j : Fin 11264) :
    VR21 m c main_v42 (ix2 r j) = Cert.Spec.aq (Cert.Spec.gate (Cert.Spec.aq (xrow m c r)) (wgp m c) (wup m c)) j := by
  refine (congrFun (W21_arr m c 1) _).trans ((val2 (VR20 m) c r j).trans ?_)
  exact congrArg (fun f => Cert.Spec.aq f j) (funext fun j' => VR20_v41 m c r j')

theorem VR22_v43 (r n : Fin 4096) :
    VR22 m c main_v43 (ix2 r n) = Cert.Spec.outRow (xrow m c r) (wgp m c) (wup m c) (wdp m c) n := by
  have h1 : (fun j : Fin 11264 => VR21 m c main_v42 (ix2 r j))
      = Cert.Spec.aq (Cert.Spec.gate (Cert.Spec.aq (xrow m c r)) (wgp m c) (wup m c)) := funext fun j => VR21_v42 m c r j
  have h2 : (fun j : Fin 11264 => VR21 m c main_v39 (ix2 n j)) = wdp m c n := funext fun j => VR21_v39 m c n j
  refine (congrFun (W22_arr m c 2) _).trans ((val3 (VR21 m) c r n).trans ?_)
  rw [h1, h2, Cert.Spec.outRow_eq_dot]

/-! ## The result -/

/-- The kernel's result at (b, s, n): the specification's output row of the input's row (b, s) over the plain
    quantised weights. -/
theorem result_eq (b : Fin 2) (s : Fin 2048) (n : Fin 4096) :
    W23 m c main_v44 (ix3 b s n)
      = Cert.Spec.outRow (fun k : Fin 4096 => m ((c : Thread nD τ).loc main_arg0) (ix3 b s k))
          (fun (j : Fin 11008) (k : Fin 4096) => Cert.Spec.wq (wsum1 (m ((c : Thread nD τ).loc main_arg1))) (m ((c : Thread nD τ).loc main_arg1) (ix2 j k)))
          (fun (j : Fin 11008) (k : Fin 4096) => Cert.Spec.wq (wsum1 (m ((c : Thread nD τ).loc main_arg2))) (m ((c : Thread nD τ).loc main_arg2) (ix2 j k)))
          (fun (n' : Fin 4096) (j : Fin 11008) => Cert.Spec.wq (wsum3 (m ((c : Thread nD τ).loc main_arg3))) (m ((c : Thread nD τ).loc main_arg3) (ix2 n' j))) n := by
  have hr : b.val * 2048 + s.val < 4096 := by have := b.isLt; have := s.isLt; omega
  rw [show W23 m c main_v44 (ix3 b s n) = W22 m c main_v43 (ix2 ⟨b.val * 2048 + s.val, hr⟩ n) from tail_v44 (W22 m c) b s n]
  refine (VR22_v43 m c ⟨b.val * 2048 + s.val, hr⟩ n).trans ?_
  have hx : xrow m c ⟨b.val * 2048 + s.val, hr⟩ = fun k : Fin 4096 => m ((c : Thread nD τ).loc main_arg0) (ix3 b s k) := by
    funext k
    unfold xrow
    rw [host_v0]
    have h1 : (b.val * 2048 + s.val) / 2048 = b.val := by have := s.isLt; omega
    have h2 : (b.val * 2048 + s.val) % 2048 = s.val := by have := s.isLt; omega
    exact congrArg _ (by
      funext a
      match a with
      | ⟨0, _⟩ => exact Fin.ext h1
      | ⟨1, _⟩ => exact Fin.ext h2
      | ⟨2, _⟩ => rfl)
  rw [hx]
  exact Cert.Spec.outRow_pad (by decide : 11008 ≤ 11264) (by decide) _ _ _ _ _ _ _
    (fun j k => by unfold wgp; exact host_v37 m c j k)
    (fun j k => by unfold wup; exact host_v38 m c j k)
    (fun n' j => by unfold wdp; exact host_v39 m c n' j) n

end Cert.KernelIdeal.Hand

end
-- ==== Proof.RefAfter.lean ====
/- The reference program's run, read stage by stage: the fold of its 149 operations over a valuation has the result
   buffer at the last stage's value of the four arguments, and leaves the arguments as they were. The line is cut
   at the buffers that later stretches read; each stretch is folded on its own over an arbitrary valuation, so no
   step compares more than some two dozen operations. -/
import proofs.«156148_j65773129171180_1_alg».proof.Proof.RefRun
import proofs.«156148_j65773129171180_1_alg».proof.Proof.RefRead

noncomputable section

namespace Cert.ReferenceIdeal.RefAfter

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## Cutting the line -/

/-- The `n` operations of the line that follow its first `i`. -/
def stretch (i n : Nat) : List (HloOp τ sig (Elt F)) := ((ops (F := F)).drop i).take n

section Typed
variable {sig' : RefSig} {τ' : Topo} {Val : EltTy → Type}

/-- An operation over references that carry their own buffer types is the plain operation: the transport
    of contents along a reflexive type equation is the identity. -/
theorem tnullary_self (y : Ref sig' .tc) (hy : y.ty = y.ty) (hy1 hy2) (v : y.ty.Contents Val) :
    TRef.nullary (τ := τ') (TRef.of (T := y.ty) y hy hy1 hy2) v = StableHlo.nullary y v ⟨hy1, hy2⟩ := rfl
theorem tunary_self (x y : Ref sig' .tc) (hx : x.ty = x.ty) (hx1 hx2) (hy : y.ty = y.ty) (hy1 hy2)
    (f : x.ty.Contents Val → y.ty.Contents Val) :
    TRef.unary (τ := τ') (TRef.of (T := x.ty) x hx hx1 hx2) (TRef.of (T := y.ty) y hy hy1 hy2) f
      = StableHlo.unary x y f ⟨hx1, hx2⟩ ⟨hy1, hy2⟩ := rfl
theorem tbinary_self (a b y : Ref sig' .tc) (ha : a.ty = a.ty) (ha1 ha2) (hb : b.ty = b.ty) (hb1 hb2) (hy : y.ty = y.ty) (hy1 hy2)
    (f : a.ty.Contents Val → b.ty.Contents Val → y.ty.Contents Val) :
    TRef.binary (τ := τ') (TRef.of (T := a.ty) a ha ha1 ha2) (TRef.of (T := b.ty) b hb hb1 hb2) (TRef.of (T := y.ty) y hy hy1 hy2) f
      = StableHlo.binary a b y f ⟨ha1, ha2⟩ ⟨hb1, hb2⟩ ⟨hy1, hy2⟩ := rfl
end Typed

/-! ## The stretches

The line is cut after the buffers that a later part reads: the quantised input (operations 1 to 24), the quantised gate
weights (25 to 47), their product (48), the quantised input once more (49 to 72), the quantised up weights (73 to 95), the
hidden rows (96 to 101), the quantised hidden rows (102 to 125), the quantised down weights (126 to 148) and the result
(149). Each stretch is folded over an ARBITRARY valuation `W`: the buffer it is cut after holds its stage of what `W`
holds at the buffers the stretch reads (the operations of a called function first restated as the plain operations they
are, so that no transport of contents along a type equation is left in the folded term), and the buffers a later stretch
reads are left as `W` has them. -/
/-- Operations 1 to 24: the quantised input, of the input. -/
theorem cut1_v11 (W : Valuation τ sig (Elt F)) (x0) (h0 : W main_arg0 = x0) :
    StableHlo.after (stretch (F := F) 0 24) W main_v11 = val_main_v11 (F := F) x0 := by
  subst h0
  simp only [stretch, ops, List.drop_succ_cons, List.drop_zero, List.take_succ_cons, List.take_zero]
  repeat erw [tnullary_self]
  repeat erw [tunary_self]
  repeat erw [tbinary_self]
  after_results_simp
  rfl
/-- Operations 1 to 24 write no argument. -/
theorem cut1_keep (W : Valuation τ sig (Elt F)) :
    StableHlo.after (stretch (F := F) 0 24) W main_arg0 = W main_arg0
      ∧ StableHlo.after (stretch (F := F) 0 24) W main_arg1 = W main_arg1
      ∧ StableHlo.after (stretch (F := F) 0 24) W main_arg2 = W main_arg2
      ∧ StableHlo.after (stretch (F := F) 0 24) W main_arg3 = W main_arg3 := by
  simp only [stretch, ops, List.drop_succ_cons, List.drop_zero, List.take_succ_cons, List.take_zero]
  refine ⟨?_, ?_, ?_, ?_⟩ <;> after_results_simp
/-- Operations 25 to 47: the quantised gate weights, of the gate weights. -/
theorem cut2_v22 (W : Valuation τ sig (Elt F)) (x1) (h1 : W main_arg1 = x1) :
    StableHlo.after (stretch (F := F) 24 23) W main_v22 = val_main_v22 (F := F) x1 := by
  subst h1
  simp only [stretch, ops, List.drop_succ_cons, List.drop_zero, List.take_succ_cons, List.take_zero]
  repeat erw [tnullary_self]
  repeat erw [tunary_self]
  repeat erw [tbinary_self]
  after_results_simp
  rfl
/-- Operations 25 to 47 write neither the quantised input nor an argument. -/
theorem cut2_keep (W : Valuation τ sig (Elt F)) :
    StableHlo.after (stretch (F := F) 24 23) W main_v11 = W main_v11
      ∧ StableHlo.after (stretch (F := F) 24 23) W main_arg0 = W main_arg0
      ∧ StableHlo.after (stretch (F := F) 24 23) W main_arg2 = W main_arg2
      ∧ StableHlo.after (stretch (F := F) 24 23) W main_arg3 = W main_arg3 := by
  simp only [stretch, ops, List.drop_succ_cons, List.drop_zero, List.take_succ_cons, List.take_zero]
  refine ⟨?_, ?_, ?_, ?_⟩ <;> after_results_simp
/-- Operation 48: the gate product, of the quantised input and the quantised gate weights. -/
theorem cut3_v23 (W : Valuation τ sig (Elt F)) (x0 x1)
    (h11 : W main_v11 = val_main_v11 (F := F) x0) (h22 : W main_v22 = val_main_v22 (F := F) x1) :
    StableHlo.after (stretch (F := F) 47 1) W main_v23 = val_main_v23 (F := F) x0 x1 := by
  simp only [stretch, ops, List.drop_succ_cons, List.drop_zero, List.take_succ_cons, List.take_zero]
  repeat erw [tnullary_self]
  repeat erw [tunary_self]
  repeat erw [tbinary_self]
  after_results_simp
  rw [h11, h22, val_main_v23]
/-- Operation 48 writes no argument. -/
theorem cut3_keep (W : Valuation τ sig (Elt F)) :
    StableHlo.after (stretch (F := F) 47 1) W main_arg0 = W main_arg0
      ∧ StableHlo.after (stretch (F := F) 47 1) W main_arg2 = W main_arg2
      ∧ StableHlo.after (stretch (F := F) 47 1) W main_arg3 = W main_arg3 := by
  simp only [stretch, ops, List.drop_succ_cons, List.drop_zero, List.take_succ_cons, List.take_zero]
  refine ⟨?_, ?_, ?_⟩ <;> after_results_simp
/-- Operations 49 to 72: the quantised input once more, in buffers of its own. -/
theorem cut4_v35 (W : Valuation τ sig (Elt F)) (x0) (h0 : W main_arg0 = x0) :
    StableHlo.after (stretch (F := F) 48 24) W main_v35 = val_main_v35 (F := F) x0 := by
  subst h0
  simp only [stretch, ops, List.drop_succ_cons, List.drop_zero, List.take_succ_cons, List.take_zero]
  repeat erw [tnullary_self]
  repeat erw [tunary_self]
  repeat erw [tbinary_self]
  after_results_simp
  rfl
/-- Operations 49 to 72 write neither the gate product nor an argument. -/
theorem cut4_keep (W : Valuation τ sig (Elt F)) :
    StableHlo.after (stretch (F := F) 48 24) W main_v23 = W main_v23
      ∧ StableHlo.after (stretch (F := F) 48 24) W main_arg2 = W main_arg2
      ∧ StableHlo.after (stretch (F := F) 48 24) W main_arg3 = W main_arg3 := by
  simp only [stretch, ops, List.drop_succ_cons, List.drop_zero, List.take_succ_cons, List.take_zero]
  refine ⟨?_, ?_, ?_⟩ <;> after_results_simp
/-- Operations 73 to 95: the quantised up weights, of the up weights. -/
theorem cut5_v46 (W : Valuation τ sig (Elt F)) (x2) (h2 : W main_arg2 = x2) :
    StableHlo.after (stretch (F := F) 72 23) W main_v46 = val_main_v46 (F := F) x2 := by
  subst h2
  simp only [stretch, ops, List.drop_succ_cons, List.drop_zero, List.take_succ_cons, List.take_zero]
  repeat erw [tnullary_self]
  repeat erw [tunary_self]
  repeat erw [tbinary_self]
  after_results_simp
  rfl
/-- Operations 73 to 95 write neither product operand nor the last argument. -/
theorem cut5_keep (W : Valuation τ sig (Elt F)) :
    StableHlo.after (stretch (F := F) 72 23) W main_v23 = W main_v23
      ∧ StableHlo.after (stretch (F := F) 72 23) W main_v35 = W main_v35
      ∧ StableHlo.after (stretch (F := F) 72 23) W main_arg3 = W main_arg3 := by
  simp only [stretch, ops, List.drop_succ_cons, List.drop_zero, List.take_succ_cons, List.take_zero]
  refine ⟨?_, ?_, ?_⟩ <;> after_results_simp
/-- Operations 96 to 101: the hidden rows — the up product times the square of the gate product's positive part. -/
theorem cut6_v50 (W : Valuation τ sig (Elt F)) (x0 x1 x2)
    (h23 : W main_v23 = val_main_v23 (F := F) x0 x1) (h35 : W main_v35 = val_main_v35 (F := F) x0)
    (h46 : W main_v46 = val_main_v46 (F := F) x2) :
    StableHlo.after (stretch (F := F) 95 6) W main_v50 = val_main_v50 (F := F) x0 x1 x2 := by
  simp only [stretch, ops, List.drop_succ_cons, List.drop_zero, List.take_succ_cons, List.take_zero]
  repeat erw [tnullary_self]
  repeat erw [tunary_self]
  repeat erw [tbinary_self]
  after_results_simp
  rw [h23, h35, h46]
  rfl
/-- Operations 96 to 101 do not write the last argument. -/
theorem cut6_keep (W : Valuation τ sig (Elt F)) :
    StableHlo.after (stretch (F := F) 95 6) W main_arg3 = W main_arg3 := by
  simp only [stretch, ops, List.drop_succ_cons, List.drop_zero, List.take_succ_cons, List.take_zero]
  after_results_simp
/-- Operations 102 to 125: the quantised hidden rows, of the hidden rows. -/
theorem cut7_v62 (W : Valuation τ sig (Elt F)) (x0 x1 x2)
    (h50 : W main_v50 = val_main_v50 (F := F) x0 x1 x2) :
    StableHlo.after (stretch (F := F) 101 24) W main_v62 = val_main_v62 (F := F) x0 x1 x2 := by
  simp only [stretch, ops, List.drop_succ_cons, List.drop_zero, List.take_succ_cons, List.take_zero]
  repeat erw [tnullary_self]
  repeat erw [tunary_self]
  repeat erw [tbinary_self]
  after_results_simp
  rw [h50]
  rfl
/-- Operations 102 to 125 do not write the last argument. -/
theorem cut7_keep (W : Valuation τ sig (Elt F)) :
    StableHlo.after (stretch (F := F) 101 24) W main_arg3 = W main_arg3 := by
  simp only [stretch, ops, List.drop_succ_cons, List.drop_zero, List.take_succ_cons, List.take_zero]
  after_results_simp
/-- Operations 126 to 148: the quantised down weights, of the down weights. -/
theorem cut8_v73 (W : Valuation τ sig (Elt F)) (x3) (h3 : W main_arg3 = x3) :
    StableHlo.after (stretch (F := F) 125 23) W main_v73 = val_main_v73 (F := F) x3 := by
  subst h3
  simp only [stretch, ops, List.drop_succ_cons, List.drop_zero, List.take_succ_cons, List.take_zero]
  repeat erw [tnullary_self]
  repeat erw [tunary_self]
  repeat erw [tbinary_self]
  after_results_simp
  rfl
/-- Operations 126 to 148 do not write the quantised hidden rows. -/
theorem cut8_keep (W : Valuation τ sig (Elt F)) :
    StableHlo.after (stretch (F := F) 125 23) W main_v62 = W main_v62 := by
  simp only [stretch, ops, List.drop_succ_cons, List.drop_zero, List.take_succ_cons, List.take_zero]
  after_results_simp
/-- Operation 149: the result, of the quantised hidden rows and the quantised down weights. -/
theorem cut9_v74 (W : Valuation τ sig (Elt F)) (x0 x1 x2 x3)
    (h62 : W main_v62 = val_main_v62 (F := F) x0 x1 x2) (h73 : W main_v73 = val_main_v73 (F := F) x3) :
    StableHlo.after (stretch (F := F) 148 1) W main_v74 = val_main_v74 (F := F) x0 x1 x2 x3 := by
  simp only [stretch, ops, List.drop_succ_cons, List.drop_zero, List.take_succ_cons, List.take_zero]
  repeat erw [tnullary_self]
  repeat erw [tunary_self]
  repeat erw [tbinary_self]
  after_results_simp
  rw [h62, h73, val_main_v74]

/-! ## The line as its stretches -/

/-- The fold over the line from its `i`-th operation on: over the next `n` operations, then over what follows them. -/
theorem after_drop (i n j : Nat) (h : i + n = j) (V : Valuation τ sig (Elt F)) :
    StableHlo.after ((ops (F := F)).drop i) V
      = StableHlo.after ((ops (F := F)).drop j) (StableHlo.after (stretch (F := F) i n) V) := by
  subst h
  rw [← List.drop_drop, ← StableHlo.after_append, stretch, List.take_append_drop]

/-- The fold over the whole line is the fold over its nine stretches in turn. -/
theorem ops_cut (V : Valuation τ sig (Elt F)) :
    StableHlo.after (ops (F := F)) V
      = StableHlo.after (stretch (F := F) 148 1) (StableHlo.after (stretch (F := F) 125 23) (StableHlo.after (stretch (F := F) 101 24) (StableHlo.after (stretch (F := F) 95 6) (StableHlo.after (stretch (F := F) 72 23) (StableHlo.after (stretch (F := F) 48 24) (StableHlo.after (stretch (F := F) 47 1) (StableHlo.after (stretch (F := F) 24 23) (StableHlo.after (stretch (F := F) 0 24) V)))))))) := by
  have h0 : StableHlo.after (ops (F := F)) V = StableHlo.after ((ops (F := F)).drop 0) V := rfl
  have hend : (ops (F := F)).drop 149 = [] := rfl
  rw [h0, after_drop 0 24 24 rfl, after_drop 24 23 47 rfl, after_drop 47 1 48 rfl, after_drop 48 24 72 rfl,
    after_drop 72 23 95 rfl, after_drop 95 6 101 rfl, after_drop 101 24 125 rfl, after_drop 125 23 148 rfl,
    after_drop 148 1 149 rfl, hend, StableHlo.after_nil]

/-! ## The result and the arguments after the whole line -/

/-- After the whole line the result buffer holds the last stage's value of the four arguments: each stretch's
    stage, handed from stretch to stretch through the buffers kept in between. -/
theorem after_v74 (V : Valuation τ sig (Elt F)) :
    StableHlo.after (ops (F := F)) V main_v74
      = val_main_v74 (F := F) (V main_arg0) (V main_arg1) (V main_arg2) (V main_arg3) := by
  rw [ops_cut]
  refine cut9_v74 _ _ _ _ _ ?_ ?_
  · -- the quantised hidden rows: kept by stretch 8, made by stretch 7 of the hidden rows, those by stretch 6
    refine (cut8_keep _).trans (cut7_v62 _ _ _ _ (cut6_v50 _ _ _ _ ?_ ?_ ?_))
    · -- the gate product: kept by stretches 5 and 4, made by stretch 3 of the two quantised operands
      refine (cut5_keep _).1.trans ((cut4_keep _).1.trans (cut3_v23 _ _ _ ?_ ?_))
      · exact (cut2_keep _).1.trans (cut1_v11 _ _ rfl)
      · exact cut2_v22 _ _ (cut1_keep _).2.1
    · -- the quantised input of stretch 4: kept by stretch 5, the input kept by stretches 3, 2 and 1
      exact (cut5_keep _).2.1.trans (cut4_v35 _ _ ((cut3_keep _).1.trans ((cut2_keep _).2.1.trans (cut1_keep _).1)))
    · -- the quantised up weights, the up weights kept by stretches 4 to 1
      exact cut5_v46 _ _ ((cut4_keep _).2.1.trans ((cut3_keep _).2.1.trans ((cut2_keep _).2.2.1.trans (cut1_keep _).2.2.1)))
  · -- the quantised down weights, the down weights kept by stretches 7 to 1
    exact cut8_v73 _ _ ((cut7_keep _).trans ((cut6_keep _).trans ((cut5_keep _).2.2.trans ((cut4_keep _).2.2.trans
      ((cut3_keep _).2.2.trans ((cut2_keep _).2.2.2.trans (cut1_keep _).2.2.2))))))

/-- No operation of the line writes an argument. -/
theorem after_arg0 (V : Valuation τ sig (Elt F)) : StableHlo.after (ops (F := F)) V main_arg0 = V main_arg0 := by
  simp only [ops]
  after_results_simp
theorem after_arg1 (V : Valuation τ sig (Elt F)) : StableHlo.after (ops (F := F)) V main_arg1 = V main_arg1 := by
  simp only [ops]
  after_results_simp
theorem after_arg2 (V : Valuation τ sig (Elt F)) : StableHlo.after (ops (F := F)) V main_arg2 = V main_arg2 := by
  simp only [ops]
  after_results_simp
theorem after_arg3 (V : Valuation τ sig (Elt F)) : StableHlo.after (ops (F := F)) V main_arg3 = V main_arg3 := by
  simp only [ops]
  after_results_simp

/-- On every device, for any float values, from any memory with zero counters: every weakly fair execution of the
    reference program terminates with the result buffer at the last stage's value of the arguments' launch contents,
    and the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74)
          = val_main_v74 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v74).trans (after_v74 _), (h c main_arg0).trans (after_arg0 _),
      (h c main_arg1).trans (after_arg1 _), (h c main_arg2).trans (after_arg2 _), (h c main_arg3).trans (after_arg3 _)⟩)
    (run_seq scopedRefs_eq scopedSems_eq defs main (fun _ => ops) main_eq (fun _ => ops_sub) m ρ)

end Cert.ReferenceIdeal.RefAfter

end
-- ==== Proof.RefSpec.lean ====
/-
  The reference program's result is the specification, index by index, at the ideal values.

  The reference computes, for one token's row x (a row (b, s) of the input):
    the quantised row aq x (its absolute maximum, the scale 127 / max(ε, amax), each entry scaled, rounded,
    clamped and unscaled); the quantised weights wq (the scale 1 / max(ε, sum / n) from the tensor's absolute sum);
    the projections g = Σ_k aq x k · wq w_gate j k and u = Σ_k aq x k · wq w_up j k; the gate max(g, 0)² · u;
    the quantised hidden row aq(gate); and the output Σ_j aq(gate) j · wq w_down n j.
  Each stage is read at an index from the stages before it; the row maxima, which are folds over an axis, are
  read as the fold of max over the axis's coordinates. Two differences of spelling are bridged: the program
  writes max(ε, ·) where the specification writes max(·, ε), and the second copy of the input quantiser and
  the up weight's quantiser are the same functions as the first copy and the gate weight's.
  The absolute sums of the weights stay closed terms (wsumR1, wsumR3): nothing here opens them.
-/
import proofs.«156148_j65773129171180_1_alg».proof.Proof.RefRead
import proofs.«156148_j65773129171180_1_alg».proof.Proof.Spec
import Idealize.ShloMosaic.PureOps.Reduce
import Idealize.ShloMosaic.Lib.ValueIdx

noncomputable section

namespace Cert.ReferenceIdeal.RefSpec

open Cert.ReferenceIdeal Cert.ReferenceIdeal.Gen Cert.ReferenceIdeal.ReadP Idealize.ShloMosaic Idealize.ShloMosaic.ValueIdx

/-! ## A row's absolute maximum -/

/-- The reduced index (b, s) with k put back on the last axis is (b, s, k). -/
theorem lift_ix3 {n : Nat} (h : (⟨3, ![2, 2048, n]⟩ : Shape).Reduces [2] (⟨2, ![2, 2048]⟩ : Shape)) (b : Fin 2) (s : Fin 2048)
    (k : Fin ((⟨3, ![2, 2048, n]⟩ : Shape).size 2)) : h.lift (ix2 b s) k = ix3 b s (⟨k.val, k.isLt⟩ : Fin n) := by
  funext c; apply Fin.ext
  fin_cases c <;> rfl

/-- From -∞ the host's reduce with a maximum body over the last axis of |x|, at row (b, s), is the row's absolute maximum. -/
theorem rowmax_eq {n : Nat} (x : FVec Ideal ⟨3, ![2, 2048, n]⟩ .f32)
    (h' : (⟨3, ![2, 2048, n]⟩ : Shape).ReducesTo [2] (⟨2, ![2, 2048]⟩ : Shape))
    (h : (⟨3, ![2, 2048, n]⟩ : Shape).Reduces [2] (⟨2, ![2, 2048]⟩ : Shape))
    (hu : 0 < (⟨0, ![]⟩ : Shape).numel) (b : Fin 2) (s : Fin 2048) :
    Host.reduce FloatOps.maximumf (Host.absf x) (constant (F := Ideal) (⟨0, ![]⟩ : Shape) .f32 0xFF800000#32) h' hu (ix2 b s)
      = Cert.Spec.amax (fun k : Fin n => x (ix3 b s k)) := by
  rw [Host.reduce_eq_fold_single FloatOps.maximumf (Host.absf x) _ h' h hu]
  have hf : (Host.absf x ∘ h.lift (ix2 b s)) = fun k : Fin n => max (x (ix3 b s k)) (-(x (ix3 b s k))) :=
    funext fun k => congrArg (fun i => max (x i) (-(x i))) (lift_ix3 h b s k)
  exact congrArg (fun f => Finset.fold max Cert.Spec.ninf f (Finset.univ : Finset (Fin n))) hf

/-! ## The activation quantiser of the input row -/

section actq
variable (x0 : (⟨S2x2048x4096, .f32⟩ : BufTy).Contents (Elt Ideal)) (b : Fin 2) (s : Fin 2048)

theorem amax_eq : val_main_v1 (F := Ideal) x0 (ix2 b s) = Cert.Spec.amax (fun k : Fin 4096 => x0 (ix3 b s k)) :=
  rowmax_eq x0 reducesTo_S2x2048x4096_S2x2048_d2 (by decide) h_S_ b s

theorem idx_v2_eq (z : Fin 1) : idx_main_v2 (ix3 b s z) = ix2 b s :=
  funext fun a => match a with | ⟨0, _⟩ => rfl | ⟨1, _⟩ => rfl

theorem idx_v6_eq (k : Fin 4096) : idx_main_v6 (ix3 b s k) = ix3 b s (0 : Fin 1) :=
  funext fun a => match a with | ⟨0, _⟩ => rfl | ⟨1, _⟩ => rfl | ⟨2, _⟩ => rfl

theorem idx_v10_eq (k : Fin 4096) : idx_main_v10 (ix3 b s k) = ix3 b s (0 : Fin 1) :=
  funext fun a => match a with | ⟨0, _⟩ => rfl | ⟨1, _⟩ => rfl | ⟨2, _⟩ => rfl

/-- The row's scale 127 / max(ε, amax). -/
theorem scale_eq : val_main_v5 (F := Ideal) x0 (ix3 b s (0 : Fin 1)) = Cert.Spec.ascale (fun k : Fin 4096 => x0 (ix3 b s k)) := by
  rw [val_main_v5_apply, val_main_v4_apply, val_main_cst_1_apply, val_main_v3_apply, val_main_call0_v1_apply,
    val_main_call0_v0_apply, val_main_cst_0_apply, val_main_v2_apply, idx_v2_eq, amax_eq]
  unfold Cert.Spec.ascale
  rw [max_comm]
  rfl

/-- The quantised input row. -/
theorem actq_eq (k : Fin 4096) :
    val_main_v11 (F := Ideal) x0 (ix3 b s k) = Cert.Spec.aq (fun k' : Fin 4096 => x0 (ix3 b s k')) k := by
  rw [val_main_v11_apply, val_main_v10_apply, idx_v10_eq, val_main_v9_apply, val_main_call2_v4_apply, val_main_call2_v3_apply,
    val_main_cst_3_apply, val_main_call2_v2_apply, val_main_call2_v1_apply, val_main_call2_v0_apply, val_main_cst_2_apply,
    val_main_v8_apply, val_main_v7_apply, val_main_v6_apply, idx_v6_eq, scale_eq]
  rfl

/-- The second copy of the same quantiser in the program is the same function. -/
theorem actq_eq' (k : Fin 4096) :
    val_main_v35 (F := Ideal) x0 (ix3 b s k) = Cert.Spec.aq (fun k' : Fin 4096 => x0 (ix3 b s k')) k :=
  actq_eq x0 b s k

end actq

/-! ## The weight quantisers -/

/-- A weight tensor's absolute sum, as the reference's host computes it. -/
def wsumR1 (w : (⟨S11008x4096, .f32⟩ : BufTy).Contents (Elt Ideal)) : EReal :=
  Host.reduceAdd (F := Ideal) (Host.absf w) (constant S_ .f32 0x00000000#32) reducesTo_S11008x4096_S_d0_1 h_S_ ValueIdx.ix0
def wsumR3 (w : (⟨S4096x11008, .f32⟩ : BufTy).Contents (Elt Ideal)) : EReal :=
  Host.reduceAdd (F := Ideal) (Host.absf w) (constant S_ .f32 0x00000000#32) reducesTo_S4096x11008_S_d0_1 h_S_ ValueIdx.ix0

section wq1
variable (x1 : (⟨S11008x4096, .f32⟩ : BufTy).Contents (Elt Ideal))

theorem wsum1_eq (i : S_.Idx) : val_main_v13 (F := Ideal) x1 i = wsumR1 x1 :=
  congrArg (val_main_v13 (F := Ideal) x1) (eq_ix0 i)

/-- The tensor's scale 1 / max(ε, sum / n). -/
theorem wscale1_eq (i : S_.Idx) : val_main_v16 (F := Ideal) x1 i = Cert.Spec.wscale (wsumR1 x1) := by
  rw [val_main_v16_apply, val_main_cst_7_apply, val_main_v15_apply, val_main_call3_v0_apply, val_main_cst_6_apply,
    val_main_v14_apply, val_main_cst_5_apply, wsum1_eq]
  unfold Cert.Spec.wscale
  rw [max_comm]
  rfl

/-- The quantised gate weight, entry by entry. -/
theorem wq1_eq (i : S11008x4096.Idx) : val_main_v22 (F := Ideal) x1 i = Cert.Spec.wq (wsumR1 x1) (x1 i) := by
  rw [val_main_v22_apply, val_main_v21_apply, wscale1_eq, val_main_v20_apply, val_main_call5_v4_apply, val_main_call5_v3_apply,
    val_main_cst_9_apply, val_main_call5_v2_apply, val_main_call5_v1_apply, val_main_call5_v0_apply, val_main_cst_8_apply,
    val_main_v19_apply, val_main_v18_apply, val_main_v17_apply, wscale1_eq]
  rfl

/-- The up weight goes through the same text of other buffers: the same function. -/
theorem wq2_eq (i : S11008x4096.Idx) : val_main_v46 (F := Ideal) x1 i = Cert.Spec.wq (wsumR1 x1) (x1 i) :=
  wq1_eq x1 i

end wq1

section wq3
variable (x3 : (⟨S4096x11008, .f32⟩ : BufTy).Contents (Elt Ideal))

theorem wsum3_eq (i : S_.Idx) : val_main_v64 (F := Ideal) x3 i = wsumR3 x3 :=
  congrArg (val_main_v64 (F := Ideal) x3) (eq_ix0 i)

theorem wscale3_eq (i : S_.Idx) : val_main_v67 (F := Ideal) x3 i = Cert.Spec.wscale (wsumR3 x3) := by
  rw [val_main_v67_apply, val_main_cst_29_apply, val_main_v66_apply, val_main_call16_v0_apply, val_main_cst_28_apply,
    val_main_v65_apply, val_main_cst_27_apply, wsum3_eq]
  unfold Cert.Spec.wscale
  rw [max_comm]
  rfl

/-- The quantised down weight, entry by entry. -/
theorem wq3_eq (i : S4096x11008.Idx) : val_main_v73 (F := Ideal) x3 i = Cert.Spec.wq (wsumR3 x3) (x3 i) := by
  rw [val_main_v73_apply, val_main_v72_apply, wscale3_eq, val_main_v71_apply, val_main_call18_v4_apply, val_main_call18_v3_apply,
    val_main_cst_31_apply, val_main_call18_v2_apply, val_main_call18_v1_apply, val_main_call18_v0_apply, val_main_cst_30_apply,
    val_main_v70_apply, val_main_v69_apply, val_main_v68_apply, wscale3_eq]
  rfl

end wq3

/-! ## The gate, the quantised hidden row and the output -/

section out
variable (x0 : (⟨S2x2048x4096, .f32⟩ : BufTy).Contents (Elt Ideal)) (x1 x2 : (⟨S11008x4096, .f32⟩ : BufTy).Contents (Elt Ideal))
  (x3 : (⟨S4096x11008, .f32⟩ : BufTy).Contents (Elt Ideal)) (b : Fin 2) (s : Fin 2048)

theorem lidx_v23_eq (j : Fin 11008) (k : Fin 4096) : lidx_main_v23 (ix3 b s j) k = ix3 b s k :=
  funext fun a => match a with | ⟨0, _⟩ => rfl | ⟨1, _⟩ => rfl | ⟨2, _⟩ => rfl
theorem ridx_v23_eq (j : Fin 11008) (k : Fin 4096) : ridx_main_v23 (ix3 b s j) k = ix2 j k :=
  funext fun a => match a with | ⟨0, _⟩ => rfl | ⟨1, _⟩ => rfl
theorem lidx_v47_eq (j : Fin 11008) (k : Fin 4096) : lidx_main_v47 (ix3 b s j) k = ix3 b s k :=
  funext fun a => match a with | ⟨0, _⟩ => rfl | ⟨1, _⟩ => rfl | ⟨2, _⟩ => rfl
theorem ridx_v47_eq (j : Fin 11008) (k : Fin 4096) : ridx_main_v47 (ix3 b s j) k = ix2 j k :=
  funext fun a => match a with | ⟨0, _⟩ => rfl | ⟨1, _⟩ => rfl
theorem lidx_v74_eq (n : Fin 4096) (j : Fin 11008) : lidx_main_v74 (ix3 b s n) j = ix3 b s j :=
  funext fun a => match a with | ⟨0, _⟩ => rfl | ⟨1, _⟩ => rfl | ⟨2, _⟩ => rfl
theorem ridx_v74_eq (n : Fin 4096) (j : Fin 11008) : ridx_main_v74 (ix3 b s n) j = ix2 n j :=
  funext fun a => match a with | ⟨0, _⟩ => rfl | ⟨1, _⟩ => rfl

/-- The gate projection at hidden unit j. -/
theorem gproj_eq (j : Fin 11008) :
    val_main_v23 (F := Ideal) x0 x1 (ix3 b s j)
      = ∑ k : Fin 4096, Cert.Spec.aq (fun k' : Fin 4096 => x0 (ix3 b s k')) k * Cert.Spec.wq (wsumR1 x1) (x1 (ix2 j k)) := by
  rw [val_main_v23_apply]
  exact Finset.sum_congr rfl fun k _ => by rw [lidx_v23_eq, ridx_v23_eq, actq_eq, wq1_eq]

/-- The up projection at hidden unit j. -/
theorem uproj_eq (j : Fin 11008) :
    val_main_v47 (F := Ideal) x0 x2 (ix3 b s j)
      = ∑ k : Fin 4096, Cert.Spec.aq (fun k' : Fin 4096 => x0 (ix3 b s k')) k * Cert.Spec.wq (wsumR1 x2) (x2 (ix2 j k)) := by
  rw [val_main_v47_apply]
  exact Finset.sum_congr rfl fun k _ => by rw [lidx_v47_eq, ridx_v47_eq, actq_eq', wq2_eq]

/-- The gate max(g, 0)² · u at hidden unit j. -/
theorem gate_eq (j : Fin 11008) :
    val_main_v50 (F := Ideal) x0 x1 x2 (ix3 b s j)
      = Cert.Spec.gate (Cert.Spec.aq (fun k : Fin 4096 => x0 (ix3 b s k)))
          (fun (j : Fin 11008) (k : Fin 4096) => Cert.Spec.wq (wsumR1 x1) (x1 (ix2 j k)))
          (fun (j : Fin 11008) (k : Fin 4096) => Cert.Spec.wq (wsumR1 x2) (x2 (ix2 j k))) j := by
  rw [val_main_v50_apply, val_main_v49_apply, val_main_v48_apply, val_main_call12_v0_apply, val_main_call12_cst_apply,
    gproj_eq, uproj_eq]
  rfl

theorem amaxh_eq : val_main_v52 (F := Ideal) x0 x1 x2 (ix2 b s)
    = Cert.Spec.amax (fun j : Fin 11008 => val_main_v50 (F := Ideal) x0 x1 x2 (ix3 b s j)) :=
  rowmax_eq (val_main_v50 (F := Ideal) x0 x1 x2) reducesTo_S2x2048x11008_S2x2048_d2 (by decide) h_S_ b s

theorem idx_v53_eq (z : Fin 1) : idx_main_v53 (ix3 b s z) = ix2 b s :=
  funext fun a => match a with | ⟨0, _⟩ => rfl | ⟨1, _⟩ => rfl
theorem idx_v57_eq (j : Fin 11008) : idx_main_v57 (ix3 b s j) = ix3 b s (0 : Fin 1) :=
  funext fun a => match a with | ⟨0, _⟩ => rfl | ⟨1, _⟩ => rfl | ⟨2, _⟩ => rfl
theorem idx_v61_eq (j : Fin 11008) : idx_main_v61 (ix3 b s j) = ix3 b s (0 : Fin 1) :=
  funext fun a => match a with | ⟨0, _⟩ => rfl | ⟨1, _⟩ => rfl | ⟨2, _⟩ => rfl

/-- The hidden row's scale. -/
theorem scaleh_eq : val_main_v56 (F := Ideal) x0 x1 x2 (ix3 b s (0 : Fin 1))
    = Cert.Spec.ascale (fun j : Fin 11008 => val_main_v50 (F := Ideal) x0 x1 x2 (ix3 b s j)) := by
  rw [val_main_v56_apply, val_main_v55_apply, val_main_cst_23_apply, val_main_v54_apply, val_main_call13_v1_apply,
    val_main_call13_v0_apply, val_main_cst_22_apply, val_main_v53_apply, idx_v53_eq, amaxh_eq]
  generalize val_main_v50 (F := Ideal) x0 x1 x2 = y
  unfold Cert.Spec.ascale
  rw [max_comm]
  rfl

/-- The quantised hidden row. -/
theorem hq_eq (j : Fin 11008) :
    val_main_v62 (F := Ideal) x0 x1 x2 (ix3 b s j)
      = Cert.Spec.aq (fun j' : Fin 11008 => val_main_v50 (F := Ideal) x0 x1 x2 (ix3 b s j')) j := by
  rw [val_main_v62_apply, val_main_v61_apply, idx_v61_eq, val_main_v60_apply, val_main_call15_v4_apply, val_main_call15_v3_apply,
    val_main_cst_25_apply, val_main_call15_v2_apply, val_main_call15_v1_apply, val_main_call15_v0_apply, val_main_cst_24_apply,
    val_main_v59_apply, val_main_v58_apply, val_main_v57_apply, idx_v57_eq, scaleh_eq]
  generalize val_main_v50 (F := Ideal) x0 x1 x2 = y
  rfl

/-- The reference's result, index by index, is the specification's output row. -/
theorem ref_eq (x0 : (⟨S2x2048x4096, .f32⟩ : BufTy).Contents (Elt Ideal)) (x1 x2 : (⟨S11008x4096, .f32⟩ : BufTy).Contents (Elt Ideal))
    (x3 : (⟨S4096x11008, .f32⟩ : BufTy).Contents (Elt Ideal)) (b : Fin 2) (s : Fin 2048) (n : Fin 4096) :
    val_main_v74 (F := Ideal) x0 x1 x2 x3 (ValueIdx.ix3 b s n)
      = Cert.Spec.outRow (fun k : Fin 4096 => x0 (ValueIdx.ix3 b s k))
          (fun (j : Fin 11008) (k : Fin 4096) => Cert.Spec.wq (wsumR1 x1) (x1 (ValueIdx.ix2 j k)))
          (fun (j : Fin 11008) (k : Fin 4096) => Cert.Spec.wq (wsumR1 x2) (x2 (ValueIdx.ix2 j k)))
          (fun (n' : Fin 4096) (j : Fin 11008) => Cert.Spec.wq (wsumR3 x3) (x3 (ValueIdx.ix2 n' j))) n := by
  have hrow : (fun j' : Fin 11008 => val_main_v50 (F := Ideal) x0 x1 x2 (ix3 b s j'))
      = Cert.Spec.gate (Cert.Spec.aq (fun k : Fin 4096 => x0 (ix3 b s k)))
          (fun (j : Fin 11008) (k : Fin 4096) => Cert.Spec.wq (wsumR1 x1) (x1 (ix2 j k)))
          (fun (j : Fin 11008) (k : Fin 4096) => Cert.Spec.wq (wsumR1 x2) (x2 (ix2 j k))) :=
    funext fun j => gate_eq x0 x1 x2 b s j
  rw [val_main_v74_apply]
  unfold Cert.Spec.outRow
  exact Finset.sum_congr rfl fun j _ => by rw [lidx_v74_eq, ridx_v74_eq, hq_eq, wq3_eq, hrow]

end out

end Cert.ReferenceIdeal.RefSpec

end
-- ==== Proof.lean ====
/-
  The certificate: a gated MLP whose activations are quantised per token row and whose weights are quantised
  per tensor, as four pallas_calls (row quantiser, gate-and-up projection, row quantiser, down projection
  accumulated over 44 blocks of the hidden axis padded from 11008 to 11264) against its plain jnp reference.

  At the extended reals both programs compute, for the token row x and output feature n,
      Σ_j aq(gate(aq x)) j · wq(w_down) n j,   gate j = max(g_j, 0)² · u_j,   g = aq(x) · wq(w_gate)ᵀ,  u = aq(x) · wq(w_up)ᵀ,
  with aq the row quantiser and wq the tensor quantiser.  The kernel's padding contributes nothing: a padded
  hidden unit has zero gate and up weights, so its gate is 0 and does not move the row's absolute maximum, and
  its down weight is 0, so its term of the last sum is 0 whatever the quantised value is; a sum over the padded
  axis in 44 blocks from a zero accumulator is the sum over the axis.  No law used needs finiteness.

  The kernel programs' frames (at the word-level and the ideal instance) are one run of @main as host stretches
  and four pallas_calls, which leaves every unscoped buffer at named contents; the reference's run is read
  stage by stage.  `preserves` is `True`: the ideal pass rewrote nothing.
-/
import proofs.«156148_j65773129171180_1_alg».proof.Defs
import proofs.«156148_j65773129171180_1_alg».proof.Proof.Gen.Kernel
import proofs.«156148_j65773129171180_1_alg».proof.Proof.Gen.KernelIdeal
import proofs.«156148_j65773129171180_1_alg».proof.Proof.Gen.ReferenceIdeal
import proofs.«156148_j65773129171180_1_alg».proof.Proof.Gen.Pre_finite_inputs
import proofs.«156148_j65773129171180_1_alg».proof.Proof.KbRun
import proofs.«156148_j65773129171180_1_alg».proof.Proof.KiValue
import proofs.«156148_j65773129171180_1_alg».proof.Proof.RefAfter
import proofs.«156148_j65773129171180_1_alg».proof.Proof.RefSpec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The common result: at (b, s, n) the specification's output row of the input's row (b, s). -/
def G (x0 : (⟨Cert.KernelIdeal.S2x2048x4096, .f32⟩ : BufTy).Contents (Elt Ideal))
    (x1 x2 : (⟨Cert.KernelIdeal.S11008x4096, .f32⟩ : BufTy).Contents (Elt Ideal))
    (x3 : (⟨Cert.KernelIdeal.S4096x11008, .f32⟩ : BufTy).Contents (Elt Ideal)) :
    (⟨Cert.KernelIdeal.S2x2048x4096, .f32⟩ : BufTy).Contents (Elt Ideal) := fun i =>
  Cert.Spec.outRow (fun k : Fin 4096 => x0 (ix3 (i 0) (i 1) k))
    (fun (j : Fin 11008) (k : Fin 4096) => Cert.Spec.wq (Cert.KernelIdeal.Hand.wsum1 x1) (x1 (ix2 j k)))
    (fun (j : Fin 11008) (k : Fin 4096) => Cert.Spec.wq (Cert.KernelIdeal.Hand.wsum1 x2) (x2 (ix2 j k)))
    (fun (n' : Fin 4096) (j : Fin 11008) => Cert.Spec.wq (Cert.KernelIdeal.Hand.wsum3 x3) (x3 (ix2 n' j))) (i 2)

theorem frame_k : Cert.frame_Kernel := fun m ρ _ => Cert.Kernel.Hand.frame_all (F := Bits) m ρ
theorem frame_ki : Cert.frame_KernelIdeal := fun m ρ _ => Cert.KernelIdeal.Hand.frame_all (F := Ideal) m ρ
theorem frame_ri : Cert.frame_ReferenceIdeal := fun m ρ _ =>
  (θ_run Cert.ReferenceIdeal.defs _ _).mono (fun _ h c => (h c).2) (Cert.ReferenceIdeal.RefAfter.run_val (F := Ideal) m ρ)

theorem preserves : Cert.preserves_Kernel_KernelIdeal := trivial

/-- The idealised kernel's result array is `G` of the arguments. -/
theorem kernel_result (m : (ℓ : Loc Cert.KernelIdeal.nD Cert.KernelIdeal.τ Cert.KernelIdeal.sig) → Buf (Elt Ideal) ℓ) (c : Dev Cert.KernelIdeal.nD) :
    Cert.KernelIdeal.Hand.W23 m c Cert.KernelIdeal.main_v44
      = G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext i
  rw [eq_ix3 i]
  exact Cert.KernelIdeal.Hand.result_eq m c (i 0) (i 1) (i 2)

/-- The reference's result stage is `G` of the arguments. -/
theorem reference_result (x0 : (⟨Cert.ReferenceIdeal.S2x2048x4096, .f32⟩ : BufTy).Contents (Elt Ideal))
    (x1 x2 : (⟨Cert.ReferenceIdeal.S11008x4096, .f32⟩ : BufTy).Contents (Elt Ideal))
    (x3 : (⟨Cert.ReferenceIdeal.S4096x11008, .f32⟩ : BufTy).Contents (Elt Ideal)) :
    Cert.ReferenceIdeal.ReadP.val_main_v74 (F := Ideal) x0 x1 x2 x3 = G x0 x1 x2 x3 := by
  funext i
  rw [eq_ix3 i]
  exact Cert.ReferenceIdeal.RefSpec.ref_eq x0 x1 x2 x3 (i 0) (i 1) (i 2)

theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v44 (by decide))).trans (kernel_result m c),
      (h c _ (Cert.KernelIdeal.Hand.mem_uc Cert.KernelIdeal.main_arg0 (by decide))).trans (Cert.KernelIdeal.Hand.W23_main_arg0 m c),
      (h c _ (Cert.KernelIdeal.Hand.mem_uc Cert.KernelIdeal.main_arg1 (by decide))).trans (Cert.KernelIdeal.Hand.W23_main_arg1 m c),
      (h c _ (Cert.KernelIdeal.Hand.mem_uc Cert.KernelIdeal.main_arg2 (by decide))).trans (Cert.KernelIdeal.Hand.W23_main_arg2 m c),
      (h c _ (Cert.KernelIdeal.Hand.mem_uc Cert.KernelIdeal.main_arg3 (by decide))).trans (Cert.KernelIdeal.Hand.W23_main_arg3 m c)⟩
  · refine (θ_run Cert.ReferenceIdeal.defs _ _).mono (fun r h c => ⟨(h c).1.trans ?_, (h c).2⟩)
      (Cert.ReferenceIdeal.RefAfter.run_val (F := Ideal) m' ρ')
    rw [(hagree c).1, (hagree c).2.1, (hagree c).2.2.1, (hagree c).2.2.2]
    exact reference_result _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
